-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2x32768 : Shape := ⟨3, ![256, 2, 32768]⟩
abbrev S2x1077248 : Shape := ⟨2, ![2, 1077248]⟩
abbrev S_ : Shape := ⟨0, ![]⟩

class Facts : Prop where
  bcast_S_S256x2x32768 : S_.BroadcastsInDim S256x2x32768 (![] : Fin 0 → Fin S256x2x32768.rank)
  reducesTo_S256x2x32768_S_d0_1_2 : S256x2x32768.ReducesTo [0, 1, 2] S_
  h_S_ : 0 < S_.numel
  bcast_S_S2x1077248 : S_.BroadcastsInDim S2x1077248 (![] : Fin 0 → Fin S2x1077248.rank)
  reducesTo_S2x1077248_S_d0_1 : S2x1077248.ReducesTo [0, 1] S_

variable [Facts]

def fn {F : FTy → Type} [FloatOps F] (main_arg0 : FVec F S256x2x32768 .f32) (main_arg1 : FVec F S2x1077248 .f32) : IVec S_ 1 :=
  let main_v0 : FVec F S256x2x32768 .f32 := Host.absf main_arg0
  let main_cst : FVec F S_ .f32 := constant S_ .f32 0x7F800000#32
  let main_v1 : FVec F S256x2x32768 .f32 := broadcastInDim S256x2x32768 ![] bcast_S_S256x2x32768 main_cst
  let main_v2 : IVec S256x2x32768 1 := cmpf .olt main_v0 main_v1
  let main_c : IVec S_ 1 := constantI S_ 1 1#1
  let main_v3 : IVec S_ 1 := (fun x v => Host.reduce IntOp.andi x v reducesTo_S256x2x32768_S_d0_1_2 h_S_) main_v2 main_c
  let main_v4 : FVec F S2x1077248 .f32 := Host.absf main_arg1
  let main_cst_0 : FVec F S_ .f32 := constant S_ .f32 0x7F800000#32
  let main_v5 : FVec F S2x1077248 .f32 := broadcastInDim S2x1077248 ![] bcast_S_S2x1077248 main_cst_0
  let main_v6 : IVec S2x1077248 1 := cmpf .olt main_v4 main_v5
  let main_c_1 : IVec S_ 1 := constantI S_ 1 1#1
  let main_v7 : IVec S_ 1 := (fun x v => Host.reduce IntOp.andi x v reducesTo_S2x1077248_S_d0_1 h_S_) main_v6 main_c_1
  let main_v8 : IVec S_ 1 := andi main_v3 main_v7
  main_v8
-- ==== Kernel.lean ====
abbrev S256x2x32768 : Shape := ⟨3, ![256, 2, 32768]⟩
abbrev S2x1077248 : Shape := ⟨2, ![2, 1077248]⟩
abbrev S256x2x256x128 : Shape := ⟨4, ![256, 2, 256, 128]⟩
abbrev S2x8416x128 : Shape := ⟨3, ![2, 8416, 128]⟩
abbrev S2x8192x128 : Shape := ⟨3, ![2, 8192, 128]⟩
abbrev S32x1x256x128 : Shape := ⟨4, ![32, 1, 256, 128]⟩
abbrev S1x8416x128 : Shape := ⟨3, ![1, 8416, 128]⟩
abbrev S1x8192x128 : Shape := ⟨3, ![1, 8192, 128]⟩
abbrev S8416x128 : Shape := ⟨2, ![8416, 128]⟩
abbrev S1x1x256x128 : Shape := ⟨4, ![1, 1, 256, 128]⟩
abbrev S256x128 : Shape := ⟨2, ![256, 128]⟩
abbrev S8192x128 : Shape := ⟨2, ![8192, 128]⟩
abbrev S224x128 : Shape := ⟨2, ![224, 128]⟩
abbrev S1x224x128 : Shape := ⟨3, ![1, 224, 128]⟩
abbrev S2x1048576 : Shape := ⟨2, ![2, 1048576]⟩
abbrev S1x2x1048576 : Shape := ⟨3, ![1, 2, 1048576]⟩

abbrev nBuf : Space → Nat
  | .hbm => 9
  | .vmem => 6
  | .smem => 0
  | _ => 0

abbrev bufTy : (tb : Table) → Fin (tcTables nBuf tb) → BufTy
  | .hbm, ⟨0, _⟩ => ⟨S256x2x32768, .f32⟩
  | .hbm, ⟨1, _⟩ => ⟨S2x1077248, .f32⟩
  | .hbm, ⟨2, _⟩ => ⟨S256x2x256x128, .f32⟩
  | .hbm, ⟨3, _⟩ => ⟨S2x8416x128, .f32⟩
  | .hbm, ⟨4, _⟩ => ⟨S2x8192x128, .f32⟩
  | .hbm, ⟨5, _⟩ => ⟨S2x8416x128, .f32⟩
  | .hbm, ⟨6, _⟩ => ⟨S2x1048576, .f32⟩
  | .hbm, ⟨7, _⟩ => ⟨S1x2x1048576, .f32⟩
  | .hbm, ⟨8, _⟩ => ⟨S2x1077248, .f32⟩
  | .local _ .vmem, ⟨0, _⟩ => ⟨S32x1x256x128, .f32⟩
  | .local _ .vmem, ⟨1, _⟩ => ⟨S32x1x256x128, .f32⟩
  | .local _ .vmem, ⟨2, _⟩ => ⟨S1x8416x128, .f32⟩
  | .local _ .vmem, ⟨3, _⟩ => ⟨S1x8192x128, .f32⟩
  | .local _ .vmem, ⟨4, _⟩ => ⟨S1x8416x128, .f32⟩
  | .local _ .vmem, ⟨5, _⟩ => ⟨S8416x128, .f32⟩
  | _, _ => ⟨S256x2x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c32_i32 : BitVec 32 := 32#32
  let v3 : BitVec 32 := Scalar.muli arg1 c32_i32
  let c0_i32_1 : BitVec 32 := 0#32
  let v4 : BitVec 32 := Scalar.addi v3 c0_i32_1
  let c32_i32_2 : BitVec 32 := 32#32
  let v5 : BitVec 32 := Scalar.muli v4 c32_i32_2
  v5
def k0_off1 (i : grid0.Coords) (c0_i32_1 : BitVec 32) : Fin 2 → Nat :=
  let arg1 : BitVec 32 := BitVec.ofNat 32 (i 1).val
  let c32_i32 : BitVec 32 := 32#32
  let v3 : BitVec 32 := Scalar.muli arg1 c32_i32
  let v4 : BitVec 32 := Scalar.addi v3 c0_i32_1
  let c32_i32_2 : BitVec 32 := 32#32
  let v5 : BitVec 32 := Scalar.muli v4 c32_i32_2
  let v6 : BitVec 32 := v5
  let v12 : Index := Scalar.indexCast v6
  let c0_5 : Index := 0#32
  ![v12.toNat, 0]
def k0_mult2 (i : grid0.Coords) : BitVec 32 :=
  let arg1 : BitVec 32 := BitVec.ofNat 32 (i 1).val
  let c32_i32_7 : BitVec 32 := 32#32
  let v19 : BitVec 32 := Scalar.muli arg1 c32_i32_7
  let c1_i32 : BitVec 32 := 1#32
  let v20 : BitVec 32 := Scalar.addi v19 c1_i32
  let c32_i32_8 : BitVec 32 := 32#32
  let v21 : BitVec 32 := Scalar.muli v20 c32_i32_8
  v21
def k0_mult3 (i : grid0.Coords) : BitVec 32 :=
  let arg1 : BitVec 32 := BitVec.ofNat 32 (i 1).val
  let c32_i32_15 : BitVec 32 := 32#32
  let v35 : BitVec 32 := Scalar.muli arg1 c32_i32_15
  let c2_i32 : BitVec 32 := 2#32
  let v36 : BitVec 32 := Scalar.addi v35 c2_i32
  let c32_i32_16 : BitVec 32 := 32#32
  let v37 : BitVec 32 := Scalar.muli v36 c32_i32_16
  v37
def k0_mult4 (i : grid0.Coords) : BitVec 32 :=
  let arg1 : BitVec 32 := BitVec.ofNat 32 (i 1).val
  let c32_i32_23 : BitVec 32 := 32#32
  let v51 : BitVec 32 := Scalar.muli arg1 c32_i32_23
  let c3_i32 : BitVec 32 := 3#32
  let v52 : BitVec 32 := Scalar.addi v51 c3_i32
  let c32_i32_24 : BitVec 32 := 32#32
  let v53 : BitVec 32 := Scalar.muli v52 c32_i32_24
  v53
def k0_mult5 (i : grid0.Coords) : BitVec 32 :=
  let arg1 : BitVec 32 := BitVec.ofNat 32 (i 1).val
  let c32_i32_31 : BitVec 32 := 32#32
  let v67 : BitVec 32 := Scalar.muli arg1 c32_i32_31
  let c4_i32 : BitVec 32 := 4#32
  let v68 : BitVec 32 := Scalar.addi v67 c4_i32
  let c32_i32_32 : BitVec 32 := 32#32
  let v69 : BitVec 32 := Scalar.muli v68 c32_i32_32
  v69
def k0_mult6 (i : grid0.Coords) : BitVec 32 :=
  let arg1 : BitVec 32 := BitVec.ofNat 32 (i 1).val
  let c32_i32_39 : BitVec 32 := 32#32
  let v83 : BitVec 32 := Scalar.muli arg1 c32_i32_39
  let c5_i32 : BitVec 32 := 5#32
  let v84 : BitVec 32 := Scalar.addi v83 c5_i32
  let c32_i32_40 : BitVec 32 := 32#32
  let v85 : BitVec 32 := Scalar.muli v84 c32_i32_40
  v85
def k0_mult7 (i : grid0.Coords) : BitVec 32 :=
  let arg1 : BitVec 32 := BitVec.ofNat 32 (i 1).val
  let c32_i32_47 : BitVec 32 := 32#32
  let v99 : BitVec 32 := Scalar.muli arg1 c32_i32_47
  let c6_i32 : BitVec 32 := 6#32
  let v100 : BitVec 32 := Scalar.addi v99 c6_i32
  let c32_i32_48 : BitVec 32 := 32#32
  let v101 : BitVec 32 := Scalar.muli v100 c32_i32_48
  v101
def k0_mult8 (i : grid0.Coords) : BitVec 32 :=
  let arg1 : BitVec 32 := BitVec.ofNat 32 (i 1).val
  let c32_i32_55 : BitVec 32 := 32#32
  let v115 : BitVec 32 := Scalar.muli arg1 c32_i32_55
  let c7_i32 : BitVec 32 := 7#32
  let v116 : BitVec 32 := Scalar.addi v115 c7_i32
  let c32_i32_56 : BitVec 32 := 32#32
  let v117 : BitVec 32 := Scalar.muli v116 c32_i32_56
  v117
def k0_mult9 (i : grid0.Coords) : BitVec 32 :=
  let arg1 : BitVec 32 := BitVec.ofNat 32 (i 1).val
  let c32_i32_63 : BitVec 32 := 32#32
  let v131 : BitVec 32 := Scalar.muli arg1 c32_i32_63
  let c8_i32 : BitVec 32 := 8#32
  let v132 : BitVec 32 := Scalar.addi v131 c8_i32
  let c32_i32_64 : BitVec 32 := 32#32
  let v133 : BitVec 32 := Scalar.muli v132 c32_i32_64
  v133
def k0_mult10 (i : grid0.Coords) : BitVec 32 :=
  let arg1 : BitVec 32 := BitVec.ofNat 32 (i 1).val
  let c32_i32_71 : BitVec 32 := 32#32
  let v147 : BitVec 32 := Scalar.muli arg1 c32_i32_71
  let c9_i32 : BitVec 32 := 9#32
  let v148 : BitVec 32 := Scalar.addi v147 c9_i32
  let c32_i32_72 : BitVec 32 := 32#32
  let v149 : BitVec 32 := Scalar.muli v148 c32_i32_72
  v149
def k0_mult11 (i : grid0.Coords) : BitVec 32 :=
  let arg1 : BitVec 32 := BitVec.ofNat 32 (i 1).val
  let c32_i32_79 : BitVec 32 := 32#32
  let v163 : BitVec 32 := Scalar.muli arg1 c32_i32_79
  let c10_i32 : BitVec 32 := 10#32
  let v164 : BitVec 32 := Scalar.addi v163 c10_i32
  let c32_i32_80 : BitVec 32 := 32#32
  let v165 : BitVec 32 := Scalar.muli v164 c32_i32_80
  v165
def k0_mult12 (i : grid0.Coords) : BitVec 32 :=
  let arg1 : BitVec 32 := BitVec.ofNat 32 (i 1).val
  let c32_i32_87 : BitVec 32 := 32#32
  let v179 : BitVec 32 := Scalar.muli arg1 c32_i32_87
  let c11_i32 : BitVec 32 := 11#32
  let v180 : BitVec 32 := Scalar.addi v179 c11_i32
  let c32_i32_88 : BitVec 32 := 32#32
  let v181 : BitVec 32 := Scalar.muli v180 c32_i32_88
  v181
def k0_mult13 (i : grid0.Coords) : BitVec 32 :=
  let arg1 : BitVec 32 := BitVec.ofNat 32 (i 1).val
  let c32_i32_95 : BitVec 32 := 32#32
  let v195 : BitVec 32 := Scalar.muli arg1 c32_i32_95
  let c12_i32 : BitVec 32 := 12#32
  let v196 : BitVec 32 := Scalar.addi v195 c12_i32
  let c32_i32_96 : BitVec 32 := 32#32
  let v197 : BitVec 32 := Scalar.muli v196 c32_i32_96
  v197
def k0_mult14 (i : grid0.Coords) : BitVec 32 :=
  let arg1 : BitVec 32 := BitVec.ofNat 32 (i 1).val
  let c32_i32_103 : BitVec 32 := 32#32
  let v211 : BitVec 32 := Scalar.muli arg1 c32_i32_103
  let c13_i32 : BitVec 32 := 13#32
  let v212 : BitVec 32 := Scalar.addi v211 c13_i32
  let c32_i32_104 : BitVec 32 := 32#32
  let v213 : BitVec 32 := Scalar.muli v212 c32_i32_104
  v213
def k0_mult15 (i : grid0.Coords) : BitVec 32 :=
  let arg1 : BitVec 32 := BitVec.ofNat 32 (i 1).val
  let c32_i32_111 : BitVec 32 := 32#32
  let v227 : BitVec 32 := Scalar.muli arg1 c32_i32_111
  let c14_i32 : BitVec 32 := 14#32
  let v228 : BitVec 32 := Scalar.addi v227 c14_i32
  let c32_i32_112 : BitVec 32 := 32#32
  let v229 : BitVec 32 := Scalar.muli v228 c32_i32_112
  v229
def k0_mult16 (i : grid0.Coords) : BitVec 32 :=
  let arg1 : BitVec 32 := BitVec.ofNat 32 (i 1).val
  let c32_i32_119 : BitVec 32 := 32#32
  let v243 : BitVec 32 := Scalar.muli arg1 c32_i32_119
  let c15_i32 : BitVec 32 := 15#32
  let v244 : BitVec 32 := Scalar.addi v243 c15_i32
  let c32_i32_120 : BitVec 32 := 32#32
  let v245 : BitVec 32 := Scalar.muli v244 c32_i32_120
  v245
def k0_mult17 (i : grid0.Coords) : BitVec 32 :=
  let arg1 : BitVec 32 := BitVec.ofNat 32 (i 1).val
  let c32_i32_127 : BitVec 32 := 32#32
  let v259 : BitVec 32 := Scalar.muli arg1 c32_i32_127
  let c16_i32 : BitVec 32 := 16#32
  let v260 : BitVec 32 := Scalar.addi v259 c16_i32
  let c32_i32_128 : BitVec 32 := 32#32
  let v261 : BitVec 32 := Scalar.muli v260 c32_i32_128
  v261
def k0_mult18 (i : grid0.Coords) : BitVec 32 :=
  let arg1 : BitVec 32 := BitVec.ofNat 32 (i 1).val
  let c32_i32_135 : BitVec 32 := 32#32
  let v275 : BitVec 32 := Scalar.muli arg1 c32_i32_135
  let c17_i32 : BitVec 32 := 17#32
  let v276 : BitVec 32 := Scalar.addi v275 c17_i32
  let c32_i32_136 : BitVec 32 := 32#32
  let v277 : BitVec 32 := Scalar.muli v276 c32_i32_136
  v277
def k0_mult19 (i : grid0.Coords) : BitVec 32 :=
  let arg1 : BitVec 32 := BitVec.ofNat 32 (i 1).val
  let c32_i32_143 : BitVec 32 := 32#32
  let v291 : BitVec 32 := Scalar.muli arg1 c32_i32_143
  let c18_i32 : BitVec 32 := 18#32
  let v292 : BitVec 32 := Scalar.addi v291 c18_i32
  let c32_i32_144 : BitVec 32 := 32#32
  let v293 : BitVec 32 := Scalar.muli v292 c32_i32_144
  v293
def k0_mult20 (i : grid0.Coords) : BitVec 32 :=
  let arg1 : BitVec 32 := BitVec.ofNat 32 (i 1).val
  let c32_i32_151 : BitVec 32 := 32#32
  let v307 : BitVec 32 := Scalar.muli arg1 c32_i32_151
  let c19_i32 : BitVec 32 := 19#32
  let v308 : BitVec 32 := Scalar.addi v307 c19_i32
  let c32_i32_152 : BitVec 32 := 32#32
  let v309 : BitVec 32 := Scalar.muli v308 c32_i32_152
  v309
def k0_mult21 (i : grid0.Coords) : BitVec 32 :=
  let arg1 : BitVec 32 := BitVec.ofNat 32 (i 1).val
  let c32_i32_159 : BitVec 32 := 32#32
  let v323 : BitVec 32 := Scalar.muli arg1 c32_i32_159
  let c20_i32 : BitVec 32 := 20#32
  let v324 : BitVec 32 := Scalar.addi v323 c20_i32
  let c32_i32_160 : BitVec 32 := 32#32
  let v325 : BitVec 32 := Scalar.muli v324 c32_i32_160
  v325
def k0_mult22 (i : grid0.Coords) : BitVec 32 :=
  let arg1 : BitVec 32 := BitVec.ofNat 32 (i 1).val
  let c32_i32_167 : BitVec 32 := 32#32
  let v339 : BitVec 32 := Scalar.muli arg1 c32_i32_167
  let c21_i32 : BitVec 32 := 21#32
  let v340 : BitVec 32 := Scalar.addi v339 c21_i32
  let c32_i32_168 : BitVec 32 := 32#32
  let v341 : BitVec 32 := Scalar.muli v340 c32_i32_168
  v341
def k0_mult23 (i : grid0.Coords) : BitVec 32 :=
  let arg1 : BitVec 32 := BitVec.ofNat 32 (i 1).val
  let c32_i32_175 : BitVec 32 := 32#32
  let v355 : BitVec 32 := Scalar.muli arg1 c32_i32_175
  let c22_i32 : BitVec 32 := 22#32
  let v356 : BitVec 32 := Scalar.addi v355 c22_i32
  let c32_i32_176 : BitVec 32 := 32#32
  let v357 : BitVec 32 := Scalar.muli v356 c32_i32_176
  v357
def k0_mult24 (i : grid0.Coords) : BitVec 32 :=
  let arg1 : BitVec 32 := BitVec.ofNat 32 (i 1).val
  let c32_i32_183 : BitVec 32 := 32#32
  let v371 : BitVec 32 := Scalar.muli arg1 c32_i32_183
  let c23_i32 : BitVec 32 := 23#32
  let v372 : BitVec 32 := Scalar.addi v371 c23_i32
  let c32_i32_184 : BitVec 32 := 32#32
  let v373 : BitVec 32 := Scalar.muli v372 c32_i32_184
  v373
def k0_mult25 (i : grid0.Coords) : BitVec 32 :=
  let arg1 : BitVec 32 := BitVec.ofNat 32 (i 1).val
  let c32_i32_191 : BitVec 32 := 32#32
  let v387 : BitVec 32 := Scalar.muli arg1 c32_i32_191
  let c24_i32 : BitVec 32 := 24#32
  let v388 : BitVec 32 := Scalar.addi v387 c24_i32
  let c32_i32_192 : BitVec 32 := 32#32
  let v389 : BitVec 32 := Scalar.muli v388 c32_i32_192
  v389
def k0_mult26 (i : grid0.Coords) : BitVec 32 :=
  let arg1 : BitVec 32 := BitVec.ofNat 32 (i 1).val
  let c32_i32_199 : BitVec 32 := 32#32
  let v403 : BitVec 32 := Scalar.muli arg1 c32_i32_199
  let c25_i32 : BitVec 32 := 25#32
  let v404 : BitVec 32 := Scalar.addi v403 c25_i32
  let c32_i32_200 : BitVec 32 := 32#32
  let v405 : BitVec 32 := Scalar.muli v404 c32_i32_200
  v405
def k0_mult27 (i : grid0.Coords) : BitVec 32 :=
  let arg1 : BitVec 32 := BitVec.ofNat 32 (i 1).val
  let c32_i32_207 : BitVec 32 := 32#32
  let v419 : BitVec 32 := Scalar.muli arg1 c32_i32_207
  let c26_i32 : BitVec 32 := 26#32
  let v420 : BitVec 32 := Scalar.addi v419 c26_i32
  let c32_i32_208 : BitVec 32 := 32#32
  let v421 : BitVec 32 := Scalar.muli v420 c32_i32_208
  v421
def k0_mult28 (i : grid0.Coords) : BitVec 32 :=
  let arg1 : BitVec 32 := BitVec.ofNat 32 (i 1).val
  let c32_i32_215 : BitVec 32 := 32#32
  let v435 : BitVec 32 := Scalar.muli arg1 c32_i32_215
  let c27_i32 : BitVec 32 := 27#32
  let v436 : BitVec 32 := Scalar.addi v435 c27_i32
  let c32_i32_216 : BitVec 32 := 32#32
  let v437 : BitVec 32 := Scalar.muli v436 c32_i32_216
  v437
def k0_mult29 (i : grid0.Coords) : BitVec 32 :=
  let arg1 : BitVec 32 := BitVec.ofNat 32 (i 1).val
  let c32_i32_223 : BitVec 32 := 32#32
  let v451 : BitVec 32 := Scalar.muli arg1 c32_i32_223
  let c28_i32 : BitVec 32 := 28#32
  let v452 : BitVec 32 := Scalar.addi v451 c28_i32
  let c32_i32_224 : BitVec 32 := 32#32
  let v453 : BitVec 32 := Scalar.muli v452 c32_i32_224
  v453
def k0_mult30 (i : grid0.Coords) : BitVec 32 :=
  let arg1 : BitVec 32 := BitVec.ofNat 32 (i 1).val
  let c32_i32_231 : BitVec 32 := 32#32
  let v467 : BitVec 32 := Scalar.muli arg1 c32_i32_231
  let c29_i32 : BitVec 32 := 29#32
  let v468 : BitVec 32 := Scalar.addi v467 c29_i32
  let c32_i32_232 : BitVec 32 := 32#32
  let v469 : BitVec 32 := Scalar.muli v468 c32_i32_232
  v469
def k0_mult31 (i : grid0.Coords) : BitVec 32 :=
  let arg1 : BitVec 32 := BitVec.ofNat 32 (i 1).val
  let c32_i32_239 : BitVec 32 := 32#32
  let v483 : BitVec 32 := Scalar.muli arg1 c32_i32_239
  let c30_i32 : BitVec 32 := 30#32
  let v484 : BitVec 32 := Scalar.addi v483 c30_i32
  let c32_i32_240 : BitVec 32 := 32#32
  let v485 : BitVec 32 := Scalar.muli v484 c32_i32_240
  v485
def k0_mult32 (i : grid0.Coords) : BitVec 32 :=
  let arg1 : BitVec 32 := BitVec.ofNat 32 (i 1).val
  let c32_i32_247 : BitVec 32 := 32#32
  let v499 : BitVec 32 := Scalar.muli arg1 c32_i32_247
  let c31_i32 : BitVec 32 := 31#32
  let v500 : BitVec 32 := Scalar.addi v499 c31_i32
  let c32_i32_248 : BitVec 32 := 32#32
  let v501 : BitVec 32 := Scalar.muli v500 c32_i32_248
  v501
def k0_cond2 (i : grid0.Coords) : BitVec 1 :=
  let arg1 : BitVec 32 := BitVec.ofNat 32 (i 1).val
  let c7_i32_256 : BitVec 32 := 7#32
  let v515 : BitVec 1 := Scalar.cmpi .eq arg1 c7_i32_256
  let v516 : BitVec 32 := Scalar.extui v515
  let c0_i32_257 : BitVec 32 := 0#32
  let v517 : BitVec 1 := Scalar.cmpi .ne v516 c0_i32_257
  v517

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8416x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x8416x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

class Facts₀ : Prop where
  shapeCasts_S256x2x32768_S256x2x256x128 : S256x2x32768.ShapeCasts S256x2x256x128
  shapeCasts_S2x1077248_S2x8416x128 : S2x1077248.ShapeCasts S2x8416x128
  inb_S1x8416x128_S1x8416x128_0_0_0 : ∀ a, (![0, 0, 0] : Fin 3 → Nat) a + S1x8416x128.size a ≤ S1x8416x128.size a
  h_S1x8416x128 : 0 < S1x8416x128.numel
  shapeCasts_S1x8416x128_S8416x128 : S1x8416x128.ShapeCasts S8416x128
  inb_S8416x128_S8416x128_0_0 : ∀ a, (![0, 0] : Fin 2 → Nat) a + S8416x128.size a ≤ S8416x128.size a
  h_S8416x128 : 0 < S8416x128.numel
  shapeCasts_S8416x128_S8416x128 : S8416x128.ShapeCasts S8416x128
  inb_S32x1x256x128_S1x1x256x128_0_0_0_0 : ∀ a, (![0, 0, 0, 0] : Fin 4 → Nat) a + S1x1x256x128.size a ≤ S32x1x256x128.size a
  h_S1x1x256x128 : 0 < S1x1x256x128.numel
  shapeCasts_S1x1x256x128_S256x128 : S1x1x256x128.ShapeCasts S256x128
  h_S256x128 : 0 < S256x128.numel
  shapeCasts_S256x128_S256x128 : S256x128.ShapeCasts S256x128
  inb_S32x1x256x128_S1x1x256x128_1_0_0_0 : ∀ a, (![1, 0, 0, 0] : Fin 4 → Nat) a + S1x1x256x128.size a ≤ S32x1x256x128.size a
  inb_S32x1x256x128_S1x1x256x128_2_0_0_0 : ∀ a, (![2, 0, 0, 0] : Fin 4 → Nat) a + S1x1x256x128.size a ≤ S32x1x256x128.size a
  inb_S32x1x256x128_S1x1x256x128_3_0_0_0 : ∀ a, (![3, 0, 0, 0] : Fin 4 → Nat) a + S1x1x256x128.size a ≤ S32x1x256x128.size a
  inb_S32x1x256x128_S1x1x256x128_4_0_0_0 : ∀ a, (![4, 0, 0, 0] : Fin 4 → Nat) a + S1x1x256x128.size a ≤ S32x1x256x128.size a
  inb_S32x1x256x128_S1x1x256x128_5_0_0_0 : ∀ a, (![5, 0, 0, 0] : Fin 4 → Nat) a + S1x1x256x128.size a ≤ S32x1x256x128.size a
  inb_S32x1x256x128_S1x1x256x128_6_0_0_0 : ∀ a, (![6, 0, 0, 0] : Fin 4 → Nat) a + S1x1x256x128.size a ≤ S32x1x256x128.size a
  inb_S32x1x256x128_S1x1x256x128_7_0_0_0 : ∀ a, (![7, 0, 0, 0] : Fin 4 → Nat) a + S1x1x256x128.size a ≤ S32x1x256x128.size a
  inb_S32x1x256x128_S1x1x256x128_8_0_0_0 : ∀ a, (![8, 0, 0, 0] : Fin 4 → Nat) a + S1x1x256x128.size a ≤ S32x1x256x128.size a
  inb_S32x1x256x128_S1x1x256x128_9_0_0_0 : ∀ a, (![9, 0, 0, 0] : Fin 4 → Nat) a + S1x1x256x128.size a ≤ S32x1x256x128.size a
  inb_S32x1x256x128_S1x1x256x128_10_0_0_0 : ∀ a, (![10, 0, 0, 0] : Fin 4 → Nat) a + S1x1x256x128.size a ≤ S32x1x256x128.size a
  inb_S32x1x256x128_S1x1x256x128_11_0_0_0 : ∀ a, (![11, 0, 0, 0] : Fin 4 → Nat) a + S1x1x256x128.size a ≤ S32x1x256x128.size a
  inb_S32x1x256x128_S1x1x256x128_12_0_0_0 : ∀ a, (![12, 0, 0, 0] : Fin 4 → Nat) a + S1x1x256x128.size a ≤ S32x1x256x128.size a
  inb_S32x1x256x128_S1x1x256x128_13_0_0_0 : ∀ a, (![13, 0, 0, 0] : Fin 4 → Nat) a + S1x1x256x128.size a ≤ S32x1x256x128.size a
  inb_S32x1x256x128_S1x1x256x128_14_0_0_0 : ∀ a, (![14, 0, 0, 0] : Fin 4 → Nat) a + S1x1x256x128.size a ≤ S32x1x256x128.size a
  inb_S32x1x256x128_S1x1x256x128_15_0_0_0 : ∀ a, (![15, 0, 0, 0] : Fin 4 → Nat) a + S1x1x256x128.size a ≤ S32x1x256x128.size a
  inb_S32x1x256x128_S1x1x256x128_16_0_0_0 : ∀ a, (![16, 0, 0, 0] : Fin 4 → Nat) a + S1x1x256x128.size a ≤ S32x1x256x128.size a
  inb_S32x1x256x128_S1x1x256x128_17_0_0_0 : ∀ a, (![17, 0, 0, 0] : Fin 4 → Nat) a + S1x1x256x128.size a ≤ S32x1x256x128.size a
  inb_S32x1x256x128_S1x1x256x128_18_0_0_0 : ∀ a, (![18, 0, 0, 0] : Fin 4 → Nat) a + S1x1x256x128.size a ≤ S32x1x256x128.size a
  inb_S32x1x256x128_S1x1x256x128_19_0_0_0 : ∀ a, (![19, 0, 0, 0] : Fin 4 → Nat) a + S1x1x256x128.size a ≤ S32x1x256x128.size a
  inb_S32x1x256x128_S1x1x256x128_20_0_0_0 : ∀ a, (![20, 0, 0, 0] : Fin 4 → Nat) a + S1x1x256x128.size a ≤ S32x1x256x128.size a
  inb_S32x1x256x128_S1x1x256x128_21_0_0_0 : ∀ a, (![21, 0, 0, 0] : Fin 4 → Nat) a + S1x1x256x128.size a ≤ S32x1x256x128.size a
  inb_S32x1x256x128_S1x1x256x128_22_0_0_0 : ∀ a, (![22, 0, 0, 0] : Fin 4 → Nat) a + S1x1x256x128.size a ≤ S32x1x256x128.size a
  inb_S32x1x256x128_S1x1x256x128_23_0_0_0 : ∀ a, (![23, 0, 0, 0] : Fin 4 → Nat) a + S1x1x256x128.size a ≤ S32x1x256x128.size a
  inb_S32x1x256x128_S1x1x256x128_24_0_0_0 : ∀ a, (![24, 0, 0, 0] : Fin 4 → Nat) a + S1x1x256x128.size a ≤ S32x1x256x128.size a
  inb_S32x1x256x128_S1x1x256x128_25_0_0_0 : ∀ a, (![25, 0, 0, 0] : Fin 4 → Nat) a + S1x1x256x128.size a ≤ S32x1x256x128.size a
  inb_S32x1x256x128_S1x1x256x128_26_0_0_0 : ∀ a, (![26, 0, 0, 0] : Fin 4 → Nat) a + S1x1x256x128.size a ≤ S32x1x256x128.size a
  inb_S32x1x256x128_S1x1x256x128_27_0_0_0 : ∀ a, (![27, 0, 0, 0] : Fin 4 → Nat) a + S1x1x256x128.size a ≤ S32x1x256x128.size a
  inb_S32x1x256x128_S1x1x256x128_28_0_0_0 : ∀ a, (![28, 0, 0, 0] : Fin 4 → Nat) a + S1x1x256x128.size a ≤ S32x1x256x128.size a
  inb_S32x1x256x128_S1x1x256x128_29_0_0_0 : ∀ a, (![29, 0, 0, 0] : Fin 4 → Nat) a + S1x1x256x128.size a ≤ S32x1x256x128.size a
  inb_S32x1x256x128_S1x1x256x128_30_0_0_0 : ∀ a, (![30, 0, 0, 0] : Fin 4 → Nat) a + S1x1x256x128.size a ≤ S32x1x256x128.size a
  inb_S32x1x256x128_S1x1x256x128_31_0_0_0 : ∀ a, (![31, 0, 0, 0] : Fin 4 → Nat) a + S1x1x256x128.size a ≤ S32x1x256x128.size a
  inb_S8416x128_S8192x128_0_0 : ∀ a, (![0, 0] : Fin 2 → Nat) a + S8192x128.size a ≤ S8416x128.size a
  h_S8192x128 : 0 < S8192x128.numel
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  shapeCasts_S8192x128_S1x8192x128 : S8192x128.ShapeCasts S1x8192x128
  inb_S8416x128_S224x128_8192_0 : ∀ a, (![8192, 0] : Fin 2 → Nat) a + S224x128.size a ≤ S8416x128.size a
  h_S224x128 : 0 < S224x128.numel
  inb_S1x8416x128_S1x224x128_0_0_0 : ∀ a, (![0, 0, 0] : Fin 3 → Nat) a + S1x224x128.size a ≤ S1x8416x128.size a
  h_S1x224x128 : 0 < S1x224x128.numel
  shapeCasts_S1x224x128_S224x128 : S1x224x128.ShapeCasts S224x128
  shapeCasts_S224x128_S1x224x128 : S224x128.ShapeCasts S1x224x128
  inb_S1x8416x128_S1x8192x128_0_224_0 : ∀ a, (![0, 224, 0] : Fin 3 → Nat) a + S1x8192x128.size a ≤ S1x8416x128.size a
  shapeCasts_S2x8192x128_S2x1048576 : S2x8192x128.ShapeCasts S2x1048576
  bcast_S2x1048576_S1x2x1048576_1_2 : S2x1048576.BroadcastsInDim S1x2x1048576 (![1, 2] : Fin 2 → Fin S1x2x1048576.rank)
  shapeCasts_S2x8416x128_S2x1077248 : S2x8416x128.ShapeCasts S2x1077248
  hrank0 : 0 < grid0.rank
  k0_mult1_dvd : ∀ i : grid0.Coords, 32 ∣ (k0_mult1 i).toNat
  k0_off1_inb : ∀ i : grid0.Coords, ∀ (r : Fin 32), ∀ a, (k0_off1 i (BitVec.ofNat 32 r.val)) a + S256x128.size a ≤ S8416x128.size a
  k0_mult2_dvd : ∀ i : grid0.Coords, 32 ∣ (k0_mult2 i).toNat
  k0_mult3_dvd : ∀ i : grid0.Coords, 32 ∣ (k0_mult3 i).toNat
  k0_mult4_dvd : ∀ i : grid0.Coords, 32 ∣ (k0_mult4 i).toNat
  k0_mult5_dvd : ∀ i : grid0.Coords, 32 ∣ (k0_mult5 i).toNat
  k0_mult6_dvd : ∀ i : grid0.Coords, 32 ∣ (k0_mult6 i).toNat
  k0_mult7_dvd : ∀ i : grid0.Coords, 32 ∣ (k0_mult7 i).toNat
  k0_mult8_dvd : ∀ i : grid0.Coords, 32 ∣ (k0_mult8 i).toNat
  k0_mult9_dvd : ∀ i : grid0.Coords, 32 ∣ (k0_mult9 i).toNat
  k0_mult10_dvd : ∀ i : grid0.Coords, 32 ∣ (k0_mult10 i).toNat
  k0_mult11_dvd : ∀ i : grid0.Coords, 32 ∣ (k0_mult11 i).toNat
  k0_mult12_dvd : ∀ i : grid0.Coords, 32 ∣ (k0_mult12 i).toNat
  k0_mult13_dvd : ∀ i : grid0.Coords, 32 ∣ (k0_mult13 i).toNat
  k0_mult14_dvd : ∀ i : grid0.Coords, 32 ∣ (k0_mult14 i).toNat
  k0_mult15_dvd : ∀ i : grid0.Coords, 32 ∣ (k0_mult15 i).toNat
  k0_mult16_dvd : ∀ i : grid0.Coords, 32 ∣ (k0_mult16 i).toNat
  k0_mult17_dvd : ∀ i : grid0.Coords, 32 ∣ (k0_mult17 i).toNat
  k0_mult18_dvd : ∀ i : grid0.Coords, 32 ∣ (k0_mult18 i).toNat
  k0_mult19_dvd : ∀ i : grid0.Coords, 32 ∣ (k0_mult19 i).toNat
  k0_mult20_dvd : ∀ i : grid0.Coords, 32 ∣ (k0_mult20 i).toNat
  k0_mult21_dvd : ∀ i : grid0.Coords, 32 ∣ (k0_mult21 i).toNat
  k0_mult22_dvd : ∀ i : grid0.Coords, 32 ∣ (k0_mult22 i).toNat
  k0_mult23_dvd : ∀ i : grid0.Coords, 32 ∣ (k0_mult23 i).toNat
  k0_mult24_dvd : ∀ i : grid0.Coords, 32 ∣ (k0_mult24 i).toNat
  k0_mult25_dvd : ∀ i : grid0.Coords, 32 ∣ (k0_mult25 i).toNat
  k0_mult26_dvd : ∀ i : grid0.Coords, 32 ∣ (k0_mult26 i).toNat
  k0_mult27_dvd : ∀ i : grid0.Coords, 32 ∣ (k0_mult27 i).toNat
  k0_mult28_dvd : ∀ i : grid0.Coords, 32 ∣ (k0_mult28 i).toNat
  k0_mult29_dvd : ∀ i : grid0.Coords, 32 ∣ (k0_mult29 i).toNat
  k0_mult30_dvd : ∀ i : grid0.Coords, 32 ∣ (k0_mult30 i).toNat
  k0_mult31_dvd : ∀ i : grid0.Coords, 32 ∣ (k0_mult31 i).toNat
  k0_mult32_dvd : ∀ i : grid0.Coords, 32 ∣ (k0_mult32 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1x256x128.size a ≤ S256x2x256x128.size a
  hwx0_0 : ∀ i : grid0.Coords, EltTy.bits .f32 = 32 ∨ (Rect.block (s := S256x2x256x128) S32x1x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8416x128.size a ≤ S2x8416x128.size a
  hwx0_1 : ∀ i : grid0.Coords, EltTy.bits .f32 = 32 ∨ (Rect.block (s := S2x8416x128) S1x8416x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192x128.size a ≤ S2x8192x128.size a
  hwx0_2 : ∀ i : grid0.Coords, EltTy.bits .f32 = 32 ∨ (Rect.block (s := S2x8192x128) S1x8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8416x128.size a ≤ S2x8416x128.size a
  hwx0_3 : ∀ i : grid0.Coords, EltTy.bits .f32 = 32 ∨ (Rect.block (s := S2x8416x128) S1x8416x128.size (cc0_transform_3 i) (hinb0_3 i)).WholeWords (EltTy.packing .f32)

variable [Facts₀]

abbrev win0_0 : Pipeline.Window sig grid0 :=
  Pipeline.Window.ofSpec (Memref.whole main_v0) S32x1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8416x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8192x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8416x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x2x32768 : Shape := ⟨3, ![256, 2, 32768]⟩
abbrev S2x1077248 : Shape := ⟨2, ![2, 1077248]⟩
abbrev S32768 : Shape := ⟨1, ![32768]⟩
abbrev S1x32768 : Shape := ⟨2, ![1, 32768]⟩
abbrev S256 : Shape := ⟨1, ![256]⟩
abbrev S_ : Shape := ⟨0, ![]⟩
abbrev S256x1 : Shape := ⟨2, ![256, 1]⟩
abbrev S256x32768 : Shape := ⟨2, ![256, 32768]⟩
abbrev S1077248 : Shape := ⟨1, ![1077248]⟩
abbrev S8388608 : Shape := ⟨1, ![8388608]⟩
abbrev S8388608x1 : Shape := ⟨2, ![8388608, 1]⟩
abbrev S256x32768x1 : Shape := ⟨3, ![256, 32768, 1]⟩
abbrev S2x256x32768 : Shape := ⟨3, ![2, 256, 32768]⟩
abbrev S1x256x32768 : Shape := ⟨3, ![1, 256, 32768]⟩
abbrev S2x1048576 : Shape := ⟨2, ![2, 1048576]⟩
abbrev S2x28672 : Shape := ⟨2, ![2, 28672]⟩
abbrev S1x2x1048576 : Shape := ⟨3, ![1, 2, 1048576]⟩

abbrev nBuf : Space → Nat
  | .hbm => 69
  | .vmem => 0
  | .smem => 0
  | _ => 0

abbrev bufTy : (tb : Table) → Fin (tcTables nBuf tb) → BufTy
  | .hbm, ⟨0, _⟩ => ⟨S256x2x32768, .f32⟩
  | .hbm, ⟨1, _⟩ => ⟨S2x1077248, .f32⟩
  | .hbm, ⟨2, _⟩ => ⟨S32768, .i32⟩
  | .hbm, ⟨3, _⟩ => ⟨S1x32768, .i32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S256x1, .i32⟩
  | .hbm, ⟨9, _⟩ => ⟨S256x32768, .i32⟩
  | .hbm, ⟨10, _⟩ => ⟨S256x32768, .i32⟩
  | .hbm, ⟨11, _⟩ => ⟨S256x32768, .i32⟩
  | .hbm, ⟨12, _⟩ => ⟨S_, .f32⟩
  | .hbm, ⟨13, _⟩ => ⟨S1077248, .f32⟩
  | .hbm, ⟨14, _⟩ => ⟨S8388608, .i32⟩
  | .hbm, ⟨15, _⟩ => ⟨S_, .i32⟩
  | .hbm, ⟨16, _⟩ => ⟨S8388608, .i32⟩
  | .hbm, ⟨17, _⟩ => ⟨S8388608, .i1⟩
  | .hbm, ⟨18, _⟩ => ⟨S_, .i32⟩
  | .hbm, ⟨19, _⟩ => ⟨S8388608, .i32⟩
  | .hbm, ⟨20, _⟩ => ⟨S8388608, .i32⟩
  | .hbm, ⟨21, _⟩ => ⟨S8388608, .i32⟩
  | .hbm, ⟨22, _⟩ => ⟨S8388608x1, .i32⟩
  | .hbm, ⟨23, _⟩ => ⟨S_, .f32⟩
  | .hbm, ⟨24, _⟩ => ⟨S8388608, .f32⟩
  | .hbm, ⟨25, _⟩ => ⟨S1077248, .f32⟩
  | .hbm, ⟨26, _⟩ => ⟨S_, .i32⟩
  | .hbm, ⟨27, _⟩ => ⟨S256x32768, .i32⟩
  | .hbm, ⟨28, _⟩ => ⟨S256x32768, .i1⟩
  | .hbm, ⟨29, _⟩ => ⟨S_, .i32⟩
  | .hbm, ⟨30, _⟩ => ⟨S256x32768, .i32⟩
  | .hbm, ⟨31, _⟩ => ⟨S256x32768, .i32⟩
  | .hbm, ⟨32, _⟩ => ⟨S256x32768, .i32⟩
  | .hbm, ⟨33, _⟩ => ⟨S256x32768x1, .i32⟩
  | .hbm, ⟨34, _⟩ => ⟨S256x32768, .f32⟩
  | .hbm, ⟨35, _⟩ => ⟨S2x256x32768, .f32⟩
  | .hbm, ⟨36, _⟩ => ⟨S_, .f32⟩
  | .hbm, ⟨37, _⟩ => ⟨S2x256x32768, .f32⟩
  | .hbm, ⟨38, _⟩ => ⟨S2x256x32768, .f32⟩
  | .hbm, ⟨39, _⟩ => ⟨S_, .i32⟩
  | .hbm, ⟨40, _⟩ => ⟨S256x32768, .i32⟩
  | .hbm, ⟨41, _⟩ => ⟨S256x32768, .i1⟩
  | .hbm, ⟨42, _⟩ => ⟨S_, .i32⟩
  | .hbm, ⟨43, _⟩ => ⟨S256x32768, .i32⟩
  | .hbm, ⟨44, _⟩ => ⟨S256x32768, .i32⟩
  | .hbm, ⟨45, _⟩ => ⟨S256x32768, .i32⟩
  | .hbm, ⟨46, _⟩ => ⟨S256x32768x1, .i32⟩
  | .hbm, ⟨47, _⟩ => ⟨S2x256x32768, .f32⟩
  | .hbm, ⟨48, _⟩ => ⟨S1x256x32768, .f32⟩
  | .hbm, ⟨49, _⟩ => ⟨S2x256x32768, .f32⟩
  | .hbm, ⟨50, _⟩ => ⟨S2x256x32768, .f32⟩
  | .hbm, ⟨51, _⟩ => ⟨S2x256x32768, .f32⟩
  | .hbm, ⟨52, _⟩ => ⟨S_, .f32⟩
  | .hbm, ⟨53, _⟩ => ⟨S2x1077248, .f32⟩
  | .hbm, ⟨54, _⟩ => ⟨S_, .i32⟩
  | .hbm, ⟨55, _⟩ => ⟨S256x32768, .i32⟩
  | .hbm, ⟨56, _⟩ => ⟨S256x32768, .i1⟩
  | .hbm, ⟨57, _⟩ => ⟨S_, .i32⟩
  | .hbm, ⟨58, _⟩ => ⟨S256x32768, .i32⟩
  | .hbm, ⟨59, _⟩ => ⟨S256x32768, .i32⟩
  | .hbm, ⟨60, _⟩ => ⟨S256x32768, .i32⟩
  | .hbm, ⟨61, _⟩ => ⟨S256x32768x1, .i32⟩
  | .hbm, ⟨62, _⟩ => ⟨S2x1077248, .f32⟩
  | .hbm, ⟨63, _⟩ => ⟨S2x1048576, .f32⟩
  | .hbm, ⟨64, _⟩ => ⟨S2x28672, .f32⟩
  | .hbm, ⟨65, _⟩ => ⟨S_, .f32⟩
  | .hbm, ⟨66, _⟩ => ⟨S2x1048576, .f32⟩
  | .hbm, ⟨67, _⟩ => ⟨S2x1077248, .f32⟩
  | .hbm, ⟨68, _⟩ => ⟨S1x2x1048576, .f32⟩
  | _, _ => ⟨S256x2x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_c_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_c_9 : Ref sig .tc := ⟨.hbm, 54, rfl⟩
abbrev main_v41 : Ref sig .tc := ⟨.hbm, 55, rfl⟩
abbrev main_v42 : Ref sig .tc := ⟨.hbm, 56, rfl⟩
abbrev main_c_10 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_11 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]

class Facts₀ : Prop where
  bcast_S32768_S1x32768_1 : S32768.BroadcastsInDim S1x32768 (![1] : Fin 1 → Fin S1x32768.rank)
  bcast_S_S256 : S_.BroadcastsInDim S256 (![] : Fin 0 → Fin S256.rank)
  bcast_S256_S256x1_0 : S256.BroadcastsInDim S256x1 (![0] : Fin 1 → Fin S256x1.rank)
  bcast_S1x32768_S256x32768_0_1 : S1x32768.BroadcastsInDim S256x32768 (![0, 1] : Fin 2 → Fin S256x32768.rank)
  bcast_S256x1_S256x32768_0_1 : S256x1.BroadcastsInDim S256x32768 (![0, 1] : Fin 2 → Fin S256x32768.rank)
  bcast_S_S1077248 : S_.BroadcastsInDim S1077248 (![] : Fin 0 → Fin S1077248.rank)
  shapeCasts_S256x32768_S8388608 : S256x32768.ShapeCasts S8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S256x32768 : S_.BroadcastsInDim S256x32768 (![] : Fin 0 → Fin S256x32768.rank)
  bcast_S256x32768_S256x32768x1_0_1 : S256x32768.BroadcastsInDim S256x32768x1 (![0, 1] : Fin 2 → Fin S256x32768x1.rank)
  transposes_S256x2x32768_S2x256x32768_1_0_2 : S256x2x32768.Transposes [1, 0, 2] S2x256x32768
  bcast_S_S2x256x32768 : S_.BroadcastsInDim S2x256x32768 (![] : Fin 0 → Fin S2x256x32768.rank)
  bcast_S256x32768_S1x256x32768_1_2 : S256x32768.BroadcastsInDim S1x256x32768 (![1, 2] : Fin 2 → Fin S1x256x32768.rank)
  bcast_S1x256x32768_S2x256x32768_0_1_2 : S1x256x32768.BroadcastsInDim S2x256x32768 (![0, 1, 2] : Fin 3 → Fin S2x256x32768.rank)
  bcast_S_S2x1077248 : S_.BroadcastsInDim S2x1077248 (![] : Fin 0 → Fin S2x1077248.rank)
  slices_S2x1077248_S2x1048576_0_0 : S2x1077248.Slices ![0, 0] S2x1048576
  slices_S2x1077248_S2x28672_0_1048576 : S2x1077248.Slices ![0, 1048576] S2x28672
  bcast_S_S2x1048576 : S_.BroadcastsInDim S2x1048576 (![] : Fin 0 → Fin S2x1048576.rank)
  concatenates_S2x28672_S2x1048576_S2x1077248_d1 : Shape.Concatenates [S2x28672, S2x1048576] S2x1077248 1
  bcast_S2x1048576_S1x2x1048576_1_2 : S2x1048576.BroadcastsInDim S1x2x1048576 (![1, 2] : Fin 2 → Fin S1x2x1048576.rank)
  scatter_S1077248_S8388608x1_S8388608_n_0_0_1_wf : ScatterDims.WF S1077248 S8388608x1 S8388608 [] [0] [0] 1
  gather_S1077248_S256x32768x1_S256x32768_n_0_n_n_0_2_1_wf : GatherDims.WF S1077248 S256x32768x1 S256x32768 [] [0] [] [0] [] 2 ![1]
  gather_S2x1077248_S256x32768x1_S2x256x32768_0_1_n_n_1_2_21_wf : GatherDims.WF S2x1077248 S256x32768x1 S2x256x32768 [0] [1] [] [1] [] 2 ![2, 1]
  scatter_S2x1077248_S256x32768x1_S2x256x32768_0_1_1_2_wf : ScatterDims.WF S2x1077248 S256x32768x1 S2x256x32768 [0] [1] [1] 2

variable [Facts₀]

def scatter_S1077248_S8388608x1_S8388608_n_0_0_1 : ScatterDims S1077248 S8388608x1 S8388608 where
  updateWindowDims := []
  insertedWindowDims := [0]
  scatterDimsToOperandDims := [0]
  indexVectorDim := 1
  wf := scatter_S1077248_S8388608x1_S8388608_n_0_0_1_wf
def gather_S1077248_S256x32768x1_S256x32768_n_0_n_n_0_2_1 : GatherDims S1077248 S256x32768x1 S256x32768 where
  offsetDims := []
  collapsedSliceDims := [0]
  operandBatchingDims := []
  startIndicesBatchingDims := []
  startIndexMap := [0]
  indexVectorDim := 2
  sliceSizes := ![1]
  wf := gather_S1077248_S256x32768x1_S256x32768_n_0_n_n_0_2_1_wf
def gather_S2x1077248_S256x32768x1_S2x256x32768_0_1_n_n_1_2_21 : GatherDims S2x1077248 S256x32768x1 S2x256x32768 where
  offsetDims := [0]
  collapsedSliceDims := [1]
  operandBatchingDims := []
  startIndicesBatchingDims := []
  startIndexMap := [1]
  indexVectorDim := 2
  sliceSizes := ![2, 1]
  wf := gather_S2x1077248_S256x32768x1_S2x256x32768_0_1_n_n_1_2_21_wf
def scatter_S2x1077248_S256x32768x1_S2x256x32768_0_1_1_2 : ScatterDims S2x1077248 S256x32768x1 S2x256x32768 where
  updateWindowDims := [0]
  insertedWindowDims := [1]
  scatterDimsToOperandDims := [1]
  indexVectorDim := 2
  wf := scatter_S2x1077248_S256x32768x1_S2x256x32768_0_1_1_2_wf

class Facts : Prop extends Facts₀ where

variable [Facts]
-- ==== Proof.Setup.lean ====
/-
  What the three runs of the overlap-add body share.  The grid is (channel, batch tile) = (2, 8), walked channel-major,
  so point `t` is channel `t / 8`, tile `t % 8`.  The body has two branches on the tile coordinate alone: at the first
  tile of a channel it copies the channel's snapshot block into the accumulator scratch, and at the last tile it copies
  the accumulator out into the two result blocks.  Both conditions are decided here over the sixteen points, and the two
  result windows are shown idle (neither stored into nor written back) away from a channel's last tile.
-/
import proofs.«166608_j62680752718461_1_alg».proof.Proof.Gen.KernelIdeal.Frame
import proofs.«166608_j62680752718461_1_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch is taken: the tile coordinate is zero. -/
abbrev isFirst (i : grid0.Coords) : Prop :=
  (Scalar.cmpi .ne (Scalar.extui (Scalar.cmpi .eq (BitVec.ofNat 32 (i 1).val) 0#32)) 0#32) = 1#1
/-- The body's last branch is taken: the tile coordinate is seven. -/
abbrev isLast (i : grid0.Coords) : Prop := k0_cond2 i = 1#1

/-- The first branch is taken exactly at the points ≡ 0 (mod 8). -/
theorem isFirst_iff : ∀ t : Fin cfg0.N, isFirst (grid0.coords t) ↔ t.val % 8 = 0 :=
  (by decide +kernel : ∀ t : Fin grid0.N, isFirst (grid0.coords t) ↔ t.val % 8 = 0)
/-- The last branch is taken exactly at the points ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-- The two input windows are never idle. -/
theorem live_in0 : ∀ t : Fin cfg0.N, cfg0.idle 0 (grid0.coords t) = false := by decide +kernel
theorem live_in1 : ∀ t : Fin cfg0.N, cfg0.idle 1 (grid0.coords t) = false := by decide +kernel
/-- Away from a channel's last tile the result windows are idle and are not written back. -/
theorem idle_out2 : ∀ t : Fin cfg0.N, ¬isLast (grid0.coords t) → cfg0.idle 2 (grid0.coords t) = true := by decide +kernel
theorem idle_out3 : ∀ t : Fin cfg0.N, ¬isLast (grid0.coords t) → cfg0.idle 3 (grid0.coords t) = true := by decide +kernel
theorem noflush_out2 : ∀ t : Fin cfg0.N, ¬isLast (grid0.coords t) → (cfg0.win 2).flush t = false := by decide +kernel
theorem noflush_out3 : ∀ t : Fin cfg0.N, ¬isLast (grid0.coords t) → (cfg0.win 3).flush t = false := by decide +kernel
/-- At a channel's last tile they are live. -/
theorem live_out2 : ∀ t : Fin cfg0.N, isLast (grid0.coords t) → cfg0.idle 2 (grid0.coords t) = false := by decide +kernel
theorem live_out3 : ∀ t : Fin cfg0.N, isLast (grid0.coords t) → cfg0.idle 3 (grid0.coords t) = false := by decide +kernel

/-- Each window's current staging memref at point `t`, as the pipeline passes it to the body, and its wholeness. -/
abbrev mU (t : Fin cfg0.N) : Memref sig .tc .vmem S32x1x256x128 .f32 := win0_0.stage (cfg0.slots t 0)
abbrev hU (t : Fin cfg0.N) : (mU t).IsWhole := hstage0_0 ((cfg0.slots t 0).cast nbuf0_0)
abbrev mS (t : Fin cfg0.N) : Memref sig .tc .vmem S1x8416x128 .f32 := win0_1.stage (cfg0.slots t 1)
abbrev hS (t : Fin cfg0.N) : (mS t).IsWhole := hstage0_1 ((cfg0.slots t 1).cast nbuf0_1)
abbrev mO (t : Fin cfg0.N) : Memref sig .tc .vmem S1x8192x128 .f32 := win0_2.stage (cfg0.slots t 2)
abbrev hO (t : Fin cfg0.N) : (mO t).IsWhole := hstage0_2 ((cfg0.slots t 2).cast nbuf0_2)
abbrev mN (t : Fin cfg0.N) : Memref sig .tc .vmem S1x8416x128 .f32 := win0_3.stage (cfg0.slots t 3)
abbrev hN (t : Fin cfg0.N) : (mN t).IsWhole := hstage0_3 ((cfg0.slots t 3).cast nbuf0_3)
/-- The accumulator: the kernel's one scratch buffer, whole. -/
abbrev mAcc : Memref sig .tc .vmem S8416x128 .f32 := Memref.whole cc0_scratch0
abbrev hAcc : (mAcc).IsWhole := Memref.isWhole_whole _

/-- The region's class invariant with the accumulator spelled as a memref owned at some contents. -/
theorem PhiA_eq (c : Dev nD) :
    (Pipeline.ΦA spec0 c : sProp 𝕄)
      = iprop(iprop((∃ d, owns (c : Thread nD τ) mAcc fullShare d)) ∗ (∃ r, prngReg c r)) := by
  unfold Pipeline.ΦA; rw [scopedRest0_eq]; simp only [mAcc, owns_whole]; try rfl

end Cert.KernelIdeal.Hand

end
-- ==== Proof.Steps.lean ====
/-
  One read-add-write step of the overlap-add, and its iteration.  Step `k` of a tile takes the 256 accumulator rows that
  start at the step's row offset, adds to them one eighth of the tile's update row-block `k`, and stores them back; every
  other row keeps its value.  `step` states this for a whole accumulator buffer as its contents read back after that one
  store, `iter` applies the first `k` steps of a tile in turn, and `read_cons_step` says that reading back a list of
  stores whose newest is such a store is one step applied to the rest of the list read back.
-/
import proofs.«166608_j62680752718461_1_alg».proof.Proof.Setup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (arg2 : Memref sig .tc .vmem S32x1x256x128 .f32) (harg2 : arg2.IsWhole)
variable (arg6 : Memref sig .tc .vmem S8416x128 .f32) (harg6 : arg6.IsWhole)

/-- The 256 accumulator rows step `k` of the tile at grid point `i` works on. -/
abbrev band (i : grid0.Coords) (k : Fin 32) : Rect S8416x128 :=
  Rect.unit (s := S8416x128) (k0_off1 i (BitVec.ofNat 32 k.val)) S256x128.size (k0_off1_inb i k)

/-- Row-block `k` of a tile of updates lies inside the tile: one 256 × 128 slab of the 32 it holds. -/
theorem ublock_inb (k : Fin 32) : ∀ a, (![k.val, 0, 0, 0] : Fin 4 → ℕ) a + S1x1x256x128.size a ≤ S32x1x256x128.size a :=
  fun a => match a with
    | ⟨0, _⟩ => by show k.val + 1 ≤ 32; omega
    | ⟨1, _⟩ => Nat.le_refl 1
    | ⟨2, _⟩ => Nat.le_refl 256
    | ⟨3, _⟩ => Nat.le_refl 128

/-- Row-block `k` of the tile of updates held in `arg2` at contents `u`. -/
abbrev ublock (u : Vec F S32x1x256x128 .f32) (k : Fin 32) : Vec F S1x1x256x128 .f32 :=
  View.readAt (Elt F) arg2.view (Rect.unit (s := S32x1x256x128) ![k.val, 0, 0, 0] S1x1x256x128.size (ublock_inb k)).toLoadRect
    (harg2.unread u)

/-- What a step stores into its band, from the band as loaded (`cur`) and the update row-block (`ub`): `cur + ub · (1/8)`, under the
    same-shape cast the program spells after the sum. -/
abbrev stepPay (ub : Vec F S1x1x256x128 .f32) (cur : Vec F S256x128 .f32) : FVec F S256x128 .f32 :=
  shapeCast S256x128
    (addf cur (mulf (shapeCast S256x128 ub shapeCasts_S1x1x256x128_S256x128) (broadcast S256x128 (Scalar.ofBits .f32 0x3E000000#32))))
    shapeCasts_S256x128_S256x128

/-- The accumulator after step `k` at grid point `i`, from its contents `X` before the step. -/
def step (i : grid0.Coords) (k : Fin 32) (ub : Vec F S1x1x256x128 .f32) (X : Vec F S8416x128 .f32) : Vec F S8416x128 .f32 :=
  arg6.view.read (Elt F) (arg6.view.writes (Elt F) (harg6.unread X)
    [⟨band i k, stepPay ub (View.readAt (Elt F) arg6.view (band i k).toLoadRect (harg6.unread X))⟩])

/-- The accumulator after the first `k` steps of the tile at grid point `i`, from contents `X₀`, step `j` adding row-block `ub j`. -/
def iter (i : grid0.Coords) (ub : Fin 32 → Vec F S1x1x256x128 .f32) (X₀ : Vec F S8416x128 .f32) :
    (k : ℕ) → k ≤ 32 → Vec F S8416x128 .f32
  | 0, _ => X₀
  | k + 1, h => step arg6 harg6 i ⟨k, h⟩ (ub ⟨k, h⟩) (iter i ub X₀ k (Nat.le_of_succ_le h))

theorem iter_succ (i : grid0.Coords) (ub : Fin 32 → Vec F S1x1x256x128 .f32) (X₀ : Vec F S8416x128 .f32) (k : ℕ) (h : k + 1 ≤ 32) :
    iter arg6 harg6 i ub X₀ (k + 1) h = step arg6 harg6 i ⟨k, h⟩ (ub ⟨k, h⟩) (iter arg6 harg6 i ub X₀ k (Nat.le_of_succ_le h)) := rfl

/-- Reading back a list of stores whose newest is step `k`'s store, its payload computed from the band as loaded after
    the older stores, is step `k` applied to the older stores read back. -/
theorem read_cons_step (i : grid0.Coords) (k : Fin 32) (ub : Vec F S1x1x256x128 .f32)
    (f : arg6.view.ty.Contents (Elt F)) (L : List (View.Piece (Elt F) S8416x128 .f32)) (X : Vec F S8416x128 .f32)
    (hX : arg6.view.read (Elt F) (arg6.view.writes (Elt F) f L) = X)
    (w : (band i k).shape.Idx → Elt F .f32)
    (hw : w = stepPay ub (View.readAt (Elt F) arg6.view (band i k).toLoadRect (arg6.view.writes (Elt F) f L))) :
    arg6.view.read (Elt F) (arg6.view.writes (Elt F) f (⟨band i k, w⟩ :: L)) = step arg6 harg6 i k ub X := by
  subst hX hw
  unfold step
  rw [harg6.unread_read]
  rfl

/-- The same with the tile's steps counted: the older stores read back being the first `k` steps done, the list with
    step `k`'s store on top is the first `k + 1`. -/
theorem read_cons_iter (i : grid0.Coords) (ub : Fin 32 → Vec F S1x1x256x128 .f32) (X₀ : Vec F S8416x128 .f32)
    (k : ℕ) (h : k + 1 ≤ 32)
    (f : arg6.view.ty.Contents (Elt F)) (L : List (View.Piece (Elt F) S8416x128 .f32))
    (hX : arg6.view.read (Elt F) (arg6.view.writes (Elt F) f L) = iter arg6 harg6 i ub X₀ k (Nat.le_of_succ_le h))
    (w : (band i ⟨k, h⟩).shape.Idx → Elt F .f32)
    (hw : w = stepPay (ub ⟨k, h⟩) (View.readAt (Elt F) arg6.view (band i ⟨k, h⟩).toLoadRect (arg6.view.writes (Elt F) f L))) :
    arg6.view.read (Elt F) (arg6.view.writes (Elt F) f (⟨band i ⟨k, h⟩, w⟩ :: L)) = iter arg6 harg6 i ub X₀ (k + 1) h :=
  read_cons_step arg6 harg6 i ⟨k, h⟩ (ub ⟨k, h⟩) f L _ hX w hw

/-- The one store a channel's last tile makes into the first result block: the accumulator's first 8192 rows, the
    accumulator at contents `X`. -/
abbrev piecesO (X : Vec F S8416x128 .f32) : List (View.Piece (Elt F) S1x8192x128 .f32) :=
  [⟨Rect.unit (s := S1x8192x128) ![0, 0, 0] S1x8192x128.size inb_S1x8192x128_S1x8192x128_0_0_0,
    k0_pay1 (View.readAt (Elt F) arg6.view
      (Rect.unit (s := S8416x128) ![0, 0] S8192x128.size inb_S8416x128_S8192x128_0_0).toLoadRect (harg6.unread X))⟩]

/-- The two stores it makes into the second result block, newest first: 8192 zero rows from row 224 on, and before
    them the accumulator's last 224 rows. -/
abbrev piecesN (X : Vec F S8416x128 .f32) : List (View.Piece (Elt F) S1x8416x128 .f32) :=
  [⟨Rect.unit (s := S1x8416x128) ![0, 224, 0] S1x8192x128.size inb_S1x8416x128_S1x8192x128_0_224_0, k0_pay3 (F := F)⟩,
   ⟨Rect.unit (s := S1x8416x128) ![0, 0, 0] S1x224x128.size inb_S1x8416x128_S1x224x128_0_0_0,
    k0_pay2 (View.readAt (Elt F) arg6.view
      (Rect.unit (s := S8416x128) ![8192, 0] S224x128.size inb_S8416x128_S224x128_8192_0).toLoadRect (harg6.unread X))⟩]

/-- The single store into the first result block covers it. -/
theorem coverO (X : Vec F S8416x128 .f32) (y : S1x8192x128.Idx) : ∃ pc ∈ piecesO arg6 harg6 X, y ∈ pc.1.set :=
  View.cover_of_tiledL (piecesO arg6 harg6 X) S1x8192x128.size (by sl_kernel_rfl) y
/-- The two stores into the second result block tile it: cut into blocks of 32 rows, they strike every block once. -/
theorem coverN (X : Vec F S8416x128 .f32) (y : S1x8416x128.Idx) : ∃ pc ∈ piecesN arg6 harg6 X, y ∈ pc.1.set :=
  View.cover_of_tiledBy (piecesN arg6 harg6 X) ![1, 32, 128] (by sl_kernel_rfl) y

/-- The channel's snapshot block, held in `arg3` at contents `s`, laid out as accumulator contents: what the first
    branch stores over the whole accumulator. -/
abbrev snapOf (arg3 : Memref sig .tc .vmem S1x8416x128 .f32) (harg3 : arg3.IsWhole) (s : Vec F S1x8416x128 .f32) : FVec F S8416x128 .f32 :=
  k0_pay4 (View.readAt (Elt F) arg3.view
    (Rect.unit (s := S1x8416x128) ![0, 0, 0] S1x8416x128.size inb_S1x8416x128_S1x8416x128_0_0_0).toLoadRect (harg3.unread s))

end Cert.KernelIdeal.Hand

end
-- ==== Proof.Data.lean ====
/-
  What the accumulator and the two result blocks hold after each grid point, and the pipeline's proof data over them.

  Points are walked channel-major, eight tiles to a channel.  At a channel's first tile the accumulator restarts from the
  channel's snapshot block; at every tile it takes the tile's thirty-two read-add-write steps; so after point `n` it holds
  the snapshot plus every update window of the channel's tiles so far (`accAt`, by recursion on the point).  At a channel's
  last tile the first 8192 accumulator rows are the first result block, and the last 224 rows followed by 8192 zero rows
  the second (`outO`, `outN`); at the other tiles the result windows are idle and what is named for them there is never
  consulted.  The region's invariant names the accumulator's contents from the first point on (`PhiS`).
-/
import proofs.«166608_j62680752718461_1_alg».proof.Proof.Steps

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The tile of updates point `t` works on, row-block by row-block, as its staging buffer holds it. -/
abbrev ubAt (c : Dev nD) (t : Fin cfg0.N) : Fin 32 → Vec F S1x1x256x128 .f32 :=
  ublock (mU t) (hU t) (iblk m c 0 t)

/-- The channel's snapshot block as point `t`'s staging buffer holds it, laid out as accumulator contents. -/
abbrev snapAt (c : Dev nD) (t : Fin cfg0.N) : Vec F S8416x128 .f32 :=
  snapOf (mS t) (hS t) (iblk m c 1 t)

/-- The accumulator after point `t`'s thirty-two steps, from contents `X` before them. -/
abbrev tileRun (c : Dev nD) (t : Fin cfg0.N) (X : Vec F S8416x128 .f32) : Vec F S8416x128 .f32 :=
  iter mAcc hAcc (grid0.coords t) (ubAt m c t) X 32 (Nat.le_refl 32)

/-- What the accumulator holds after the body at position `n`: the tile's steps applied to the channel's snapshot block
    at a channel's first tile, to what the point before left otherwise. -/
def accAt (c : Dev nD) : (n : ℕ) → n < cfg0.N → Vec F S8416x128 .f32
  | 0, hn => tileRun m c ⟨0, hn⟩ (snapAt m c ⟨0, hn⟩)
  | n + 1, hn =>
    if (n + 1) % 8 = 0 then tileRun m c ⟨n + 1, hn⟩ (snapAt m c ⟨n + 1, hn⟩)
    else tileRun m c ⟨n + 1, hn⟩ (accAt c n (Nat.lt_of_succ_lt hn))

/-- At a channel's first tile the accumulator restarts from the snapshot. -/
theorem accAt_first (c : Dev nD) (t : Fin cfg0.N) (h0 : t.val % 8 = 0) :
    accAt m c t.val t.isLt = tileRun m c t (snapAt m c t) := by
  obtain ⟨n, hn⟩ := t
  cases n with
  | zero => rfl
  | succ n => exact if_pos h0

/-- At any other tile it continues from what the point before left. -/
theorem accAt_next (c : Dev nD) (t : Fin cfg0.N) (h0 : ¬t.val % 8 = 0) :
    accAt m c t.val t.isLt = tileRun m c t (accAt m c (t.val - 1) (Nat.lt_of_le_of_lt (Nat.sub_le _ _) t.isLt)) := by
  obtain ⟨n, hn⟩ := t
  cases n with
  | zero => exact absurd (Nat.zero_mod _) h0
  | succ n => exact if_neg h0

/-- One staging buffer of each result window, through which the window's contents are stated. -/
abbrev VO : View sig .tc .vmem S1x8192x128 .f32 := (Memref.whole cc0_stg2_0 : Memref sig .tc .vmem S1x8192x128 .f32).view
abbrev VN : View sig .tc .vmem S1x8416x128 .f32 := (Memref.whole cc0_stg3_0 : Memref sig .tc .vmem S1x8416x128 .f32).view

/-- The result blocks as a channel's last tile leaves them, from the accumulator's contents after that tile. -/
def outO (c : Dev nD) (t : Fin cfg0.N) : Vec F S1x8192x128 .f32 :=
  VO.read (Elt F) (VO.writes (Elt F) VO.junk (piecesO mAcc hAcc (accAt m c t.val t.isLt)))
def outN (c : Dev nD) (t : Fin cfg0.N) : Vec F S1x8416x128 .f32 :=
  VN.read (Elt F) (VN.writes (Elt F) VN.junk (piecesN mAcc hAcc (accAt m c t.val t.isLt)))

/-- The region's invariant before position `n`: before the first point the class's (the accumulator at anything); from then
    on the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) mAcc fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) mAcc fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) mAcc fullShare (accAt m c (n - 1) (by omega))) ∗ (∃ r, prngReg c r)) := by
  cases n with
  | zero => exact absurd rfl hz
  | succ n => rfl

/-- The proof data of the one pipeline on core `c`: the arrays as the region finds them; after the body at point `t` each
    input's buffer at its block, the result buffers at `outO` / `outN`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outO m c t
    | ⟨3, _⟩ => outN m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outO m c t := by dsimp only [dats]
theorem after_3 (c : Dev nD) (t : Fin cfg0.N) : (dats m 0 c).after 3 t = outN m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

end Cert.KernelIdeal.Hand

end
-- ==== Proof.RunMid.lean ====
/-
  The body at a middle tile of a channel (neither branch taken): thirty-two read-add-write steps on the accumulator, step
  `k` adding one eighth of update row-block `k` of the tile into the 256 accumulator rows that start at row
  `32 · (32 · tile + k)`.  The snapshot block and both result blocks are handed back untouched.  The accumulator is held
  whole at the contents `acc` the point before left, and ends at those contents overwritten by the run's pieces.
-/
import proofs.«166608_j62680752718461_1_alg».proof.Proof.Setup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runMid (c : Dev nD) (i : grid0.Coords) (arg2 : Memref sig .tc .vmem S32x1x256x128 .f32) (harg2 : arg2.IsWhole) (arg3 : Memref sig .tc .vmem S1x8416x128 .f32) (harg3 : arg3.IsWhole) (arg4 : Memref sig .tc .vmem S1x8192x128 .f32) (harg4 : arg4.IsWhole) (arg5 : Memref sig .tc .vmem S1x8416x128 .f32) (harg5 : arg5.IsWhole) (arg6 : Memref sig .tc .vmem S8416x128 .f32) (harg6 : arg6.IsWhole)
    (hf : ¬isFirst i) (hl : ¬isLast i) (u : Vec F S32x1x256x128 .f32) (acc : Vec F S8416x128 .f32) :
    { LS : List (View.Piece (Elt F) S8416x128 .f32) //
      ∀ (s : Vec F S1x8416x128 .f32) (o : Vec F S1x8192x128 .f32) (n : Vec F S1x8416x128 .f32) (E : Set ℕ) (K : PUnit → sProp 𝕄),
        iprop(owns (c : Thread nD τ) arg2 fullShare u ∗ owns (c : Thread nD τ) arg3 fullShare s ∗ owns (c : Thread nD τ) arg4 fullShare o
            ∗ owns (c : Thread nD τ) arg5 fullShare n ∗ owns (c : Thread nD τ) arg6 fullShare acc
            ∗ (iprop(owns (c : Thread nD τ) arg2 fullShare u ∗ owns (c : Thread nD τ) arg3 fullShare s ∗ owns (c : Thread nD τ) arg4 fullShare o
                ∗ owns (c : Thread nD τ) arg5 fullShare n
                ∗ (arg6.view.loc (c : Thread nD τ) ↦[arg6.view.set]{fullShare} arg6.view.writes (Elt F) (harg6.unread acc) LS)) -∗ K ⟨⟩))
          ⊢ wp frame (wpE (defs₀ (F := F)) Variants.none c none) E (cc0__overlap_add_kernel i arg2 harg2 arg3 harg3 arg4 harg4 arg5 harg5 arg6 harg6) K } := by
  refine ⟨?_, fun s o n E K => ?run⟩
  case run =>
    simp only [cc0__overlap_add_kernel_eq_skeleton]; unfold cc0__overlap_add_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexact HS

end Cert.KernelIdeal.Hand

end
-- ==== Proof.TailsMid.lean ====
/-
  The accumulator after the thirty-two steps of a middle tile, read back from the stores the body's run left: after step `j` the
  stores so far read back as the first `j` steps applied to what the accumulator held before the tile.
-/
import proofs.«166608_j62680752718461_1_alg».proof.Proof.RunMid
import proofs.«166608_j62680752718461_1_alg».proof.Proof.Steps

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000

variable (c : Dev nD) (i : grid0.Coords) (arg2 : Memref sig .tc .vmem S32x1x256x128 .f32) (harg2 : arg2.IsWhole)
  (arg6 : Memref sig .tc .vmem S8416x128 .f32) (harg6 : arg6.IsWhole) (u : Vec F S32x1x256x128 .f32) (acc : Vec F S8416x128 .f32)

theorem mid_tail_1 :
    arg6.view.read (Elt F) (arg6.view.writes (Elt F) (harg6.unread acc) (runMid.sl.HS_1 c i arg2 harg2 arg6 harg6 u acc))
      = iter arg6 harg6 i (ublock arg2 harg2 u) acc 1 (by decide) :=
  read_cons_iter arg6 harg6 i (ublock arg2 harg2 u) acc 0 (by decide) (harg6.unread acc) [] (harg6.read_unread acc) _ rfl

theorem mid_tail_2 :
    arg6.view.read (Elt F) (arg6.view.writes (Elt F) (harg6.unread acc) (runMid.sl.HS_2 c i arg2 harg2 arg6 harg6 u acc))
      = iter arg6 harg6 i (ublock arg2 harg2 u) acc 2 (by decide) :=
  read_cons_iter arg6 harg6 i (ublock arg2 harg2 u) acc 1 (by decide) (harg6.unread acc) (runMid.sl.HS_1 c i arg2 harg2 arg6 harg6 u acc) (mid_tail_1 c i arg2 harg2 arg6 harg6 u acc) _ rfl

theorem mid_tail_3 :
    arg6.view.read (Elt F) (arg6.view.writes (Elt F) (harg6.unread acc) (runMid.sl.HS_3 c i arg2 harg2 arg6 harg6 u acc))
      = iter arg6 harg6 i (ublock arg2 harg2 u) acc 3 (by decide) :=
  read_cons_iter arg6 harg6 i (ublock arg2 harg2 u) acc 2 (by decide) (harg6.unread acc) (runMid.sl.HS_2 c i arg2 harg2 arg6 harg6 u acc) (mid_tail_2 c i arg2 harg2 arg6 harg6 u acc) _ rfl

theorem mid_tail_4 :
    arg6.view.read (Elt F) (arg6.view.writes (Elt F) (harg6.unread acc) (runMid.sl.HS_4 c i arg2 harg2 arg6 harg6 u acc))
      = iter arg6 harg6 i (ublock arg2 harg2 u) acc 4 (by decide) :=
  read_cons_iter arg6 harg6 i (ublock arg2 harg2 u) acc 3 (by decide) (harg6.unread acc) (runMid.sl.HS_3 c i arg2 harg2 arg6 harg6 u acc) (mid_tail_3 c i arg2 harg2 arg6 harg6 u acc) _ rfl

theorem mid_tail_5 :
    arg6.view.read (Elt F) (arg6.view.writes (Elt F) (harg6.unread acc) (runMid.sl.HS_5 c i arg2 harg2 arg6 harg6 u acc))
      = iter arg6 harg6 i (ublock arg2 harg2 u) acc 5 (by decide) :=
  read_cons_iter arg6 harg6 i (ublock arg2 harg2 u) acc 4 (by decide) (harg6.unread acc) (runMid.sl.HS_4 c i arg2 harg2 arg6 harg6 u acc) (mid_tail_4 c i arg2 harg2 arg6 harg6 u acc) _ rfl

theorem mid_tail_6 :
    arg6.view.read (Elt F) (arg6.view.writes (Elt F) (harg6.unread acc) (runMid.sl.HS_6 c i arg2 harg2 arg6 harg6 u acc))
      = iter arg6 harg6 i (ublock arg2 harg2 u) acc 6 (by decide) :=
  read_cons_iter arg6 harg6 i (ublock arg2 harg2 u) acc 5 (by decide) (harg6.unread acc) (runMid.sl.HS_5 c i arg2 harg2 arg6 harg6 u acc) (mid_tail_5 c i arg2 harg2 arg6 harg6 u acc) _ rfl

theorem mid_tail_7 :
    arg6.view.read (Elt F) (arg6.view.writes (Elt F) (harg6.unread acc) (runMid.sl.HS_7 c i arg2 harg2 arg6 harg6 u acc))
      = iter arg6 harg6 i (ublock arg2 harg2 u) acc 7 (by decide) :=
  read_cons_iter arg6 harg6 i (ublock arg2 harg2 u) acc 6 (by decide) (harg6.unread acc) (runMid.sl.HS_6 c i arg2 harg2 arg6 harg6 u acc) (mid_tail_6 c i arg2 harg2 arg6 harg6 u acc) _ rfl

theorem mid_tail_8 :
    arg6.view.read (Elt F) (arg6.view.writes (Elt F) (harg6.unread acc) (runMid.sl.HS_8 c i arg2 harg2 arg6 harg6 u acc))
      = iter arg6 harg6 i (ublock arg2 harg2 u) acc 8 (by decide) :=
  read_cons_iter arg6 harg6 i (ublock arg2 harg2 u) acc 7 (by decide) (harg6.unread acc) (runMid.sl.HS_7 c i arg2 harg2 arg6 harg6 u acc) (mid_tail_7 c i arg2 harg2 arg6 harg6 u acc) _ rfl

theorem mid_tail_9 :
    arg6.view.read (Elt F) (arg6.view.writes (Elt F) (harg6.unread acc) (runMid.sl.HS_9 c i arg2 harg2 arg6 harg6 u acc))
      = iter arg6 harg6 i (ublock arg2 harg2 u) acc 9 (by decide) :=
  read_cons_iter arg6 harg6 i (ublock arg2 harg2 u) acc 8 (by decide) (harg6.unread acc) (runMid.sl.HS_8 c i arg2 harg2 arg6 harg6 u acc) (mid_tail_8 c i arg2 harg2 arg6 harg6 u acc) _ rfl

theorem mid_tail_10 :
    arg6.view.read (Elt F) (arg6.view.writes (Elt F) (harg6.unread acc) (runMid.sl.HS_10 c i arg2 harg2 arg6 harg6 u acc))
      = iter arg6 harg6 i (ublock arg2 harg2 u) acc 10 (by decide) :=
  read_cons_iter arg6 harg6 i (ublock arg2 harg2 u) acc 9 (by decide) (harg6.unread acc) (runMid.sl.HS_9 c i arg2 harg2 arg6 harg6 u acc) (mid_tail_9 c i arg2 harg2 arg6 harg6 u acc) _ rfl

theorem mid_tail_11 :
    arg6.view.read (Elt F) (arg6.view.writes (Elt F) (harg6.unread acc) (runMid.sl.HS_11 c i arg2 harg2 arg6 harg6 u acc))
      = iter arg6 harg6 i (ublock arg2 harg2 u) acc 11 (by decide) :=
  read_cons_iter arg6 harg6 i (ublock arg2 harg2 u) acc 10 (by decide) (harg6.unread acc) (runMid.sl.HS_10 c i arg2 harg2 arg6 harg6 u acc) (mid_tail_10 c i arg2 harg2 arg6 harg6 u acc) _ rfl

theorem mid_tail_12 :
    arg6.view.read (Elt F) (arg6.view.writes (Elt F) (harg6.unread acc) (runMid.sl.HS_12 c i arg2 harg2 arg6 harg6 u acc))
      = iter arg6 harg6 i (ublock arg2 harg2 u) acc 12 (by decide) :=
  read_cons_iter arg6 harg6 i (ublock arg2 harg2 u) acc 11 (by decide) (harg6.unread acc) (runMid.sl.HS_11 c i arg2 harg2 arg6 harg6 u acc) (mid_tail_11 c i arg2 harg2 arg6 harg6 u acc) _ rfl

theorem mid_tail_13 :
    arg6.view.read (Elt F) (arg6.view.writes (Elt F) (harg6.unread acc) (runMid.sl.HS_13 c i arg2 harg2 arg6 harg6 u acc))
      = iter arg6 harg6 i (ublock arg2 harg2 u) acc 13 (by decide) :=
  read_cons_iter arg6 harg6 i (ublock arg2 harg2 u) acc 12 (by decide) (harg6.unread acc) (runMid.sl.HS_12 c i arg2 harg2 arg6 harg6 u acc) (mid_tail_12 c i arg2 harg2 arg6 harg6 u acc) _ rfl

theorem mid_tail_14 :
    arg6.view.read (Elt F) (arg6.view.writes (Elt F) (harg6.unread acc) (runMid.sl.HS_14 c i arg2 harg2 arg6 harg6 u acc))
      = iter arg6 harg6 i (ublock arg2 harg2 u) acc 14 (by decide) :=
  read_cons_iter arg6 harg6 i (ublock arg2 harg2 u) acc 13 (by decide) (harg6.unread acc) (runMid.sl.HS_13 c i arg2 harg2 arg6 harg6 u acc) (mid_tail_13 c i arg2 harg2 arg6 harg6 u acc) _ rfl

theorem mid_tail_15 :
    arg6.view.read (Elt F) (arg6.view.writes (Elt F) (harg6.unread acc) (runMid.sl.HS_15 c i arg2 harg2 arg6 harg6 u acc))
      = iter arg6 harg6 i (ublock arg2 harg2 u) acc 15 (by decide) :=
  read_cons_iter arg6 harg6 i (ublock arg2 harg2 u) acc 14 (by decide) (harg6.unread acc) (runMid.sl.HS_14 c i arg2 harg2 arg6 harg6 u acc) (mid_tail_14 c i arg2 harg2 arg6 harg6 u acc) _ rfl

theorem mid_tail_16 :
    arg6.view.read (Elt F) (arg6.view.writes (Elt F) (harg6.unread acc) (runMid.sl.HS_16 c i arg2 harg2 arg6 harg6 u acc))
      = iter arg6 harg6 i (ublock arg2 harg2 u) acc 16 (by decide) :=
  read_cons_iter arg6 harg6 i (ublock arg2 harg2 u) acc 15 (by decide) (harg6.unread acc) (runMid.sl.HS_15 c i arg2 harg2 arg6 harg6 u acc) (mid_tail_15 c i arg2 harg2 arg6 harg6 u acc) _ rfl

theorem mid_tail_17 :
    arg6.view.read (Elt F) (arg6.view.writes (Elt F) (harg6.unread acc) (runMid.sl.HS_17 c i arg2 harg2 arg6 harg6 u acc))
      = iter arg6 harg6 i (ublock arg2 harg2 u) acc 17 (by decide) :=
  read_cons_iter arg6 harg6 i (ublock arg2 harg2 u) acc 16 (by decide) (harg6.unread acc) (runMid.sl.HS_16 c i arg2 harg2 arg6 harg6 u acc) (mid_tail_16 c i arg2 harg2 arg6 harg6 u acc) _ rfl

theorem mid_tail_18 :
    arg6.view.read (Elt F) (arg6.view.writes (Elt F) (harg6.unread acc) (runMid.sl.HS_18 c i arg2 harg2 arg6 harg6 u acc))
      = iter arg6 harg6 i (ublock arg2 harg2 u) acc 18 (by decide) :=
  read_cons_iter arg6 harg6 i (ublock arg2 harg2 u) acc 17 (by decide) (harg6.unread acc) (runMid.sl.HS_17 c i arg2 harg2 arg6 harg6 u acc) (mid_tail_17 c i arg2 harg2 arg6 harg6 u acc) _ rfl

theorem mid_tail_19 :
    arg6.view.read (Elt F) (arg6.view.writes (Elt F) (harg6.unread acc) (runMid.sl.HS_19 c i arg2 harg2 arg6 harg6 u acc))
      = iter arg6 harg6 i (ublock arg2 harg2 u) acc 19 (by decide) :=
  read_cons_iter arg6 harg6 i (ublock arg2 harg2 u) acc 18 (by decide) (harg6.unread acc) (runMid.sl.HS_18 c i arg2 harg2 arg6 harg6 u acc) (mid_tail_18 c i arg2 harg2 arg6 harg6 u acc) _ rfl

theorem mid_tail_20 :
    arg6.view.read (Elt F) (arg6.view.writes (Elt F) (harg6.unread acc) (runMid.sl.HS_20 c i arg2 harg2 arg6 harg6 u acc))
      = iter arg6 harg6 i (ublock arg2 harg2 u) acc 20 (by decide) :=
  read_cons_iter arg6 harg6 i (ublock arg2 harg2 u) acc 19 (by decide) (harg6.unread acc) (runMid.sl.HS_19 c i arg2 harg2 arg6 harg6 u acc) (mid_tail_19 c i arg2 harg2 arg6 harg6 u acc) _ rfl

theorem mid_tail_21 :
    arg6.view.read (Elt F) (arg6.view.writes (Elt F) (harg6.unread acc) (runMid.sl.HS_21 c i arg2 harg2 arg6 harg6 u acc))
      = iter arg6 harg6 i (ublock arg2 harg2 u) acc 21 (by decide) :=
  read_cons_iter arg6 harg6 i (ublock arg2 harg2 u) acc 20 (by decide) (harg6.unread acc) (runMid.sl.HS_20 c i arg2 harg2 arg6 harg6 u acc) (mid_tail_20 c i arg2 harg2 arg6 harg6 u acc) _ rfl

theorem mid_tail_22 :
    arg6.view.read (Elt F) (arg6.view.writes (Elt F) (harg6.unread acc) (runMid.sl.HS_22 c i arg2 harg2 arg6 harg6 u acc))
      = iter arg6 harg6 i (ublock arg2 harg2 u) acc 22 (by decide) :=
  read_cons_iter arg6 harg6 i (ublock arg2 harg2 u) acc 21 (by decide) (harg6.unread acc) (runMid.sl.HS_21 c i arg2 harg2 arg6 harg6 u acc) (mid_tail_21 c i arg2 harg2 arg6 harg6 u acc) _ rfl

theorem mid_tail_23 :
    arg6.view.read (Elt F) (arg6.view.writes (Elt F) (harg6.unread acc) (runMid.sl.HS_23 c i arg2 harg2 arg6 harg6 u acc))
      = iter arg6 harg6 i (ublock arg2 harg2 u) acc 23 (by decide) :=
  read_cons_iter arg6 harg6 i (ublock arg2 harg2 u) acc 22 (by decide) (harg6.unread acc) (runMid.sl.HS_22 c i arg2 harg2 arg6 harg6 u acc) (mid_tail_22 c i arg2 harg2 arg6 harg6 u acc) _ rfl

theorem mid_tail_24 :
    arg6.view.read (Elt F) (arg6.view.writes (Elt F) (harg6.unread acc) (runMid.sl.HS_24 c i arg2 harg2 arg6 harg6 u acc))
      = iter arg6 harg6 i (ublock arg2 harg2 u) acc 24 (by decide) :=
  read_cons_iter arg6 harg6 i (ublock arg2 harg2 u) acc 23 (by decide) (harg6.unread acc) (runMid.sl.HS_23 c i arg2 harg2 arg6 harg6 u acc) (mid_tail_23 c i arg2 harg2 arg6 harg6 u acc) _ rfl

theorem mid_tail_25 :
    arg6.view.read (Elt F) (arg6.view.writes (Elt F) (harg6.unread acc) (runMid.sl.HS_25 c i arg2 harg2 arg6 harg6 u acc))
      = iter arg6 harg6 i (ublock arg2 harg2 u) acc 25 (by decide) :=
  read_cons_iter arg6 harg6 i (ublock arg2 harg2 u) acc 24 (by decide) (harg6.unread acc) (runMid.sl.HS_24 c i arg2 harg2 arg6 harg6 u acc) (mid_tail_24 c i arg2 harg2 arg6 harg6 u acc) _ rfl

theorem mid_tail_26 :
    arg6.view.read (Elt F) (arg6.view.writes (Elt F) (harg6.unread acc) (runMid.sl.HS_26 c i arg2 harg2 arg6 harg6 u acc))
      = iter arg6 harg6 i (ublock arg2 harg2 u) acc 26 (by decide) :=
  read_cons_iter arg6 harg6 i (ublock arg2 harg2 u) acc 25 (by decide) (harg6.unread acc) (runMid.sl.HS_25 c i arg2 harg2 arg6 harg6 u acc) (mid_tail_25 c i arg2 harg2 arg6 harg6 u acc) _ rfl

theorem mid_tail_27 :
    arg6.view.read (Elt F) (arg6.view.writes (Elt F) (harg6.unread acc) (runMid.sl.HS_27 c i arg2 harg2 arg6 harg6 u acc))
      = iter arg6 harg6 i (ublock arg2 harg2 u) acc 27 (by decide) :=
  read_cons_iter arg6 harg6 i (ublock arg2 harg2 u) acc 26 (by decide) (harg6.unread acc) (runMid.sl.HS_26 c i arg2 harg2 arg6 harg6 u acc) (mid_tail_26 c i arg2 harg2 arg6 harg6 u acc) _ rfl

theorem mid_tail_28 :
    arg6.view.read (Elt F) (arg6.view.writes (Elt F) (harg6.unread acc) (runMid.sl.HS_28 c i arg2 harg2 arg6 harg6 u acc))
      = iter arg6 harg6 i (ublock arg2 harg2 u) acc 28 (by decide) :=
  read_cons_iter arg6 harg6 i (ublock arg2 harg2 u) acc 27 (by decide) (harg6.unread acc) (runMid.sl.HS_27 c i arg2 harg2 arg6 harg6 u acc) (mid_tail_27 c i arg2 harg2 arg6 harg6 u acc) _ rfl

theorem mid_tail_29 :
    arg6.view.read (Elt F) (arg6.view.writes (Elt F) (harg6.unread acc) (runMid.sl.HS_29 c i arg2 harg2 arg6 harg6 u acc))
      = iter arg6 harg6 i (ublock arg2 harg2 u) acc 29 (by decide) :=
  read_cons_iter arg6 harg6 i (ublock arg2 harg2 u) acc 28 (by decide) (harg6.unread acc) (runMid.sl.HS_28 c i arg2 harg2 arg6 harg6 u acc) (mid_tail_28 c i arg2 harg2 arg6 harg6 u acc) _ rfl

theorem mid_tail_30 :
    arg6.view.read (Elt F) (arg6.view.writes (Elt F) (harg6.unread acc) (runMid.sl.HS_30 c i arg2 harg2 arg6 harg6 u acc))
      = iter arg6 harg6 i (ublock arg2 harg2 u) acc 30 (by decide) :=
  read_cons_iter arg6 harg6 i (ublock arg2 harg2 u) acc 29 (by decide) (harg6.unread acc) (runMid.sl.HS_29 c i arg2 harg2 arg6 harg6 u acc) (mid_tail_29 c i arg2 harg2 arg6 harg6 u acc) _ rfl

theorem mid_tail_31 :
    arg6.view.read (Elt F) (arg6.view.writes (Elt F) (harg6.unread acc) (runMid.sl.HS_31 c i arg2 harg2 arg6 harg6 u acc))
      = iter arg6 harg6 i (ublock arg2 harg2 u) acc 31 (by decide) :=
  read_cons_iter arg6 harg6 i (ublock arg2 harg2 u) acc 30 (by decide) (harg6.unread acc) (runMid.sl.HS_30 c i arg2 harg2 arg6 harg6 u acc) (mid_tail_30 c i arg2 harg2 arg6 harg6 u acc) _ rfl

end Cert.KernelIdeal.Hand

end
-- ==== Proof.RunLast.lean ====
/-
  The body at the last tile of a channel: the tile's thirty-two read-add-write steps on the accumulator, then the
  accumulator's first 8192 rows are copied into the first result block, its last 224 rows into the head of the second
  result block, and the remaining 8192 rows of that block are zeroed.  The accumulator ends at the contents the point
  before left overwritten by the run's pieces; each result buffer at what it held overwritten by its pieces.
-/
import proofs.«166608_j62680752718461_1_alg».proof.Proof.Setup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S32x1x256x128 .f32) (harg2 : arg2.IsWhole) (arg3 : Memref sig .tc .vmem S1x8416x128 .f32) (harg3 : arg3.IsWhole) (arg4 : Memref sig .tc .vmem S1x8192x128 .f32) (harg4 : arg4.IsWhole) (arg5 : Memref sig .tc .vmem S1x8416x128 .f32) (harg5 : arg5.IsWhole) (arg6 : Memref sig .tc .vmem S8416x128 .f32) (harg6 : arg6.IsWhole)
    (hf : ¬isFirst i) (hl : isLast i) (u : Vec F S32x1x256x128 .f32) (acc : Vec F S8416x128 .f32) :
    Σ' (LO : List (View.Piece (Elt F) S1x8192x128 .f32)) (LN : List (View.Piece (Elt F) S1x8416x128 .f32)),
    { LS : List (View.Piece (Elt F) S8416x128 .f32) //
      ∀ (s : Vec F S1x8416x128 .f32) (o : Vec F S1x8192x128 .f32) (n : Vec F S1x8416x128 .f32) (E : Set ℕ) (K : PUnit → sProp 𝕄),
        iprop(owns (c : Thread nD τ) arg2 fullShare u ∗ owns (c : Thread nD τ) arg3 fullShare s ∗ owns (c : Thread nD τ) arg4 fullShare o
            ∗ owns (c : Thread nD τ) arg5 fullShare n ∗ owns (c : Thread nD τ) arg6 fullShare acc
            ∗ (iprop(owns (c : Thread nD τ) arg2 fullShare u ∗ owns (c : Thread nD τ) arg3 fullShare s
                ∗ (arg4.view.loc (c : Thread nD τ) ↦[arg4.view.set]{fullShare} arg4.view.writes (Elt F) (harg4.unread o) LO)
                ∗ (arg5.view.loc (c : Thread nD τ) ↦[arg5.view.set]{fullShare} arg5.view.writes (Elt F) (harg5.unread n) LN)
                ∗ (arg6.view.loc (c : Thread nD τ) ↦[arg6.view.set]{fullShare} arg6.view.writes (Elt F) (harg6.unread acc) LS)) -∗ K ⟨⟩))
          ⊢ wp frame (wpE (defs₀ (F := F)) Variants.none c none) E (cc0__overlap_add_kernel i arg2 harg2 arg3 harg3 arg4 harg4 arg5 harg5 arg6 harg6) K } := by
  refine ⟨?_, ?_, ?_, fun s o n E K => ?run⟩
  case run =>
    simp only [cc0__overlap_add_kernel_eq_skeleton]; unfold cc0__overlap_add_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [H3]; · iexact H3
    iexact HS

end Cert.KernelIdeal.Hand

end
-- ==== Proof.TailsLast.lean ====
/-
  The accumulator after the thirty-two steps of a channel's last tile, read back from the stores the body's run left: after step `j` the
  stores so far read back as the first `j` steps applied to what the accumulator held before the tile.
-/
import proofs.«166608_j62680752718461_1_alg».proof.Proof.RunLast
import proofs.«166608_j62680752718461_1_alg».proof.Proof.Steps

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000

variable (c : Dev nD) (i : grid0.Coords) (arg2 : Memref sig .tc .vmem S32x1x256x128 .f32) (harg2 : arg2.IsWhole)
  (arg6 : Memref sig .tc .vmem S8416x128 .f32) (harg6 : arg6.IsWhole) (u : Vec F S32x1x256x128 .f32) (acc : Vec F S8416x128 .f32)

theorem last_tail_1 :
    arg6.view.read (Elt F) (arg6.view.writes (Elt F) (harg6.unread acc) (runLast.sl.HS_1 c i arg2 harg2 arg6 harg6 u acc))
      = iter arg6 harg6 i (ublock arg2 harg2 u) acc 1 (by decide) :=
  read_cons_iter arg6 harg6 i (ublock arg2 harg2 u) acc 0 (by decide) (harg6.unread acc) [] (harg6.read_unread acc) _ rfl

theorem last_tail_2 :
    arg6.view.read (Elt F) (arg6.view.writes (Elt F) (harg6.unread acc) (runLast.sl.HS_2 c i arg2 harg2 arg6 harg6 u acc))
      = iter arg6 harg6 i (ublock arg2 harg2 u) acc 2 (by decide) :=
  read_cons_iter arg6 harg6 i (ublock arg2 harg2 u) acc 1 (by decide) (harg6.unread acc) (runLast.sl.HS_1 c i arg2 harg2 arg6 harg6 u acc) (last_tail_1 c i arg2 harg2 arg6 harg6 u acc) _ rfl

theorem last_tail_3 :
    arg6.view.read (Elt F) (arg6.view.writes (Elt F) (harg6.unread acc) (runLast.sl.HS_3 c i arg2 harg2 arg6 harg6 u acc))
      = iter arg6 harg6 i (ublock arg2 harg2 u) acc 3 (by decide) :=
  read_cons_iter arg6 harg6 i (ublock arg2 harg2 u) acc 2 (by decide) (harg6.unread acc) (runLast.sl.HS_2 c i arg2 harg2 arg6 harg6 u acc) (last_tail_2 c i arg2 harg2 arg6 harg6 u acc) _ rfl

theorem last_tail_4 :
    arg6.view.read (Elt F) (arg6.view.writes (Elt F) (harg6.unread acc) (runLast.sl.HS_4 c i arg2 harg2 arg6 harg6 u acc))
      = iter arg6 harg6 i (ublock arg2 harg2 u) acc 4 (by decide) :=
  read_cons_iter arg6 harg6 i (ublock arg2 harg2 u) acc 3 (by decide) (harg6.unread acc) (runLast.sl.HS_3 c i arg2 harg2 arg6 harg6 u acc) (last_tail_3 c i arg2 harg2 arg6 harg6 u acc) _ rfl

theorem last_tail_5 :
    arg6.view.read (Elt F) (arg6.view.writes (Elt F) (harg6.unread acc) (runLast.sl.HS_5 c i arg2 harg2 arg6 harg6 u acc))
      = iter arg6 harg6 i (ublock arg2 harg2 u) acc 5 (by decide) :=
  read_cons_iter arg6 harg6 i (ublock arg2 harg2 u) acc 4 (by decide) (harg6.unread acc) (runLast.sl.HS_4 c i arg2 harg2 arg6 harg6 u acc) (last_tail_4 c i arg2 harg2 arg6 harg6 u acc) _ rfl

theorem last_tail_6 :
    arg6.view.read (Elt F) (arg6.view.writes (Elt F) (harg6.unread acc) (runLast.sl.HS_6 c i arg2 harg2 arg6 harg6 u acc))
      = iter arg6 harg6 i (ublock arg2 harg2 u) acc 6 (by decide) :=
  read_cons_iter arg6 harg6 i (ublock arg2 harg2 u) acc 5 (by decide) (harg6.unread acc) (runLast.sl.HS_5 c i arg2 harg2 arg6 harg6 u acc) (last_tail_5 c i arg2 harg2 arg6 harg6 u acc) _ rfl

theorem last_tail_7 :
    arg6.view.read (Elt F) (arg6.view.writes (Elt F) (harg6.unread acc) (runLast.sl.HS_7 c i arg2 harg2 arg6 harg6 u acc))
      = iter arg6 harg6 i (ublock arg2 harg2 u) acc 7 (by decide) :=
  read_cons_iter arg6 harg6 i (ublock arg2 harg2 u) acc 6 (by decide) (harg6.unread acc) (runLast.sl.HS_6 c i arg2 harg2 arg6 harg6 u acc) (last_tail_6 c i arg2 harg2 arg6 harg6 u acc) _ rfl

theorem last_tail_8 :
    arg6.view.read (Elt F) (arg6.view.writes (Elt F) (harg6.unread acc) (runLast.sl.HS_8 c i arg2 harg2 arg6 harg6 u acc))
      = iter arg6 harg6 i (ublock arg2 harg2 u) acc 8 (by decide) :=
  read_cons_iter arg6 harg6 i (ublock arg2 harg2 u) acc 7 (by decide) (harg6.unread acc) (runLast.sl.HS_7 c i arg2 harg2 arg6 harg6 u acc) (last_tail_7 c i arg2 harg2 arg6 harg6 u acc) _ rfl

theorem last_tail_9 :
    arg6.view.read (Elt F) (arg6.view.writes (Elt F) (harg6.unread acc) (runLast.sl.HS_9 c i arg2 harg2 arg6 harg6 u acc))
      = iter arg6 harg6 i (ublock arg2 harg2 u) acc 9 (by decide) :=
  read_cons_iter arg6 harg6 i (ublock arg2 harg2 u) acc 8 (by decide) (harg6.unread acc) (runLast.sl.HS_8 c i arg2 harg2 arg6 harg6 u acc) (last_tail_8 c i arg2 harg2 arg6 harg6 u acc) _ rfl

theorem last_tail_10 :
    arg6.view.read (Elt F) (arg6.view.writes (Elt F) (harg6.unread acc) (runLast.sl.HS_10 c i arg2 harg2 arg6 harg6 u acc))
      = iter arg6 harg6 i (ublock arg2 harg2 u) acc 10 (by decide) :=
  read_cons_iter arg6 harg6 i (ublock arg2 harg2 u) acc 9 (by decide) (harg6.unread acc) (runLast.sl.HS_9 c i arg2 harg2 arg6 harg6 u acc) (last_tail_9 c i arg2 harg2 arg6 harg6 u acc) _ rfl

theorem last_tail_11 :
    arg6.view.read (Elt F) (arg6.view.writes (Elt F) (harg6.unread acc) (runLast.sl.HS_11 c i arg2 harg2 arg6 harg6 u acc))
      = iter arg6 harg6 i (ublock arg2 harg2 u) acc 11 (by decide) :=
  read_cons_iter arg6 harg6 i (ublock arg2 harg2 u) acc 10 (by decide) (harg6.unread acc) (runLast.sl.HS_10 c i arg2 harg2 arg6 harg6 u acc) (last_tail_10 c i arg2 harg2 arg6 harg6 u acc) _ rfl

theorem last_tail_12 :
    arg6.view.read (Elt F) (arg6.view.writes (Elt F) (harg6.unread acc) (runLast.sl.HS_12 c i arg2 harg2 arg6 harg6 u acc))
      = iter arg6 harg6 i (ublock arg2 harg2 u) acc 12 (by decide) :=
  read_cons_iter arg6 harg6 i (ublock arg2 harg2 u) acc 11 (by decide) (harg6.unread acc) (runLast.sl.HS_11 c i arg2 harg2 arg6 harg6 u acc) (last_tail_11 c i arg2 harg2 arg6 harg6 u acc) _ rfl

theorem last_tail_13 :
    arg6.view.read (Elt F) (arg6.view.writes (Elt F) (harg6.unread acc) (runLast.sl.HS_13 c i arg2 harg2 arg6 harg6 u acc))
      = iter arg6 harg6 i (ublock arg2 harg2 u) acc 13 (by decide) :=
  read_cons_iter arg6 harg6 i (ublock arg2 harg2 u) acc 12 (by decide) (harg6.unread acc) (runLast.sl.HS_12 c i arg2 harg2 arg6 harg6 u acc) (last_tail_12 c i arg2 harg2 arg6 harg6 u acc) _ rfl

theorem last_tail_14 :
    arg6.view.read (Elt F) (arg6.view.writes (Elt F) (harg6.unread acc) (runLast.sl.HS_14 c i arg2 harg2 arg6 harg6 u acc))
      = iter arg6 harg6 i (ublock arg2 harg2 u) acc 14 (by decide) :=
  read_cons_iter arg6 harg6 i (ublock arg2 harg2 u) acc 13 (by decide) (harg6.unread acc) (runLast.sl.HS_13 c i arg2 harg2 arg6 harg6 u acc) (last_tail_13 c i arg2 harg2 arg6 harg6 u acc) _ rfl

theorem last_tail_15 :
    arg6.view.read (Elt F) (arg6.view.writes (Elt F) (harg6.unread acc) (runLast.sl.HS_15 c i arg2 harg2 arg6 harg6 u acc))
      = iter arg6 harg6 i (ublock arg2 harg2 u) acc 15 (by decide) :=
  read_cons_iter arg6 harg6 i (ublock arg2 harg2 u) acc 14 (by decide) (harg6.unread acc) (runLast.sl.HS_14 c i arg2 harg2 arg6 harg6 u acc) (last_tail_14 c i arg2 harg2 arg6 harg6 u acc) _ rfl

theorem last_tail_16 :
    arg6.view.read (Elt F) (arg6.view.writes (Elt F) (harg6.unread acc) (runLast.sl.HS_16 c i arg2 harg2 arg6 harg6 u acc))
      = iter arg6 harg6 i (ublock arg2 harg2 u) acc 16 (by decide) :=
  read_cons_iter arg6 harg6 i (ublock arg2 harg2 u) acc 15 (by decide) (harg6.unread acc) (runLast.sl.HS_15 c i arg2 harg2 arg6 harg6 u acc) (last_tail_15 c i arg2 harg2 arg6 harg6 u acc) _ rfl

theorem last_tail_17 :
    arg6.view.read (Elt F) (arg6.view.writes (Elt F) (harg6.unread acc) (runLast.sl.HS_17 c i arg2 harg2 arg6 harg6 u acc))
      = iter arg6 harg6 i (ublock arg2 harg2 u) acc 17 (by decide) :=
  read_cons_iter arg6 harg6 i (ublock arg2 harg2 u) acc 16 (by decide) (harg6.unread acc) (runLast.sl.HS_16 c i arg2 harg2 arg6 harg6 u acc) (last_tail_16 c i arg2 harg2 arg6 harg6 u acc) _ rfl

theorem last_tail_18 :
    arg6.view.read (Elt F) (arg6.view.writes (Elt F) (harg6.unread acc) (runLast.sl.HS_18 c i arg2 harg2 arg6 harg6 u acc))
      = iter arg6 harg6 i (ublock arg2 harg2 u) acc 18 (by decide) :=
  read_cons_iter arg6 harg6 i (ublock arg2 harg2 u) acc 17 (by decide) (harg6.unread acc) (runLast.sl.HS_17 c i arg2 harg2 arg6 harg6 u acc) (last_tail_17 c i arg2 harg2 arg6 harg6 u acc) _ rfl

theorem last_tail_19 :
    arg6.view.read (Elt F) (arg6.view.writes (Elt F) (harg6.unread acc) (runLast.sl.HS_19 c i arg2 harg2 arg6 harg6 u acc))
      = iter arg6 harg6 i (ublock arg2 harg2 u) acc 19 (by decide) :=
  read_cons_iter arg6 harg6 i (ublock arg2 harg2 u) acc 18 (by decide) (harg6.unread acc) (runLast.sl.HS_18 c i arg2 harg2 arg6 harg6 u acc) (last_tail_18 c i arg2 harg2 arg6 harg6 u acc) _ rfl

theorem last_tail_20 :
    arg6.view.read (Elt F) (arg6.view.writes (Elt F) (harg6.unread acc) (runLast.sl.HS_20 c i arg2 harg2 arg6 harg6 u acc))
      = iter arg6 harg6 i (ublock arg2 harg2 u) acc 20 (by decide) :=
  read_cons_iter arg6 harg6 i (ublock arg2 harg2 u) acc 19 (by decide) (harg6.unread acc) (runLast.sl.HS_19 c i arg2 harg2 arg6 harg6 u acc) (last_tail_19 c i arg2 harg2 arg6 harg6 u acc) _ rfl

theorem last_tail_21 :
    arg6.view.read (Elt F) (arg6.view.writes (Elt F) (harg6.unread acc) (runLast.sl.HS_21 c i arg2 harg2 arg6 harg6 u acc))
      = iter arg6 harg6 i (ublock arg2 harg2 u) acc 21 (by decide) :=
  read_cons_iter arg6 harg6 i (ublock arg2 harg2 u) acc 20 (by decide) (harg6.unread acc) (runLast.sl.HS_20 c i arg2 harg2 arg6 harg6 u acc) (last_tail_20 c i arg2 harg2 arg6 harg6 u acc) _ rfl

theorem last_tail_22 :
    arg6.view.read (Elt F) (arg6.view.writes (Elt F) (harg6.unread acc) (runLast.sl.HS_22 c i arg2 harg2 arg6 harg6 u acc))
      = iter arg6 harg6 i (ublock arg2 harg2 u) acc 22 (by decide) :=
  read_cons_iter arg6 harg6 i (ublock arg2 harg2 u) acc 21 (by decide) (harg6.unread acc) (runLast.sl.HS_21 c i arg2 harg2 arg6 harg6 u acc) (last_tail_21 c i arg2 harg2 arg6 harg6 u acc) _ rfl

theorem last_tail_23 :
    arg6.view.read (Elt F) (arg6.view.writes (Elt F) (harg6.unread acc) (runLast.sl.HS_23 c i arg2 harg2 arg6 harg6 u acc))
      = iter arg6 harg6 i (ublock arg2 harg2 u) acc 23 (by decide) :=
  read_cons_iter arg6 harg6 i (ublock arg2 harg2 u) acc 22 (by decide) (harg6.unread acc) (runLast.sl.HS_22 c i arg2 harg2 arg6 harg6 u acc) (last_tail_22 c i arg2 harg2 arg6 harg6 u acc) _ rfl

theorem last_tail_24 :
    arg6.view.read (Elt F) (arg6.view.writes (Elt F) (harg6.unread acc) (runLast.sl.HS_24 c i arg2 harg2 arg6 harg6 u acc))
      = iter arg6 harg6 i (ublock arg2 harg2 u) acc 24 (by decide) :=
  read_cons_iter arg6 harg6 i (ublock arg2 harg2 u) acc 23 (by decide) (harg6.unread acc) (runLast.sl.HS_23 c i arg2 harg2 arg6 harg6 u acc) (last_tail_23 c i arg2 harg2 arg6 harg6 u acc) _ rfl

theorem last_tail_25 :
    arg6.view.read (Elt F) (arg6.view.writes (Elt F) (harg6.unread acc) (runLast.sl.HS_25 c i arg2 harg2 arg6 harg6 u acc))
      = iter arg6 harg6 i (ublock arg2 harg2 u) acc 25 (by decide) :=
  read_cons_iter arg6 harg6 i (ublock arg2 harg2 u) acc 24 (by decide) (harg6.unread acc) (runLast.sl.HS_24 c i arg2 harg2 arg6 harg6 u acc) (last_tail_24 c i arg2 harg2 arg6 harg6 u acc) _ rfl

theorem last_tail_26 :
    arg6.view.read (Elt F) (arg6.view.writes (Elt F) (harg6.unread acc) (runLast.sl.HS_26 c i arg2 harg2 arg6 harg6 u acc))
      = iter arg6 harg6 i (ublock arg2 harg2 u) acc 26 (by decide) :=
  read_cons_iter arg6 harg6 i (ublock arg2 harg2 u) acc 25 (by decide) (harg6.unread acc) (runLast.sl.HS_25 c i arg2 harg2 arg6 harg6 u acc) (last_tail_25 c i arg2 harg2 arg6 harg6 u acc) _ rfl

theorem last_tail_27 :
    arg6.view.read (Elt F) (arg6.view.writes (Elt F) (harg6.unread acc) (runLast.sl.HS_27 c i arg2 harg2 arg6 harg6 u acc))
      = iter arg6 harg6 i (ublock arg2 harg2 u) acc 27 (by decide) :=
  read_cons_iter arg6 harg6 i (ublock arg2 harg2 u) acc 26 (by decide) (harg6.unread acc) (runLast.sl.HS_26 c i arg2 harg2 arg6 harg6 u acc) (last_tail_26 c i arg2 harg2 arg6 harg6 u acc) _ rfl

theorem last_tail_28 :
    arg6.view.read (Elt F) (arg6.view.writes (Elt F) (harg6.unread acc) (runLast.sl.HS_28 c i arg2 harg2 arg6 harg6 u acc))
      = iter arg6 harg6 i (ublock arg2 harg2 u) acc 28 (by decide) :=
  read_cons_iter arg6 harg6 i (ublock arg2 harg2 u) acc 27 (by decide) (harg6.unread acc) (runLast.sl.HS_27 c i arg2 harg2 arg6 harg6 u acc) (last_tail_27 c i arg2 harg2 arg6 harg6 u acc) _ rfl

theorem last_tail_29 :
    arg6.view.read (Elt F) (arg6.view.writes (Elt F) (harg6.unread acc) (runLast.sl.HS_29 c i arg2 harg2 arg6 harg6 u acc))
      = iter arg6 harg6 i (ublock arg2 harg2 u) acc 29 (by decide) :=
  read_cons_iter arg6 harg6 i (ublock arg2 harg2 u) acc 28 (by decide) (harg6.unread acc) (runLast.sl.HS_28 c i arg2 harg2 arg6 harg6 u acc) (last_tail_28 c i arg2 harg2 arg6 harg6 u acc) _ rfl

theorem last_tail_30 :
    arg6.view.read (Elt F) (arg6.view.writes (Elt F) (harg6.unread acc) (runLast.sl.HS_30 c i arg2 harg2 arg6 harg6 u acc))
      = iter arg6 harg6 i (ublock arg2 harg2 u) acc 30 (by decide) :=
  read_cons_iter arg6 harg6 i (ublock arg2 harg2 u) acc 29 (by decide) (harg6.unread acc) (runLast.sl.HS_29 c i arg2 harg2 arg6 harg6 u acc) (last_tail_29 c i arg2 harg2 arg6 harg6 u acc) _ rfl

theorem last_tail_31 :
    arg6.view.read (Elt F) (arg6.view.writes (Elt F) (harg6.unread acc) (runLast.sl.HS_31 c i arg2 harg2 arg6 harg6 u acc))
      = iter arg6 harg6 i (ublock arg2 harg2 u) acc 31 (by decide) :=
  read_cons_iter arg6 harg6 i (ublock arg2 harg2 u) acc 30 (by decide) (harg6.unread acc) (runLast.sl.HS_30 c i arg2 harg2 arg6 harg6 u acc) (last_tail_30 c i arg2 harg2 arg6 harg6 u acc) _ rfl

theorem last_tail_32 :
    arg6.view.read (Elt F) (arg6.view.writes (Elt F) (harg6.unread acc) (runLast.sl.HS_32 c i arg2 harg2 arg6 harg6 u acc))
      = iter arg6 harg6 i (ublock arg2 harg2 u) acc 32 (by decide) :=
  read_cons_iter arg6 harg6 i (ublock arg2 harg2 u) acc 31 (by decide) (harg6.unread acc) (runLast.sl.HS_31 c i arg2 harg2 arg6 harg6 u acc) (last_tail_31 c i arg2 harg2 arg6 harg6 u acc) _ rfl

end Cert.KernelIdeal.Hand

end
-- ==== Proof.ReadsML.lean ====
/-
  What the body's runs leave, read back.  After a middle or a last tile the accumulator holds the tile's thirty-two steps
  applied to what it held before (`mid_read`, `last_read`); at a last tile the stores into the two result blocks are the
  accumulator's rows after those steps (`last_O`, `last_N`).
-/
import proofs.«166608_j62680752718461_1_alg».proof.Proof.TailsMid
import proofs.«166608_j62680752718461_1_alg».proof.Proof.TailsLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000

variable (c : Dev nD) (i : grid0.Coords) (arg2 : Memref sig .tc .vmem S32x1x256x128 .f32) (harg2 : arg2.IsWhole) (arg3 : Memref sig .tc .vmem S1x8416x128 .f32) (harg3 : arg3.IsWhole) (arg4 : Memref sig .tc .vmem S1x8192x128 .f32) (harg4 : arg4.IsWhole) (arg5 : Memref sig .tc .vmem S1x8416x128 .f32) (harg5 : arg5.IsWhole) (arg6 : Memref sig .tc .vmem S8416x128 .f32) (harg6 : arg6.IsWhole)
variable (u : Vec F S32x1x256x128 .f32) (acc : Vec F S8416x128 .f32)

/-- After a middle tile: the thirty-two steps applied to the accumulator's contents before it. -/
theorem mid_read (hf : ¬isFirst i) (hl : ¬isLast i) :
    arg6.view.read (Elt F) (arg6.view.writes (Elt F) (harg6.unread acc) (runMid c i arg2 harg2 arg3 harg3 arg4 harg4 arg5 harg5 arg6 harg6 hf hl u acc).1)
      = iter arg6 harg6 i (ublock arg2 harg2 u) acc 32 (Nat.le_refl 32) :=
  read_cons_iter arg6 harg6 i (ublock arg2 harg2 u) acc 31 (Nat.le_refl 32) (harg6.unread acc)
    (runMid.sl.HS_31 c i arg2 harg2 arg6 harg6 u acc) (mid_tail_31 c i arg2 harg2 arg6 harg6 u acc) _ rfl

/-- After a last tile: the same. -/
theorem last_read (hf : ¬isFirst i) (hl : isLast i) :
    arg6.view.read (Elt F) (arg6.view.writes (Elt F) (harg6.unread acc) (runLast c i arg2 harg2 arg3 harg3 arg4 harg4 arg5 harg5 arg6 harg6 hf hl u acc).2.2.1)
      = iter arg6 harg6 i (ublock arg2 harg2 u) acc 32 (Nat.le_refl 32) :=
  last_tail_32 c i arg2 harg2 arg6 harg6 u acc

/-- The accumulator buffer itself after a last tile's steps is those contents laid back into the buffer. -/
theorem last_buf (hf : ¬isFirst i) (hl : isLast i) :
    arg6.view.writes (Elt F) (harg6.unread acc) (runLast.sl.HS_32 c i arg2 harg2 arg6 harg6 u acc)
      = harg6.unread (iter arg6 harg6 i (ublock arg2 harg2 u) acc 32 (Nat.le_refl 32)) :=
  harg6.eq_unread (last_tail_32 c i arg2 harg2 arg6 harg6 u acc)

/-- The store a last tile makes into the first result block is of the accumulator's first 8192 rows after its steps. -/
theorem last_O (hf : ¬isFirst i) (hl : isLast i) :
    (runLast c i arg2 harg2 arg3 harg3 arg4 harg4 arg5 harg5 arg6 harg6 hf hl u acc).1
      = piecesO arg6 harg6 (iter arg6 harg6 i (ublock arg2 harg2 u) acc 32 (Nat.le_refl 32)) := by
  show [(⟨Rect.unit (s := S1x8192x128) ![0, 0, 0] S1x8192x128.size inb_S1x8192x128_S1x8192x128_0_0_0,
      k0_pay1 (View.readAt (Elt F) arg6.view
        (Rect.unit (s := S8416x128) ![0, 0] S8192x128.size inb_S8416x128_S8192x128_0_0).toLoadRect
        (arg6.view.writes (Elt F) (harg6.unread acc) (runLast.sl.HS_32 c i arg2 harg2 arg6 harg6 u acc)))⟩ :
      View.Piece (Elt F) S1x8192x128 .f32)] = _
  rw [last_buf c i arg2 harg2 arg6 harg6 u acc hf hl]

/-- The stores it makes into the second result block are of the accumulator's last 224 rows after its steps, and zeros. -/
theorem last_N (hf : ¬isFirst i) (hl : isLast i) :
    (runLast c i arg2 harg2 arg3 harg3 arg4 harg4 arg5 harg5 arg6 harg6 hf hl u acc).2.1
      = piecesN arg6 harg6 (iter arg6 harg6 i (ublock arg2 harg2 u) acc 32 (Nat.le_refl 32)) := by
  show [(⟨Rect.unit (s := S1x8416x128) ![0, 224, 0] S1x8192x128.size inb_S1x8416x128_S1x8192x128_0_224_0, k0_pay3 (F := F)⟩ :
      View.Piece (Elt F) S1x8416x128 .f32),
        ⟨Rect.unit (s := S1x8416x128) ![0, 0, 0] S1x224x128.size inb_S1x8416x128_S1x224x128_0_0_0,
         k0_pay2 (View.readAt (Elt F) arg6.view
          (Rect.unit (s := S8416x128) ![8192, 0] S224x128.size inb_S8416x128_S224x128_8192_0).toLoadRect
          (arg6.view.writes (Elt F) (harg6.unread acc) (runLast.sl.HS_32 c i arg2 harg2 arg6 harg6 u acc)))⟩] = _
  rw [last_buf c i arg2 harg2 arg6 harg6 u acc hf hl]

end Cert.KernelIdeal.Hand

end
-- ==== Proof.RunFirst.lean ====
/-
  The body at the first tile of a channel: the channel's snapshot block is copied whole into the accumulator, then the
  tile's thirty-two read-add-write steps run on it.  What the accumulator held before is loaded once and never used: the copy
  covers the whole buffer, so what the run leaves is stated over no prior contents at all; both result blocks are handed
  back untouched.
-/
import proofs.«166608_j62680752718461_1_alg».proof.Proof.Setup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S32x1x256x128 .f32) (harg2 : arg2.IsWhole) (arg3 : Memref sig .tc .vmem S1x8416x128 .f32) (harg3 : arg3.IsWhole) (arg4 : Memref sig .tc .vmem S1x8192x128 .f32) (harg4 : arg4.IsWhole) (arg5 : Memref sig .tc .vmem S1x8416x128 .f32) (harg5 : arg5.IsWhole) (arg6 : Memref sig .tc .vmem S8416x128 .f32) (harg6 : arg6.IsWhole)
    (hf : isFirst i) (hl : ¬isLast i) (u : Vec F S32x1x256x128 .f32) (s : Vec F S1x8416x128 .f32) :
    { LS : List (View.Piece (Elt F) S8416x128 .f32) //
      ∀ (acc : Vec F S8416x128 .f32) (o : Vec F S1x8192x128 .f32) (n : Vec F S1x8416x128 .f32) (E : Set ℕ) (K : PUnit → sProp 𝕄),
        iprop(owns (c : Thread nD τ) arg2 fullShare u ∗ owns (c : Thread nD τ) arg3 fullShare s ∗ owns (c : Thread nD τ) arg4 fullShare o
            ∗ owns (c : Thread nD τ) arg5 fullShare n ∗ owns (c : Thread nD τ) arg6 fullShare acc
            ∗ (iprop(owns (c : Thread nD τ) arg2 fullShare u ∗ owns (c : Thread nD τ) arg3 fullShare s ∗ owns (c : Thread nD τ) arg4 fullShare o
                ∗ owns (c : Thread nD τ) arg5 fullShare n
                ∗ (arg6.view.loc (c : Thread nD τ) ↦[arg6.view.set]{fullShare} arg6.view.writes (Elt F) arg6.view.junk LS)) -∗ K ⟨⟩))
          ⊢ wp frame (wpE (defs₀ (F := F)) Variants.none c none) E (cc0__overlap_add_kernel i arg2 harg2 arg3 harg3 arg4 harg4 arg5 harg5 arg6 harg6) K } := by
  refine ⟨?_, fun acc o n E K => ?run⟩
  case run =>
    simp only [cc0__overlap_add_kernel_eq_skeleton]; unfold cc0__overlap_add_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexact HS

end Cert.KernelIdeal.Hand

end
-- ==== Proof.TailsFirst.lean ====
/-
  The accumulator during the thirty-two steps of a channel's first tile, read back from the stores the body's run left. The
  run first stores the channel's snapshot block over the whole accumulator: that one store read back is the block
  (`first_tail_0`). After step `j` the stores so far read back as the first `j` steps applied to the block.
-/
import proofs.«166608_j62680752718461_1_alg».proof.Proof.RunFirst
import proofs.«166608_j62680752718461_1_alg».proof.Proof.Steps
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000

variable (c : Dev nD) (i : grid0.Coords) (arg2 : Memref sig .tc .vmem S32x1x256x128 .f32) (harg2 : arg2.IsWhole)
  (arg3 : Memref sig .tc .vmem S1x8416x128 .f32) (harg3 : arg3.IsWhole)
  (arg6 : Memref sig .tc .vmem S8416x128 .f32) (harg6 : arg6.IsWhole) (u : Vec F S32x1x256x128 .f32) (s : Vec F S1x8416x128 .f32)

/-- One store over every accumulator row from offset zero, read back: an index reads what was stored at itself, whatever the
    accumulator held before. -/
theorem read_whole_store (f : arg6.view.ty.Contents (Elt F)) (X : Vec F S8416x128 .f32) :
    arg6.view.read (Elt F) (arg6.view.writes (Elt F) f
      [⟨Rect.unit (s := S8416x128) ![0, 0] S8416x128.size inb_S8416x128_S8416x128_0_0, X⟩]) = X :=
  funext fun y => View.read_writes_cons_unit_of_mem arg6.view f inb_S8416x128_S8416x128_0_0 X [] y y rfl
    (fun a => match a with | ⟨0, _⟩ => (Nat.zero_add _).symm | ⟨1, _⟩ => (Nat.zero_add _).symm)

/-- Before the tile's first step the run has made that one store, of the channel's snapshot block. -/
theorem first_tail_0 :
    arg6.view.read (Elt F) (arg6.view.writes (Elt F) arg6.view.junk (runFirst.sl.HS_1 c arg3 harg3 s))
      = iter arg6 harg6 i (ublock arg2 harg2 u) (snapOf arg3 harg3 s) 0 (by decide) :=
  read_whole_store arg6 arg6.view.junk (snapOf arg3 harg3 s)

theorem first_tail_1 :
    arg6.view.read (Elt F) (arg6.view.writes (Elt F) arg6.view.junk (runFirst.sl.HS_2 c i arg2 harg2 arg3 harg3 arg6 u s))
      = iter arg6 harg6 i (ublock arg2 harg2 u) (snapOf arg3 harg3 s) 1 (by decide) :=
  read_cons_iter arg6 harg6 i (ublock arg2 harg2 u) (snapOf arg3 harg3 s) 0 (by decide) arg6.view.junk (runFirst.sl.HS_1 c arg3 harg3 s) (first_tail_0 c i arg2 harg2 arg3 harg3 arg6 harg6 u s) _ rfl

theorem first_tail_2 :
    arg6.view.read (Elt F) (arg6.view.writes (Elt F) arg6.view.junk (runFirst.sl.HS_3 c i arg2 harg2 arg3 harg3 arg6 u s))
      = iter arg6 harg6 i (ublock arg2 harg2 u) (snapOf arg3 harg3 s) 2 (by decide) :=
  read_cons_iter arg6 harg6 i (ublock arg2 harg2 u) (snapOf arg3 harg3 s) 1 (by decide) arg6.view.junk (runFirst.sl.HS_2 c i arg2 harg2 arg3 harg3 arg6 u s) (first_tail_1 c i arg2 harg2 arg3 harg3 arg6 harg6 u s) _ rfl

theorem first_tail_3 :
    arg6.view.read (Elt F) (arg6.view.writes (Elt F) arg6.view.junk (runFirst.sl.HS_4 c i arg2 harg2 arg3 harg3 arg6 u s))
      = iter arg6 harg6 i (ublock arg2 harg2 u) (snapOf arg3 harg3 s) 3 (by decide) :=
  read_cons_iter arg6 harg6 i (ublock arg2 harg2 u) (snapOf arg3 harg3 s) 2 (by decide) arg6.view.junk (runFirst.sl.HS_3 c i arg2 harg2 arg3 harg3 arg6 u s) (first_tail_2 c i arg2 harg2 arg3 harg3 arg6 harg6 u s) _ rfl

theorem first_tail_4 :
    arg6.view.read (Elt F) (arg6.view.writes (Elt F) arg6.view.junk (runFirst.sl.HS_5 c i arg2 harg2 arg3 harg3 arg6 u s))
      = iter arg6 harg6 i (ublock arg2 harg2 u) (snapOf arg3 harg3 s) 4 (by decide) :=
  read_cons_iter arg6 harg6 i (ublock arg2 harg2 u) (snapOf arg3 harg3 s) 3 (by decide) arg6.view.junk (runFirst.sl.HS_4 c i arg2 harg2 arg3 harg3 arg6 u s) (first_tail_3 c i arg2 harg2 arg3 harg3 arg6 harg6 u s) _ rfl

theorem first_tail_5 :
    arg6.view.read (Elt F) (arg6.view.writes (Elt F) arg6.view.junk (runFirst.sl.HS_6 c i arg2 harg2 arg3 harg3 arg6 u s))
      = iter arg6 harg6 i (ublock arg2 harg2 u) (snapOf arg3 harg3 s) 5 (by decide) :=
  read_cons_iter arg6 harg6 i (ublock arg2 harg2 u) (snapOf arg3 harg3 s) 4 (by decide) arg6.view.junk (runFirst.sl.HS_5 c i arg2 harg2 arg3 harg3 arg6 u s) (first_tail_4 c i arg2 harg2 arg3 harg3 arg6 harg6 u s) _ rfl

theorem first_tail_6 :
    arg6.view.read (Elt F) (arg6.view.writes (Elt F) arg6.view.junk (runFirst.sl.HS_7 c i arg2 harg2 arg3 harg3 arg6 u s))
      = iter arg6 harg6 i (ublock arg2 harg2 u) (snapOf arg3 harg3 s) 6 (by decide) :=
  read_cons_iter arg6 harg6 i (ublock arg2 harg2 u) (snapOf arg3 harg3 s) 5 (by decide) arg6.view.junk (runFirst.sl.HS_6 c i arg2 harg2 arg3 harg3 arg6 u s) (first_tail_5 c i arg2 harg2 arg3 harg3 arg6 harg6 u s) _ rfl

theorem first_tail_7 :
    arg6.view.read (Elt F) (arg6.view.writes (Elt F) arg6.view.junk (runFirst.sl.HS_8 c i arg2 harg2 arg3 harg3 arg6 u s))
      = iter arg6 harg6 i (ublock arg2 harg2 u) (snapOf arg3 harg3 s) 7 (by decide) :=
  read_cons_iter arg6 harg6 i (ublock arg2 harg2 u) (snapOf arg3 harg3 s) 6 (by decide) arg6.view.junk (runFirst.sl.HS_7 c i arg2 harg2 arg3 harg3 arg6 u s) (first_tail_6 c i arg2 harg2 arg3 harg3 arg6 harg6 u s) _ rfl

theorem first_tail_8 :
    arg6.view.read (Elt F) (arg6.view.writes (Elt F) arg6.view.junk (runFirst.sl.HS_9 c i arg2 harg2 arg3 harg3 arg6 u s))
      = iter arg6 harg6 i (ublock arg2 harg2 u) (snapOf arg3 harg3 s) 8 (by decide) :=
  read_cons_iter arg6 harg6 i (ublock arg2 harg2 u) (snapOf arg3 harg3 s) 7 (by decide) arg6.view.junk (runFirst.sl.HS_8 c i arg2 harg2 arg3 harg3 arg6 u s) (first_tail_7 c i arg2 harg2 arg3 harg3 arg6 harg6 u s) _ rfl

theorem first_tail_9 :
    arg6.view.read (Elt F) (arg6.view.writes (Elt F) arg6.view.junk (runFirst.sl.HS_10 c i arg2 harg2 arg3 harg3 arg6 u s))
      = iter arg6 harg6 i (ublock arg2 harg2 u) (snapOf arg3 harg3 s) 9 (by decide) :=
  read_cons_iter arg6 harg6 i (ublock arg2 harg2 u) (snapOf arg3 harg3 s) 8 (by decide) arg6.view.junk (runFirst.sl.HS_9 c i arg2 harg2 arg3 harg3 arg6 u s) (first_tail_8 c i arg2 harg2 arg3 harg3 arg6 harg6 u s) _ rfl

theorem first_tail_10 :
    arg6.view.read (Elt F) (arg6.view.writes (Elt F) arg6.view.junk (runFirst.sl.HS_11 c i arg2 harg2 arg3 harg3 arg6 u s))
      = iter arg6 harg6 i (ublock arg2 harg2 u) (snapOf arg3 harg3 s) 10 (by decide) :=
  read_cons_iter arg6 harg6 i (ublock arg2 harg2 u) (snapOf arg3 harg3 s) 9 (by decide) arg6.view.junk (runFirst.sl.HS_10 c i arg2 harg2 arg3 harg3 arg6 u s) (first_tail_9 c i arg2 harg2 arg3 harg3 arg6 harg6 u s) _ rfl

theorem first_tail_11 :
    arg6.view.read (Elt F) (arg6.view.writes (Elt F) arg6.view.junk (runFirst.sl.HS_12 c i arg2 harg2 arg3 harg3 arg6 u s))
      = iter arg6 harg6 i (ublock arg2 harg2 u) (snapOf arg3 harg3 s) 11 (by decide) :=
  read_cons_iter arg6 harg6 i (ublock arg2 harg2 u) (snapOf arg3 harg3 s) 10 (by decide) arg6.view.junk (runFirst.sl.HS_11 c i arg2 harg2 arg3 harg3 arg6 u s) (first_tail_10 c i arg2 harg2 arg3 harg3 arg6 harg6 u s) _ rfl

theorem first_tail_12 :
    arg6.view.read (Elt F) (arg6.view.writes (Elt F) arg6.view.junk (runFirst.sl.HS_13 c i arg2 harg2 arg3 harg3 arg6 u s))
      = iter arg6 harg6 i (ublock arg2 harg2 u) (snapOf arg3 harg3 s) 12 (by decide) :=
  read_cons_iter arg6 harg6 i (ublock arg2 harg2 u) (snapOf arg3 harg3 s) 11 (by decide) arg6.view.junk (runFirst.sl.HS_12 c i arg2 harg2 arg3 harg3 arg6 u s) (first_tail_11 c i arg2 harg2 arg3 harg3 arg6 harg6 u s) _ rfl

theorem first_tail_13 :
    arg6.view.read (Elt F) (arg6.view.writes (Elt F) arg6.view.junk (runFirst.sl.HS_14 c i arg2 harg2 arg3 harg3 arg6 u s))
      = iter arg6 harg6 i (ublock arg2 harg2 u) (snapOf arg3 harg3 s) 13 (by decide) :=
  read_cons_iter arg6 harg6 i (ublock arg2 harg2 u) (snapOf arg3 harg3 s) 12 (by decide) arg6.view.junk (runFirst.sl.HS_13 c i arg2 harg2 arg3 harg3 arg6 u s) (first_tail_12 c i arg2 harg2 arg3 harg3 arg6 harg6 u s) _ rfl

theorem first_tail_14 :
    arg6.view.read (Elt F) (arg6.view.writes (Elt F) arg6.view.junk (runFirst.sl.HS_15 c i arg2 harg2 arg3 harg3 arg6 u s))
      = iter arg6 harg6 i (ublock arg2 harg2 u) (snapOf arg3 harg3 s) 14 (by decide) :=
  read_cons_iter arg6 harg6 i (ublock arg2 harg2 u) (snapOf arg3 harg3 s) 13 (by decide) arg6.view.junk (runFirst.sl.HS_14 c i arg2 harg2 arg3 harg3 arg6 u s) (first_tail_13 c i arg2 harg2 arg3 harg3 arg6 harg6 u s) _ rfl

theorem first_tail_15 :
    arg6.view.read (Elt F) (arg6.view.writes (Elt F) arg6.view.junk (runFirst.sl.HS_16 c i arg2 harg2 arg3 harg3 arg6 u s))
      = iter arg6 harg6 i (ublock arg2 harg2 u) (snapOf arg3 harg3 s) 15 (by decide) :=
  read_cons_iter arg6 harg6 i (ublock arg2 harg2 u) (snapOf arg3 harg3 s) 14 (by decide) arg6.view.junk (runFirst.sl.HS_15 c i arg2 harg2 arg3 harg3 arg6 u s) (first_tail_14 c i arg2 harg2 arg3 harg3 arg6 harg6 u s) _ rfl

theorem first_tail_16 :
    arg6.view.read (Elt F) (arg6.view.writes (Elt F) arg6.view.junk (runFirst.sl.HS_17 c i arg2 harg2 arg3 harg3 arg6 u s))
      = iter arg6 harg6 i (ublock arg2 harg2 u) (snapOf arg3 harg3 s) 16 (by decide) :=
  read_cons_iter arg6 harg6 i (ublock arg2 harg2 u) (snapOf arg3 harg3 s) 15 (by decide) arg6.view.junk (runFirst.sl.HS_16 c i arg2 harg2 arg3 harg3 arg6 u s) (first_tail_15 c i arg2 harg2 arg3 harg3 arg6 harg6 u s) _ rfl

theorem first_tail_17 :
    arg6.view.read (Elt F) (arg6.view.writes (Elt F) arg6.view.junk (runFirst.sl.HS_18 c i arg2 harg2 arg3 harg3 arg6 u s))
      = iter arg6 harg6 i (ublock arg2 harg2 u) (snapOf arg3 harg3 s) 17 (by decide) :=
  read_cons_iter arg6 harg6 i (ublock arg2 harg2 u) (snapOf arg3 harg3 s) 16 (by decide) arg6.view.junk (runFirst.sl.HS_17 c i arg2 harg2 arg3 harg3 arg6 u s) (first_tail_16 c i arg2 harg2 arg3 harg3 arg6 harg6 u s) _ rfl

theorem first_tail_18 :
    arg6.view.read (Elt F) (arg6.view.writes (Elt F) arg6.view.junk (runFirst.sl.HS_19 c i arg2 harg2 arg3 harg3 arg6 u s))
      = iter arg6 harg6 i (ublock arg2 harg2 u) (snapOf arg3 harg3 s) 18 (by decide) :=
  read_cons_iter arg6 harg6 i (ublock arg2 harg2 u) (snapOf arg3 harg3 s) 17 (by decide) arg6.view.junk (runFirst.sl.HS_18 c i arg2 harg2 arg3 harg3 arg6 u s) (first_tail_17 c i arg2 harg2 arg3 harg3 arg6 harg6 u s) _ rfl

theorem first_tail_19 :
    arg6.view.read (Elt F) (arg6.view.writes (Elt F) arg6.view.junk (runFirst.sl.HS_20 c i arg2 harg2 arg3 harg3 arg6 u s))
      = iter arg6 harg6 i (ublock arg2 harg2 u) (snapOf arg3 harg3 s) 19 (by decide) :=
  read_cons_iter arg6 harg6 i (ublock arg2 harg2 u) (snapOf arg3 harg3 s) 18 (by decide) arg6.view.junk (runFirst.sl.HS_19 c i arg2 harg2 arg3 harg3 arg6 u s) (first_tail_18 c i arg2 harg2 arg3 harg3 arg6 harg6 u s) _ rfl

theorem first_tail_20 :
    arg6.view.read (Elt F) (arg6.view.writes (Elt F) arg6.view.junk (runFirst.sl.HS_21 c i arg2 harg2 arg3 harg3 arg6 u s))
      = iter arg6 harg6 i (ublock arg2 harg2 u) (snapOf arg3 harg3 s) 20 (by decide) :=
  read_cons_iter arg6 harg6 i (ublock arg2 harg2 u) (snapOf arg3 harg3 s) 19 (by decide) arg6.view.junk (runFirst.sl.HS_20 c i arg2 harg2 arg3 harg3 arg6 u s) (first_tail_19 c i arg2 harg2 arg3 harg3 arg6 harg6 u s) _ rfl

theorem first_tail_21 :
    arg6.view.read (Elt F) (arg6.view.writes (Elt F) arg6.view.junk (runFirst.sl.HS_22 c i arg2 harg2 arg3 harg3 arg6 u s))
      = iter arg6 harg6 i (ublock arg2 harg2 u) (snapOf arg3 harg3 s) 21 (by decide) :=
  read_cons_iter arg6 harg6 i (ublock arg2 harg2 u) (snapOf arg3 harg3 s) 20 (by decide) arg6.view.junk (runFirst.sl.HS_21 c i arg2 harg2 arg3 harg3 arg6 u s) (first_tail_20 c i arg2 harg2 arg3 harg3 arg6 harg6 u s) _ rfl

theorem first_tail_22 :
    arg6.view.read (Elt F) (arg6.view.writes (Elt F) arg6.view.junk (runFirst.sl.HS_23 c i arg2 harg2 arg3 harg3 arg6 u s))
      = iter arg6 harg6 i (ublock arg2 harg2 u) (snapOf arg3 harg3 s) 22 (by decide) :=
  read_cons_iter arg6 harg6 i (ublock arg2 harg2 u) (snapOf arg3 harg3 s) 21 (by decide) arg6.view.junk (runFirst.sl.HS_22 c i arg2 harg2 arg3 harg3 arg6 u s) (first_tail_21 c i arg2 harg2 arg3 harg3 arg6 harg6 u s) _ rfl

theorem first_tail_23 :
    arg6.view.read (Elt F) (arg6.view.writes (Elt F) arg6.view.junk (runFirst.sl.HS_24 c i arg2 harg2 arg3 harg3 arg6 u s))
      = iter arg6 harg6 i (ublock arg2 harg2 u) (snapOf arg3 harg3 s) 23 (by decide) :=
  read_cons_iter arg6 harg6 i (ublock arg2 harg2 u) (snapOf arg3 harg3 s) 22 (by decide) arg6.view.junk (runFirst.sl.HS_23 c i arg2 harg2 arg3 harg3 arg6 u s) (first_tail_22 c i arg2 harg2 arg3 harg3 arg6 harg6 u s) _ rfl

theorem first_tail_24 :
    arg6.view.read (Elt F) (arg6.view.writes (Elt F) arg6.view.junk (runFirst.sl.HS_25 c i arg2 harg2 arg3 harg3 arg6 u s))
      = iter arg6 harg6 i (ublock arg2 harg2 u) (snapOf arg3 harg3 s) 24 (by decide) :=
  read_cons_iter arg6 harg6 i (ublock arg2 harg2 u) (snapOf arg3 harg3 s) 23 (by decide) arg6.view.junk (runFirst.sl.HS_24 c i arg2 harg2 arg3 harg3 arg6 u s) (first_tail_23 c i arg2 harg2 arg3 harg3 arg6 harg6 u s) _ rfl

theorem first_tail_25 :
    arg6.view.read (Elt F) (arg6.view.writes (Elt F) arg6.view.junk (runFirst.sl.HS_26 c i arg2 harg2 arg3 harg3 arg6 u s))
      = iter arg6 harg6 i (ublock arg2 harg2 u) (snapOf arg3 harg3 s) 25 (by decide) :=
  read_cons_iter arg6 harg6 i (ublock arg2 harg2 u) (snapOf arg3 harg3 s) 24 (by decide) arg6.view.junk (runFirst.sl.HS_25 c i arg2 harg2 arg3 harg3 arg6 u s) (first_tail_24 c i arg2 harg2 arg3 harg3 arg6 harg6 u s) _ rfl

theorem first_tail_26 :
    arg6.view.read (Elt F) (arg6.view.writes (Elt F) arg6.view.junk (runFirst.sl.HS_27 c i arg2 harg2 arg3 harg3 arg6 u s))
      = iter arg6 harg6 i (ublock arg2 harg2 u) (snapOf arg3 harg3 s) 26 (by decide) :=
  read_cons_iter arg6 harg6 i (ublock arg2 harg2 u) (snapOf arg3 harg3 s) 25 (by decide) arg6.view.junk (runFirst.sl.HS_26 c i arg2 harg2 arg3 harg3 arg6 u s) (first_tail_25 c i arg2 harg2 arg3 harg3 arg6 harg6 u s) _ rfl

theorem first_tail_27 :
    arg6.view.read (Elt F) (arg6.view.writes (Elt F) arg6.view.junk (runFirst.sl.HS_28 c i arg2 harg2 arg3 harg3 arg6 u s))
      = iter arg6 harg6 i (ublock arg2 harg2 u) (snapOf arg3 harg3 s) 27 (by decide) :=
  read_cons_iter arg6 harg6 i (ublock arg2 harg2 u) (snapOf arg3 harg3 s) 26 (by decide) arg6.view.junk (runFirst.sl.HS_27 c i arg2 harg2 arg3 harg3 arg6 u s) (first_tail_26 c i arg2 harg2 arg3 harg3 arg6 harg6 u s) _ rfl

theorem first_tail_28 :
    arg6.view.read (Elt F) (arg6.view.writes (Elt F) arg6.view.junk (runFirst.sl.HS_29 c i arg2 harg2 arg3 harg3 arg6 u s))
      = iter arg6 harg6 i (ublock arg2 harg2 u) (snapOf arg3 harg3 s) 28 (by decide) :=
  read_cons_iter arg6 harg6 i (ublock arg2 harg2 u) (snapOf arg3 harg3 s) 27 (by decide) arg6.view.junk (runFirst.sl.HS_28 c i arg2 harg2 arg3 harg3 arg6 u s) (first_tail_27 c i arg2 harg2 arg3 harg3 arg6 harg6 u s) _ rfl

theorem first_tail_29 :
    arg6.view.read (Elt F) (arg6.view.writes (Elt F) arg6.view.junk (runFirst.sl.HS_30 c i arg2 harg2 arg3 harg3 arg6 u s))
      = iter arg6 harg6 i (ublock arg2 harg2 u) (snapOf arg3 harg3 s) 29 (by decide) :=
  read_cons_iter arg6 harg6 i (ublock arg2 harg2 u) (snapOf arg3 harg3 s) 28 (by decide) arg6.view.junk (runFirst.sl.HS_29 c i arg2 harg2 arg3 harg3 arg6 u s) (first_tail_28 c i arg2 harg2 arg3 harg3 arg6 harg6 u s) _ rfl

theorem first_tail_30 :
    arg6.view.read (Elt F) (arg6.view.writes (Elt F) arg6.view.junk (runFirst.sl.HS_31 c i arg2 harg2 arg3 harg3 arg6 u s))
      = iter arg6 harg6 i (ublock arg2 harg2 u) (snapOf arg3 harg3 s) 30 (by decide) :=
  read_cons_iter arg6 harg6 i (ublock arg2 harg2 u) (snapOf arg3 harg3 s) 29 (by decide) arg6.view.junk (runFirst.sl.HS_30 c i arg2 harg2 arg3 harg3 arg6 u s) (first_tail_29 c i arg2 harg2 arg3 harg3 arg6 harg6 u s) _ rfl

theorem first_tail_31 :
    arg6.view.read (Elt F) (arg6.view.writes (Elt F) arg6.view.junk (runFirst.sl.HS_32 c i arg2 harg2 arg3 harg3 arg6 u s))
      = iter arg6 harg6 i (ublock arg2 harg2 u) (snapOf arg3 harg3 s) 31 (by decide) :=
  read_cons_iter arg6 harg6 i (ublock arg2 harg2 u) (snapOf arg3 harg3 s) 30 (by decide) arg6.view.junk (runFirst.sl.HS_31 c i arg2 harg2 arg3 harg3 arg6 u s) (first_tail_30 c i arg2 harg2 arg3 harg3 arg6 harg6 u s) _ rfl

end Cert.KernelIdeal.Hand

end
-- ==== Proof.ReadsF.lean ====
/-
  What the body's run leaves at a channel's first tile, read back.  The run stores the channel's snapshot block over the whole
  accumulator and then makes the tile's thirty-two steps, so whatever the accumulator held before, it ends at those steps
  applied to the snapshot block (`first_read`).
-/
import proofs.«166608_j62680752718461_1_alg».proof.Proof.TailsFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000

variable (c : Dev nD) (i : grid0.Coords) (arg2 : Memref sig .tc .vmem S32x1x256x128 .f32) (harg2 : arg2.IsWhole) (arg3 : Memref sig .tc .vmem S1x8416x128 .f32) (harg3 : arg3.IsWhole) (arg4 : Memref sig .tc .vmem S1x8192x128 .f32) (harg4 : arg4.IsWhole) (arg5 : Memref sig .tc .vmem S1x8416x128 .f32) (harg5 : arg5.IsWhole) (arg6 : Memref sig .tc .vmem S8416x128 .f32) (harg6 : arg6.IsWhole)
variable (u : Vec F S32x1x256x128 .f32) (s : Vec F S1x8416x128 .f32)

/-- After a first tile: the thirty-two steps applied to the channel's snapshot block.  The run's newest store is step 31's,
    over the stores that read back as the first thirty-one steps. -/
theorem first_read (hf : isFirst i) (hl : ¬isLast i) :
    arg6.view.read (Elt F) (arg6.view.writes (Elt F) arg6.view.junk (runFirst c i arg2 harg2 arg3 harg3 arg4 harg4 arg5 harg5 arg6 harg6 hf hl u s).1)
      = iter arg6 harg6 i (ublock arg2 harg2 u) (snapOf arg3 harg3 s) 32 (Nat.le_refl 32) :=
  read_cons_iter arg6 harg6 i (ublock arg2 harg2 u) (snapOf arg3 harg3 s) 31 (Nat.le_refl 32) arg6.view.junk
    (runFirst.sl.HS_32 c i arg2 harg2 arg3 harg3 arg6 u s) (first_tail_31 c i arg2 harg2 arg3 harg3 arg6 harg6 u s) _ rfl

end Cert.KernelIdeal.Hand

end
-- ==== Proof.Body.lean ====
/-
  The body obligation of the overlap-add region at every grid point, the region's run and the frame.

  A point is in one of three cases by its tile alone.  At a channel's first tile the accumulator, whatever it held, is
  overwritten by the channel's snapshot block and then takes the tile's thirty-two steps; at a middle tile it takes the
  steps from what the point before left; at a channel's last tile it takes them and is then copied out into the two
  result blocks.  In each case the body's run hands the accumulator back at the stores it made, and reading those back
  is the contents the proof data names for the point (`accAt`, `outO`, `outN`).  Away from a last tile the result
  windows are idle: their buffers come back as they went in.
-/
import proofs.«166608_j62680752718461_1_alg».proof.Proof.Data
import proofs.«166608_j62680752718461_1_alg».proof.Proof.ReadsML
import proofs.«166608_j62680752718461_1_alg».proof.Proof.ReadsF

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mU t) fullShare ((dats m 0 c).before 0 t d))
    ∗ (∃ d, owns (c : Thread nD τ) (mS t) fullShare ((dats m 0 c).before 1 t d))
    ∗ (∃ d, owns (c : Thread nD τ) (mO t) fullShare ((dats m 0 c).before 2 t d))
    ∗ (∃ d, owns (c : Thread nD τ) (mN t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- A point's tile coordinate is its position modulo eight, so a first tile is no last tile. -/
theorem not_last_of_first (t : Fin cfg0.N) (h0 : t.val % 8 = 0) : ¬isLast (grid0.coords t) :=
  fun h => by have := (isLast_iff t).mp h; omega

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (mU t) fullShare ((dats m 0 c).after 0 t) from by
    unfold Dat.leavesExact; rw [live_in0 t], after_0]
  rw [show (dats m 0 c).leavesExact 1 t = owns (c : Thread nD τ) (mS t) fullShare ((dats m 0 c).after 1 t) from by
    unfold Dat.leavesExact; rw [live_in1 t], after_1]
  by_cases h0 : t.val % 8 = 0
  · -- a channel's first tile
    have hf : isFirst (grid0.coords t) := (isFirst_iff t).mpr h0
    have hl : ¬isLast (grid0.coords t) := not_last_of_first t h0
    rw [Dat.leavesExact_idle (dats m 0 c) 2 t (idle_out2 t hl) (noflush_out2 t hl)]
    rw [Dat.leavesExact_idle (dats m 0 c) 3 t (idle_out3 t hl) (noflush_out3 t hl)]
    have hread := (first_read c (grid0.coords t) (mU t) (hU t) (mS t) (hS t) (mO t) (hO t) (mN t) (hN t) mAcc hAcc
      (iblk m c 0 t) (iblk m c 1 t) hf hl).trans (accAt_first m c t h0).symm
    by_cases hz : t.val = 0
    · rw [PhiS_castSucc m c t, PhiS_zero m c _ _ hz, PhiA_eq]
      iintro ⟨⟨⟨%d, HS0⟩, Hg⟩, Ho, ⟨%d0, H0⟩, ⟨%d1, H1⟩, ⟨%d2, H2⟩, ⟨%d3, H3⟩⟩
      iapply ((runFirst c (grid0.coords t) (mU t) (hU t) (mS t) (hS t) (mO t) (hO t) (mN t) (hN t) mAcc hAcc hf hl
        (iblk m c 0 t) (iblk m c 1 t)).2 _ _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hg]
      · isplitl [HS0]
        · unfold owns; iexists _; isplitr
          swap; · iexact HS0
          ipureintro; exact hread
        iexact Hg
      isplitl [Ho]; · iexact Ho
      isplitl [H0]; · iexact H0
      isplitl [H1]; · iexact H1
      isplitl [H2]; · iexists _; iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runFirst c (grid0.coords t) (mU t) (hU t) (mS t) (hS t) (mO t) (hO t) (mN t) (hN t) mAcc hAcc hf hl
        (iblk m c 0 t) (iblk m c 1 t)).2 _ _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hg]
      · isplitl [HS0]
        · unfold owns; iexists _; isplitr
          swap; · iexact HS0
          ipureintro; exact hread
        iexact Hg
      isplitl [Ho]; · iexact Ho
      isplitl [H0]; · iexact H0
      isplitl [H1]; · iexact H1
      isplitl [H2]; · iexists _; iexact H2
      iexists _; iexact H3
  · have hf : ¬isFirst (grid0.coords t) := fun h => h0 ((isFirst_iff t).mp h)
    have hz : t.val ≠ 0 := fun h => h0 (by rw [h])
    by_cases h7 : t.val % 8 = 7
    · -- a channel's last tile
      have hl : isLast (grid0.coords t) := (isLast_iff t).mpr h7
      rw [show (dats m 0 c).leavesExact 2 t = owns (c : Thread nD τ) (mO t) fullShare ((dats m 0 c).after 2 t) from by
        unfold Dat.leavesExact; rw [live_out2 t hl], after_2]
      rw [show (dats m 0 c).leavesExact 3 t = owns (c : Thread nD τ) (mN t) fullShare ((dats m 0 c).after 3 t) from by
        unfold Dat.leavesExact; rw [live_out3 t hl], after_3]
      have hacc := accAt_next m c t h0
      have hacc' : iter mAcc hAcc (grid0.coords t) (ublock (mU t) (hU t) (iblk m c 0 t))
          (accAt m c (t.val - 1) (Nat.lt_of_le_of_lt (Nat.sub_le _ _) t.isLt)) 32 (Nat.le_refl 32) = accAt m c t.val t.isLt := hacc.symm
      have hread := (last_read c (grid0.coords t) (mU t) (hU t) (mS t) (hS t) (mO t) (hO t) (mN t) (hN t) mAcc hAcc
        (iblk m c 0 t) (accAt m c (t.val - 1) (Nat.lt_of_le_of_lt (Nat.sub_le _ _) t.isLt)) hf hl).trans hacc.symm
      have hO' := last_O c (grid0.coords t) (mU t) (hU t) (mS t) (hS t) (mO t) (hO t) (mN t) (hN t) mAcc hAcc
        (iblk m c 0 t) (accAt m c (t.val - 1) (Nat.lt_of_le_of_lt (Nat.sub_le _ _) t.isLt)) hf hl
      have hN' := last_N c (grid0.coords t) (mU t) (hU t) (mS t) (hS t) (mO t) (hO t) (mN t) (hN t) mAcc hAcc
        (iblk m c 0 t) (accAt m c (t.val - 1) (Nat.lt_of_le_of_lt (Nat.sub_le _ _) t.isLt)) hf hl
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runLast c (grid0.coords t) (mU t) (hU t) (mS t) (hS t) (mO t) (hO t) (mN t) (hN t) mAcc hAcc hf hl
        (iblk m c 0 t) (accAt m c (t.val - 1) (Nat.lt_of_le_of_lt (Nat.sub_le _ _) t.isLt))).2.2.2 _ _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hg]
      · isplitl [HS0]
        · unfold owns; iexists _; isplitr
          swap; · iexact HS0
          ipureintro; exact hread
        iexact Hg
      isplitl [Ho]; · iexact Ho
      isplitl [H0]; · iexact H0
      isplitl [H1]; · iexact H1
      isplitl [H2]
      · unfold owns; iexists _; isplitr
        swap; · iexact H2
        ipureintro
        rw [hO', hacc']
        unfold outO
        exact View.read_writes_of_cover _ _ _ _ _ (coverO mAcc hAcc _)
      unfold owns; iexists _; isplitr
      swap; · iexact H3
      ipureintro
      rw [hN', hacc']
      unfold outN
      exact View.read_writes_of_cover _ _ _ _ _ (coverN mAcc hAcc _)
    · -- a middle tile
      have hl : ¬isLast (grid0.coords t) := fun h => h7 ((isLast_iff t).mp h)
      rw [Dat.leavesExact_idle (dats m 0 c) 2 t (idle_out2 t hl) (noflush_out2 t hl)]
      rw [Dat.leavesExact_idle (dats m 0 c) 3 t (idle_out3 t hl) (noflush_out3 t hl)]
      have hread := (mid_read c (grid0.coords t) (mU t) (hU t) (mS t) (hS t) (mO t) (hO t) (mN t) (hN t) mAcc hAcc
        (iblk m c 0 t) (accAt m c (t.val - 1) (Nat.lt_of_le_of_lt (Nat.sub_le _ _) t.isLt)) hf hl).trans (accAt_next m c t h0).symm
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runMid c (grid0.coords t) (mU t) (hU t) (mS t) (hS t) (mO t) (hO t) (mN t) (hN t) mAcc hAcc hf hl
        (iblk m c 0 t) (accAt m c (t.val - 1) (Nat.lt_of_le_of_lt (Nat.sub_le _ _) t.isLt))).2 _ _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hg]
      · isplitl [HS0]
        · unfold owns; iexists _; isplitr
          swap; · iexact HS0
          ipureintro; exact hread
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- Every weakly fair execution of @main terminates with every array of the pipeline at what the proof data computes
    and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Bits.Setup.lean ====
/-
  What the three runs of the overlap-add body share.  The grid is (channel, batch tile) = (2, 8), walked channel-major,
  so point `t` is channel `t / 8`, tile `t % 8`.  The body has two branches on the tile coordinate alone: at the first
  tile of a channel it copies the channel's snapshot block into the accumulator scratch, and at the last tile it copies
  the accumulator out into the two result blocks.  Both conditions are decided here over the sixteen points, and the two
  result windows are shown idle (neither stored into nor written back) away from a channel's last tile.
-/
import proofs.«166608_j62680752718461_1_alg».proof.Proof.Gen.Kernel.Frame
import proofs.«166608_j62680752718461_1_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch is taken: the tile coordinate is zero. -/
abbrev isFirst (i : grid0.Coords) : Prop :=
  (Scalar.cmpi .ne (Scalar.extui (Scalar.cmpi .eq (BitVec.ofNat 32 (i 1).val) 0#32)) 0#32) = 1#1
/-- The body's last branch is taken: the tile coordinate is seven. -/
abbrev isLast (i : grid0.Coords) : Prop := k0_cond2 i = 1#1

/-- The first branch is taken exactly at the points ≡ 0 (mod 8). -/
theorem isFirst_iff : ∀ t : Fin cfg0.N, isFirst (grid0.coords t) ↔ t.val % 8 = 0 :=
  (by decide +kernel : ∀ t : Fin grid0.N, isFirst (grid0.coords t) ↔ t.val % 8 = 0)
/-- The last branch is taken exactly at the points ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-- The two input windows are never idle. -/
theorem live_in0 : ∀ t : Fin cfg0.N, cfg0.idle 0 (grid0.coords t) = false := by decide +kernel
theorem live_in1 : ∀ t : Fin cfg0.N, cfg0.idle 1 (grid0.coords t) = false := by decide +kernel
/-- Away from a channel's last tile the result windows are idle and are not written back. -/
theorem idle_out2 : ∀ t : Fin cfg0.N, ¬isLast (grid0.coords t) → cfg0.idle 2 (grid0.coords t) = true := by decide +kernel
theorem idle_out3 : ∀ t : Fin cfg0.N, ¬isLast (grid0.coords t) → cfg0.idle 3 (grid0.coords t) = true := by decide +kernel
theorem noflush_out2 : ∀ t : Fin cfg0.N, ¬isLast (grid0.coords t) → (cfg0.win 2).flush t = false := by decide +kernel
theorem noflush_out3 : ∀ t : Fin cfg0.N, ¬isLast (grid0.coords t) → (cfg0.win 3).flush t = false := by decide +kernel
/-- At a channel's last tile they are live. -/
theorem live_out2 : ∀ t : Fin cfg0.N, isLast (grid0.coords t) → cfg0.idle 2 (grid0.coords t) = false := by decide +kernel
theorem live_out3 : ∀ t : Fin cfg0.N, isLast (grid0.coords t) → cfg0.idle 3 (grid0.coords t) = false := by decide +kernel

/-- Each window's current staging memref at point `t`, as the pipeline passes it to the body, and its wholeness. -/
abbrev mU (t : Fin cfg0.N) : Memref sig .tc .vmem S32x1x256x128 .f32 := win0_0.stage (cfg0.slots t 0)
abbrev hU (t : Fin cfg0.N) : (mU t).IsWhole := hstage0_0 ((cfg0.slots t 0).cast nbuf0_0)
abbrev mS (t : Fin cfg0.N) : Memref sig .tc .vmem S1x8416x128 .f32 := win0_1.stage (cfg0.slots t 1)
abbrev hS (t : Fin cfg0.N) : (mS t).IsWhole := hstage0_1 ((cfg0.slots t 1).cast nbuf0_1)
abbrev mO (t : Fin cfg0.N) : Memref sig .tc .vmem S1x8192x128 .f32 := win0_2.stage (cfg0.slots t 2)
abbrev hO (t : Fin cfg0.N) : (mO t).IsWhole := hstage0_2 ((cfg0.slots t 2).cast nbuf0_2)
abbrev mN (t : Fin cfg0.N) : Memref sig .tc .vmem S1x8416x128 .f32 := win0_3.stage (cfg0.slots t 3)
abbrev hN (t : Fin cfg0.N) : (mN t).IsWhole := hstage0_3 ((cfg0.slots t 3).cast nbuf0_3)
/-- The accumulator: the kernel's one scratch buffer, whole. -/
abbrev mAcc : Memref sig .tc .vmem S8416x128 .f32 := Memref.whole cc0_scratch0
abbrev hAcc : (mAcc).IsWhole := Memref.isWhole_whole _

/-- The region's class invariant with the accumulator spelled as a memref owned at some contents. -/
theorem PhiA_eq (c : Dev nD) :
    (Pipeline.ΦA spec0 c : sProp 𝕄)
      = iprop(iprop((∃ d, owns (c : Thread nD τ) mAcc fullShare d)) ∗ (∃ r, prngReg c r)) := by
  unfold Pipeline.ΦA; rw [scopedRest0_eq]; simp only [mAcc, owns_whole]; try rfl

end Cert.Kernel.Hand

end
-- ==== Proof.Bits.Steps.lean ====
/-
  One read-add-write step of the overlap-add, and its iteration.  Step `k` of a tile takes the 256 accumulator rows that
  start at the step's row offset, adds to them one eighth of the tile's update row-block `k`, and stores them back; every
  other row keeps its value.  `step` states this for a whole accumulator buffer as its contents read back after that one
  store, `iter` applies the first `k` steps of a tile in turn, and `read_cons_step` says that reading back a list of
  stores whose newest is such a store is one step applied to the rest of the list read back.
-/
import proofs.«166608_j62680752718461_1_alg».proof.Proof.Bits.Setup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (arg2 : Memref sig .tc .vmem S32x1x256x128 .f32) (harg2 : arg2.IsWhole)
variable (arg6 : Memref sig .tc .vmem S8416x128 .f32) (harg6 : arg6.IsWhole)

/-- The 256 accumulator rows step `k` of the tile at grid point `i` works on. -/
abbrev band (i : grid0.Coords) (k : Fin 32) : Rect S8416x128 :=
  Rect.unit (s := S8416x128) (k0_off1 i (BitVec.ofNat 32 k.val)) S256x128.size (k0_off1_inb i k)

/-- Row-block `k` of a tile of updates lies inside the tile: one 256 × 128 slab of the 32 it holds. -/
theorem ublock_inb (k : Fin 32) : ∀ a, (![k.val, 0, 0, 0] : Fin 4 → ℕ) a + S1x1x256x128.size a ≤ S32x1x256x128.size a :=
  fun a => match a with
    | ⟨0, _⟩ => by show k.val + 1 ≤ 32; omega
    | ⟨1, _⟩ => Nat.le_refl 1
    | ⟨2, _⟩ => Nat.le_refl 256
    | ⟨3, _⟩ => Nat.le_refl 128

/-- Row-block `k` of the tile of updates held in `arg2` at contents `u`. -/
abbrev ublock (u : Vec F S32x1x256x128 .f32) (k : Fin 32) : Vec F S1x1x256x128 .f32 :=
  View.readAt (Elt F) arg2.view (Rect.unit (s := S32x1x256x128) ![k.val, 0, 0, 0] S1x1x256x128.size (ublock_inb k)).toLoadRect
    (harg2.unread u)

/-- What a step stores into its band, from the band as loaded (`cur`) and the update row-block (`ub`): `cur + ub · (1/8)`, under the
    same-shape cast the program spells after the sum. -/
abbrev stepPay (ub : Vec F S1x1x256x128 .f32) (cur : Vec F S256x128 .f32) : FVec F S256x128 .f32 :=
  shapeCast S256x128
    (addf cur (mulf (shapeCast S256x128 ub shapeCasts_S1x1x256x128_S256x128) (broadcast S256x128 (Scalar.ofBits .f32 0x3E000000#32))))
    shapeCasts_S256x128_S256x128

/-- The accumulator after step `k` at grid point `i`, from its contents `X` before the step. -/
def step (i : grid0.Coords) (k : Fin 32) (ub : Vec F S1x1x256x128 .f32) (X : Vec F S8416x128 .f32) : Vec F S8416x128 .f32 :=
  arg6.view.read (Elt F) (arg6.view.writes (Elt F) (harg6.unread X)
    [⟨band i k, stepPay ub (View.readAt (Elt F) arg6.view (band i k).toLoadRect (harg6.unread X))⟩])

/-- The accumulator after the first `k` steps of the tile at grid point `i`, from contents `X₀`, step `j` adding row-block `ub j`. -/
def iter (i : grid0.Coords) (ub : Fin 32 → Vec F S1x1x256x128 .f32) (X₀ : Vec F S8416x128 .f32) :
    (k : ℕ) → k ≤ 32 → Vec F S8416x128 .f32
  | 0, _ => X₀
  | k + 1, h => step arg6 harg6 i ⟨k, h⟩ (ub ⟨k, h⟩) (iter i ub X₀ k (Nat.le_of_succ_le h))

theorem iter_succ (i : grid0.Coords) (ub : Fin 32 → Vec F S1x1x256x128 .f32) (X₀ : Vec F S8416x128 .f32) (k : ℕ) (h : k + 1 ≤ 32) :
    iter arg6 harg6 i ub X₀ (k + 1) h = step arg6 harg6 i ⟨k, h⟩ (ub ⟨k, h⟩) (iter arg6 harg6 i ub X₀ k (Nat.le_of_succ_le h)) := rfl

/-- Reading back a list of stores whose newest is step `k`'s store, its payload computed from the band as loaded after
    the older stores, is step `k` applied to the older stores read back. -/
theorem read_cons_step (i : grid0.Coords) (k : Fin 32) (ub : Vec F S1x1x256x128 .f32)
    (f : arg6.view.ty.Contents (Elt F)) (L : List (View.Piece (Elt F) S8416x128 .f32)) (X : Vec F S8416x128 .f32)
    (hX : arg6.view.read (Elt F) (arg6.view.writes (Elt F) f L) = X)
    (w : (band i k).shape.Idx → Elt F .f32)
    (hw : w = stepPay ub (View.readAt (Elt F) arg6.view (band i k).toLoadRect (arg6.view.writes (Elt F) f L))) :
    arg6.view.read (Elt F) (arg6.view.writes (Elt F) f (⟨band i k, w⟩ :: L)) = step arg6 harg6 i k ub X := by
  subst hX hw
  unfold step
  rw [harg6.unread_read]
  rfl

/-- The same with the tile's steps counted: the older stores read back being the first `k` steps done, the list with
    step `k`'s store on top is the first `k + 1`. -/
theorem read_cons_iter (i : grid0.Coords) (ub : Fin 32 → Vec F S1x1x256x128 .f32) (X₀ : Vec F S8416x128 .f32)
    (k : ℕ) (h : k + 1 ≤ 32)
    (f : arg6.view.ty.Contents (Elt F)) (L : List (View.Piece (Elt F) S8416x128 .f32))
    (hX : arg6.view.read (Elt F) (arg6.view.writes (Elt F) f L) = iter arg6 harg6 i ub X₀ k (Nat.le_of_succ_le h))
    (w : (band i ⟨k, h⟩).shape.Idx → Elt F .f32)
    (hw : w = stepPay (ub ⟨k, h⟩) (View.readAt (Elt F) arg6.view (band i ⟨k, h⟩).toLoadRect (arg6.view.writes (Elt F) f L))) :
    arg6.view.read (Elt F) (arg6.view.writes (Elt F) f (⟨band i ⟨k, h⟩, w⟩ :: L)) = iter arg6 harg6 i ub X₀ (k + 1) h :=
  read_cons_step arg6 harg6 i ⟨k, h⟩ (ub ⟨k, h⟩) f L _ hX w hw

/-- The one store a channel's last tile makes into the first result block: the accumulator's first 8192 rows, the
    accumulator at contents `X`. -/
abbrev piecesO (X : Vec F S8416x128 .f32) : List (View.Piece (Elt F) S1x8192x128 .f32) :=
  [⟨Rect.unit (s := S1x8192x128) ![0, 0, 0] S1x8192x128.size inb_S1x8192x128_S1x8192x128_0_0_0,
    k0_pay1 (View.readAt (Elt F) arg6.view
      (Rect.unit (s := S8416x128) ![0, 0] S8192x128.size inb_S8416x128_S8192x128_0_0).toLoadRect (harg6.unread X))⟩]

/-- The two stores it makes into the second result block, newest first: 8192 zero rows from row 224 on, and before
    them the accumulator's last 224 rows. -/
abbrev piecesN (X : Vec F S8416x128 .f32) : List (View.Piece (Elt F) S1x8416x128 .f32) :=
  [⟨Rect.unit (s := S1x8416x128) ![0, 224, 0] S1x8192x128.size inb_S1x8416x128_S1x8192x128_0_224_0, k0_pay3 (F := F)⟩,
   ⟨Rect.unit (s := S1x8416x128) ![0, 0, 0] S1x224x128.size inb_S1x8416x128_S1x224x128_0_0_0,
    k0_pay2 (View.readAt (Elt F) arg6.view
      (Rect.unit (s := S8416x128) ![8192, 0] S224x128.size inb_S8416x128_S224x128_8192_0).toLoadRect (harg6.unread X))⟩]

/-- The single store into the first result block covers it. -/
theorem coverO (X : Vec F S8416x128 .f32) (y : S1x8192x128.Idx) : ∃ pc ∈ piecesO arg6 harg6 X, y ∈ pc.1.set :=
  View.cover_of_tiledL (piecesO arg6 harg6 X) S1x8192x128.size (by sl_kernel_rfl) y
/-- The two stores into the second result block tile it: cut into blocks of 32 rows, they strike every block once. -/
theorem coverN (X : Vec F S8416x128 .f32) (y : S1x8416x128.Idx) : ∃ pc ∈ piecesN arg6 harg6 X, y ∈ pc.1.set :=
  View.cover_of_tiledBy (piecesN arg6 harg6 X) ![1, 32, 128] (by sl_kernel_rfl) y

/-- The channel's snapshot block, held in `arg3` at contents `s`, laid out as accumulator contents: what the first
    branch stores over the whole accumulator. -/
abbrev snapOf (arg3 : Memref sig .tc .vmem S1x8416x128 .f32) (harg3 : arg3.IsWhole) (s : Vec F S1x8416x128 .f32) : FVec F S8416x128 .f32 :=
  k0_pay4 (View.readAt (Elt F) arg3.view
    (Rect.unit (s := S1x8416x128) ![0, 0, 0] S1x8416x128.size inb_S1x8416x128_S1x8416x128_0_0_0).toLoadRect (harg3.unread s))

end Cert.Kernel.Hand

end
-- ==== Proof.Bits.Data.lean ====
/-
  What the accumulator and the two result blocks hold after each grid point, and the pipeline's proof data over them.

  Points are walked channel-major, eight tiles to a channel.  At a channel's first tile the accumulator restarts from the
  channel's snapshot block; at every tile it takes the tile's thirty-two read-add-write steps; so after point `n` it holds
  the snapshot plus every update window of the channel's tiles so far (`accAt`, by recursion on the point).  At a channel's
  last tile the first 8192 accumulator rows are the first result block, and the last 224 rows followed by 8192 zero rows
  the second (`outO`, `outN`); at the other tiles the result windows are idle and what is named for them there is never
  consulted.  The region's invariant names the accumulator's contents from the first point on (`PhiS`).
-/
import proofs.«166608_j62680752718461_1_alg».proof.Proof.Bits.Steps

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The tile of updates point `t` works on, row-block by row-block, as its staging buffer holds it. -/
abbrev ubAt (c : Dev nD) (t : Fin cfg0.N) : Fin 32 → Vec F S1x1x256x128 .f32 :=
  ublock (mU t) (hU t) (iblk m c 0 t)

/-- The channel's snapshot block as point `t`'s staging buffer holds it, laid out as accumulator contents. -/
abbrev snapAt (c : Dev nD) (t : Fin cfg0.N) : Vec F S8416x128 .f32 :=
  snapOf (mS t) (hS t) (iblk m c 1 t)

/-- The accumulator after point `t`'s thirty-two steps, from contents `X` before them. -/
abbrev tileRun (c : Dev nD) (t : Fin cfg0.N) (X : Vec F S8416x128 .f32) : Vec F S8416x128 .f32 :=
  iter mAcc hAcc (grid0.coords t) (ubAt m c t) X 32 (Nat.le_refl 32)

/-- What the accumulator holds after the body at position `n`: the tile's steps applied to the channel's snapshot block
    at a channel's first tile, to what the point before left otherwise. -/
def accAt (c : Dev nD) : (n : ℕ) → n < cfg0.N → Vec F S8416x128 .f32
  | 0, hn => tileRun m c ⟨0, hn⟩ (snapAt m c ⟨0, hn⟩)
  | n + 1, hn =>
    if (n + 1) % 8 = 0 then tileRun m c ⟨n + 1, hn⟩ (snapAt m c ⟨n + 1, hn⟩)
    else tileRun m c ⟨n + 1, hn⟩ (accAt c n (Nat.lt_of_succ_lt hn))

/-- At a channel's first tile the accumulator restarts from the snapshot. -/
theorem accAt_first (c : Dev nD) (t : Fin cfg0.N) (h0 : t.val % 8 = 0) :
    accAt m c t.val t.isLt = tileRun m c t (snapAt m c t) := by
  obtain ⟨n, hn⟩ := t
  cases n with
  | zero => rfl
  | succ n => exact if_pos h0

/-- At any other tile it continues from what the point before left. -/
theorem accAt_next (c : Dev nD) (t : Fin cfg0.N) (h0 : ¬t.val % 8 = 0) :
    accAt m c t.val t.isLt = tileRun m c t (accAt m c (t.val - 1) (Nat.lt_of_le_of_lt (Nat.sub_le _ _) t.isLt)) := by
  obtain ⟨n, hn⟩ := t
  cases n with
  | zero => exact absurd (Nat.zero_mod _) h0
  | succ n => exact if_neg h0

/-- One staging buffer of each result window, through which the window's contents are stated. -/
abbrev VO : View sig .tc .vmem S1x8192x128 .f32 := (Memref.whole cc0_stg2_0 : Memref sig .tc .vmem S1x8192x128 .f32).view
abbrev VN : View sig .tc .vmem S1x8416x128 .f32 := (Memref.whole cc0_stg3_0 : Memref sig .tc .vmem S1x8416x128 .f32).view

/-- The result blocks as a channel's last tile leaves them, from the accumulator's contents after that tile. -/
def outO (c : Dev nD) (t : Fin cfg0.N) : Vec F S1x8192x128 .f32 :=
  VO.read (Elt F) (VO.writes (Elt F) VO.junk (piecesO mAcc hAcc (accAt m c t.val t.isLt)))
def outN (c : Dev nD) (t : Fin cfg0.N) : Vec F S1x8416x128 .f32 :=
  VN.read (Elt F) (VN.writes (Elt F) VN.junk (piecesN mAcc hAcc (accAt m c t.val t.isLt)))

/-- The region's invariant before position `n`: before the first point the class's (the accumulator at anything); from then
    on the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) mAcc fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) mAcc fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) mAcc fullShare (accAt m c (n - 1) (by omega))) ∗ (∃ r, prngReg c r)) := by
  cases n with
  | zero => exact absurd rfl hz
  | succ n => rfl

/-- The proof data of the one pipeline on core `c`: the arrays as the region finds them; after the body at point `t` each
    input's buffer at its block, the result buffers at `outO` / `outN`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outO m c t
    | ⟨3, _⟩ => outN m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outO m c t := by dsimp only [dats]
theorem after_3 (c : Dev nD) (t : Fin cfg0.N) : (dats m 0 c).after 3 t = outN m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

end Cert.Kernel.Hand

end
-- ==== Proof.Bits.RunMid.lean ====
/-
  The body at a middle tile of a channel (neither branch taken): thirty-two read-add-write steps on the accumulator, step
  `k` adding one eighth of update row-block `k` of the tile into the 256 accumulator rows that start at row
  `32 · (32 · tile + k)`.  The snapshot block and both result blocks are handed back untouched.  The accumulator is held
  whole at the contents `acc` the point before left, and ends at those contents overwritten by the run's pieces.
-/
import proofs.«166608_j62680752718461_1_alg».proof.Proof.Bits.Setup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runMid (c : Dev nD) (i : grid0.Coords) (arg2 : Memref sig .tc .vmem S32x1x256x128 .f32) (harg2 : arg2.IsWhole) (arg3 : Memref sig .tc .vmem S1x8416x128 .f32) (harg3 : arg3.IsWhole) (arg4 : Memref sig .tc .vmem S1x8192x128 .f32) (harg4 : arg4.IsWhole) (arg5 : Memref sig .tc .vmem S1x8416x128 .f32) (harg5 : arg5.IsWhole) (arg6 : Memref sig .tc .vmem S8416x128 .f32) (harg6 : arg6.IsWhole)
    (hf : ¬isFirst i) (hl : ¬isLast i) (u : Vec F S32x1x256x128 .f32) (acc : Vec F S8416x128 .f32) :
    { LS : List (View.Piece (Elt F) S8416x128 .f32) //
      ∀ (s : Vec F S1x8416x128 .f32) (o : Vec F S1x8192x128 .f32) (n : Vec F S1x8416x128 .f32) (E : Set ℕ) (K : PUnit → sProp 𝕄),
        iprop(owns (c : Thread nD τ) arg2 fullShare u ∗ owns (c : Thread nD τ) arg3 fullShare s ∗ owns (c : Thread nD τ) arg4 fullShare o
            ∗ owns (c : Thread nD τ) arg5 fullShare n ∗ owns (c : Thread nD τ) arg6 fullShare acc
            ∗ (iprop(owns (c : Thread nD τ) arg2 fullShare u ∗ owns (c : Thread nD τ) arg3 fullShare s ∗ owns (c : Thread nD τ) arg4 fullShare o
                ∗ owns (c : Thread nD τ) arg5 fullShare n
                ∗ (arg6.view.loc (c : Thread nD τ) ↦[arg6.view.set]{fullShare} arg6.view.writes (Elt F) (harg6.unread acc) LS)) -∗ K ⟨⟩))
          ⊢ wp frame (wpE (defs₀ (F := F)) Variants.none c none) E (cc0__overlap_add_kernel i arg2 harg2 arg3 harg3 arg4 harg4 arg5 harg5 arg6 harg6) K } := by
  refine ⟨?_, fun s o n E K => ?run⟩
  case run =>
    simp only [cc0__overlap_add_kernel_eq_skeleton]; unfold cc0__overlap_add_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexact HS

end Cert.Kernel.Hand

end
-- ==== Proof.Bits.TailsMid.lean ====
/-
  The accumulator after the thirty-two steps of a middle tile, read back from the stores the body's run left: after step `j` the
  stores so far read back as the first `j` steps applied to what the accumulator held before the tile.
-/
import proofs.«166608_j62680752718461_1_alg».proof.Proof.Bits.RunMid
import proofs.«166608_j62680752718461_1_alg».proof.Proof.Bits.Steps

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000

variable (c : Dev nD) (i : grid0.Coords) (arg2 : Memref sig .tc .vmem S32x1x256x128 .f32) (harg2 : arg2.IsWhole)
  (arg6 : Memref sig .tc .vmem S8416x128 .f32) (harg6 : arg6.IsWhole) (u : Vec F S32x1x256x128 .f32) (acc : Vec F S8416x128 .f32)

theorem mid_tail_1 :
    arg6.view.read (Elt F) (arg6.view.writes (Elt F) (harg6.unread acc) (runMid.sl.HS_1 c i arg2 harg2 arg6 harg6 u acc))
      = iter arg6 harg6 i (ublock arg2 harg2 u) acc 1 (by decide) :=
  read_cons_iter arg6 harg6 i (ublock arg2 harg2 u) acc 0 (by decide) (harg6.unread acc) [] (harg6.read_unread acc) _ rfl

theorem mid_tail_2 :
    arg6.view.read (Elt F) (arg6.view.writes (Elt F) (harg6.unread acc) (runMid.sl.HS_2 c i arg2 harg2 arg6 harg6 u acc))
      = iter arg6 harg6 i (ublock arg2 harg2 u) acc 2 (by decide) :=
  read_cons_iter arg6 harg6 i (ublock arg2 harg2 u) acc 1 (by decide) (harg6.unread acc) (runMid.sl.HS_1 c i arg2 harg2 arg6 harg6 u acc) (mid_tail_1 c i arg2 harg2 arg6 harg6 u acc) _ rfl

theorem mid_tail_3 :
    arg6.view.read (Elt F) (arg6.view.writes (Elt F) (harg6.unread acc) (runMid.sl.HS_3 c i arg2 harg2 arg6 harg6 u acc))
      = iter arg6 harg6 i (ublock arg2 harg2 u) acc 3 (by decide) :=
  read_cons_iter arg6 harg6 i (ublock arg2 harg2 u) acc 2 (by decide) (harg6.unread acc) (runMid.sl.HS_2 c i arg2 harg2 arg6 harg6 u acc) (mid_tail_2 c i arg2 harg2 arg6 harg6 u acc) _ rfl

theorem mid_tail_4 :
    arg6.view.read (Elt F) (arg6.view.writes (Elt F) (harg6.unread acc) (runMid.sl.HS_4 c i arg2 harg2 arg6 harg6 u acc))
      = iter arg6 harg6 i (ublock arg2 harg2 u) acc 4 (by decide) :=
  read_cons_iter arg6 harg6 i (ublock arg2 harg2 u) acc 3 (by decide) (harg6.unread acc) (runMid.sl.HS_3 c i arg2 harg2 arg6 harg6 u acc) (mid_tail_3 c i arg2 harg2 arg6 harg6 u acc) _ rfl

theorem mid_tail_5 :
    arg6.view.read (Elt F) (arg6.view.writes (Elt F) (harg6.unread acc) (runMid.sl.HS_5 c i arg2 harg2 arg6 harg6 u acc))
      = iter arg6 harg6 i (ublock arg2 harg2 u) acc 5 (by decide) :=
  read_cons_iter arg6 harg6 i (ublock arg2 harg2 u) acc 4 (by decide) (harg6.unread acc) (runMid.sl.HS_4 c i arg2 harg2 arg6 harg6 u acc) (mid_tail_4 c i arg2 harg2 arg6 harg6 u acc) _ rfl

theorem mid_tail_6 :
    arg6.view.read (Elt F) (arg6.view.writes (Elt F) (harg6.unread acc) (runMid.sl.HS_6 c i arg2 harg2 arg6 harg6 u acc))
      = iter arg6 harg6 i (ublock arg2 harg2 u) acc 6 (by decide) :=
  read_cons_iter arg6 harg6 i (ublock arg2 harg2 u) acc 5 (by decide) (harg6.unread acc) (runMid.sl.HS_5 c i arg2 harg2 arg6 harg6 u acc) (mid_tail_5 c i arg2 harg2 arg6 harg6 u acc) _ rfl

theorem mid_tail_7 :
    arg6.view.read (Elt F) (arg6.view.writes (Elt F) (harg6.unread acc) (runMid.sl.HS_7 c i arg2 harg2 arg6 harg6 u acc))
      = iter arg6 harg6 i (ublock arg2 harg2 u) acc 7 (by decide) :=
  read_cons_iter arg6 harg6 i (ublock arg2 harg2 u) acc 6 (by decide) (harg6.unread acc) (runMid.sl.HS_6 c i arg2 harg2 arg6 harg6 u acc) (mid_tail_6 c i arg2 harg2 arg6 harg6 u acc) _ rfl

theorem mid_tail_8 :
    arg6.view.read (Elt F) (arg6.view.writes (Elt F) (harg6.unread acc) (runMid.sl.HS_8 c i arg2 harg2 arg6 harg6 u acc))
      = iter arg6 harg6 i (ublock arg2 harg2 u) acc 8 (by decide) :=
  read_cons_iter arg6 harg6 i (ublock arg2 harg2 u) acc 7 (by decide) (harg6.unread acc) (runMid.sl.HS_7 c i arg2 harg2 arg6 harg6 u acc) (mid_tail_7 c i arg2 harg2 arg6 harg6 u acc) _ rfl

theorem mid_tail_9 :
    arg6.view.read (Elt F) (arg6.view.writes (Elt F) (harg6.unread acc) (runMid.sl.HS_9 c i arg2 harg2 arg6 harg6 u acc))
      = iter arg6 harg6 i (ublock arg2 harg2 u) acc 9 (by decide) :=
  read_cons_iter arg6 harg6 i (ublock arg2 harg2 u) acc 8 (by decide) (harg6.unread acc) (runMid.sl.HS_8 c i arg2 harg2 arg6 harg6 u acc) (mid_tail_8 c i arg2 harg2 arg6 harg6 u acc) _ rfl

theorem mid_tail_10 :
    arg6.view.read (Elt F) (arg6.view.writes (Elt F) (harg6.unread acc) (runMid.sl.HS_10 c i arg2 harg2 arg6 harg6 u acc))
      = iter arg6 harg6 i (ublock arg2 harg2 u) acc 10 (by decide) :=
  read_cons_iter arg6 harg6 i (ublock arg2 harg2 u) acc 9 (by decide) (harg6.unread acc) (runMid.sl.HS_9 c i arg2 harg2 arg6 harg6 u acc) (mid_tail_9 c i arg2 harg2 arg6 harg6 u acc) _ rfl

theorem mid_tail_11 :
    arg6.view.read (Elt F) (arg6.view.writes (Elt F) (harg6.unread acc) (runMid.sl.HS_11 c i arg2 harg2 arg6 harg6 u acc))
      = iter arg6 harg6 i (ublock arg2 harg2 u) acc 11 (by decide) :=
  read_cons_iter arg6 harg6 i (ublock arg2 harg2 u) acc 10 (by decide) (harg6.unread acc) (runMid.sl.HS_10 c i arg2 harg2 arg6 harg6 u acc) (mid_tail_10 c i arg2 harg2 arg6 harg6 u acc) _ rfl

theorem mid_tail_12 :
    arg6.view.read (Elt F) (arg6.view.writes (Elt F) (harg6.unread acc) (runMid.sl.HS_12 c i arg2 harg2 arg6 harg6 u acc))
      = iter arg6 harg6 i (ublock arg2 harg2 u) acc 12 (by decide) :=
  read_cons_iter arg6 harg6 i (ublock arg2 harg2 u) acc 11 (by decide) (harg6.unread acc) (runMid.sl.HS_11 c i arg2 harg2 arg6 harg6 u acc) (mid_tail_11 c i arg2 harg2 arg6 harg6 u acc) _ rfl

theorem mid_tail_13 :
    arg6.view.read (Elt F) (arg6.view.writes (Elt F) (harg6.unread acc) (runMid.sl.HS_13 c i arg2 harg2 arg6 harg6 u acc))
      = iter arg6 harg6 i (ublock arg2 harg2 u) acc 13 (by decide) :=
  read_cons_iter arg6 harg6 i (ublock arg2 harg2 u) acc 12 (by decide) (harg6.unread acc) (runMid.sl.HS_12 c i arg2 harg2 arg6 harg6 u acc) (mid_tail_12 c i arg2 harg2 arg6 harg6 u acc) _ rfl

theorem mid_tail_14 :
    arg6.view.read (Elt F) (arg6.view.writes (Elt F) (harg6.unread acc) (runMid.sl.HS_14 c i arg2 harg2 arg6 harg6 u acc))
      = iter arg6 harg6 i (ublock arg2 harg2 u) acc 14 (by decide) :=
  read_cons_iter arg6 harg6 i (ublock arg2 harg2 u) acc 13 (by decide) (harg6.unread acc) (runMid.sl.HS_13 c i arg2 harg2 arg6 harg6 u acc) (mid_tail_13 c i arg2 harg2 arg6 harg6 u acc) _ rfl

theorem mid_tail_15 :
    arg6.view.read (Elt F) (arg6.view.writes (Elt F) (harg6.unread acc) (runMid.sl.HS_15 c i arg2 harg2 arg6 harg6 u acc))
      = iter arg6 harg6 i (ublock arg2 harg2 u) acc 15 (by decide) :=
  read_cons_iter arg6 harg6 i (ublock arg2 harg2 u) acc 14 (by decide) (harg6.unread acc) (runMid.sl.HS_14 c i arg2 harg2 arg6 harg6 u acc) (mid_tail_14 c i arg2 harg2 arg6 harg6 u acc) _ rfl

theorem mid_tail_16 :
    arg6.view.read (Elt F) (arg6.view.writes (Elt F) (harg6.unread acc) (runMid.sl.HS_16 c i arg2 harg2 arg6 harg6 u acc))
      = iter arg6 harg6 i (ublock arg2 harg2 u) acc 16 (by decide) :=
  read_cons_iter arg6 harg6 i (ublock arg2 harg2 u) acc 15 (by decide) (harg6.unread acc) (runMid.sl.HS_15 c i arg2 harg2 arg6 harg6 u acc) (mid_tail_15 c i arg2 harg2 arg6 harg6 u acc) _ rfl

theorem mid_tail_17 :
    arg6.view.read (Elt F) (arg6.view.writes (Elt F) (harg6.unread acc) (runMid.sl.HS_17 c i arg2 harg2 arg6 harg6 u acc))
      = iter arg6 harg6 i (ublock arg2 harg2 u) acc 17 (by decide) :=
  read_cons_iter arg6 harg6 i (ublock arg2 harg2 u) acc 16 (by decide) (harg6.unread acc) (runMid.sl.HS_16 c i arg2 harg2 arg6 harg6 u acc) (mid_tail_16 c i arg2 harg2 arg6 harg6 u acc) _ rfl

theorem mid_tail_18 :
    arg6.view.read (Elt F) (arg6.view.writes (Elt F) (harg6.unread acc) (runMid.sl.HS_18 c i arg2 harg2 arg6 harg6 u acc))
      = iter arg6 harg6 i (ublock arg2 harg2 u) acc 18 (by decide) :=
  read_cons_iter arg6 harg6 i (ublock arg2 harg2 u) acc 17 (by decide) (harg6.unread acc) (runMid.sl.HS_17 c i arg2 harg2 arg6 harg6 u acc) (mid_tail_17 c i arg2 harg2 arg6 harg6 u acc) _ rfl

theorem mid_tail_19 :
    arg6.view.read (Elt F) (arg6.view.writes (Elt F) (harg6.unread acc) (runMid.sl.HS_19 c i arg2 harg2 arg6 harg6 u acc))
      = iter arg6 harg6 i (ublock arg2 harg2 u) acc 19 (by decide) :=
  read_cons_iter arg6 harg6 i (ublock arg2 harg2 u) acc 18 (by decide) (harg6.unread acc) (runMid.sl.HS_18 c i arg2 harg2 arg6 harg6 u acc) (mid_tail_18 c i arg2 harg2 arg6 harg6 u acc) _ rfl

theorem mid_tail_20 :
    arg6.view.read (Elt F) (arg6.view.writes (Elt F) (harg6.unread acc) (runMid.sl.HS_20 c i arg2 harg2 arg6 harg6 u acc))
      = iter arg6 harg6 i (ublock arg2 harg2 u) acc 20 (by decide) :=
  read_cons_iter arg6 harg6 i (ublock arg2 harg2 u) acc 19 (by decide) (harg6.unread acc) (runMid.sl.HS_19 c i arg2 harg2 arg6 harg6 u acc) (mid_tail_19 c i arg2 harg2 arg6 harg6 u acc) _ rfl

theorem mid_tail_21 :
    arg6.view.read (Elt F) (arg6.view.writes (Elt F) (harg6.unread acc) (runMid.sl.HS_21 c i arg2 harg2 arg6 harg6 u acc))
      = iter arg6 harg6 i (ublock arg2 harg2 u) acc 21 (by decide) :=
  read_cons_iter arg6 harg6 i (ublock arg2 harg2 u) acc 20 (by decide) (harg6.unread acc) (runMid.sl.HS_20 c i arg2 harg2 arg6 harg6 u acc) (mid_tail_20 c i arg2 harg2 arg6 harg6 u acc) _ rfl

theorem mid_tail_22 :
    arg6.view.read (Elt F) (arg6.view.writes (Elt F) (harg6.unread acc) (runMid.sl.HS_22 c i arg2 harg2 arg6 harg6 u acc))
      = iter arg6 harg6 i (ublock arg2 harg2 u) acc 22 (by decide) :=
  read_cons_iter arg6 harg6 i (ublock arg2 harg2 u) acc 21 (by decide) (harg6.unread acc) (runMid.sl.HS_21 c i arg2 harg2 arg6 harg6 u acc) (mid_tail_21 c i arg2 harg2 arg6 harg6 u acc) _ rfl

theorem mid_tail_23 :
    arg6.view.read (Elt F) (arg6.view.writes (Elt F) (harg6.unread acc) (runMid.sl.HS_23 c i arg2 harg2 arg6 harg6 u acc))
      = iter arg6 harg6 i (ublock arg2 harg2 u) acc 23 (by decide) :=
  read_cons_iter arg6 harg6 i (ublock arg2 harg2 u) acc 22 (by decide) (harg6.unread acc) (runMid.sl.HS_22 c i arg2 harg2 arg6 harg6 u acc) (mid_tail_22 c i arg2 harg2 arg6 harg6 u acc) _ rfl

theorem mid_tail_24 :
    arg6.view.read (Elt F) (arg6.view.writes (Elt F) (harg6.unread acc) (runMid.sl.HS_24 c i arg2 harg2 arg6 harg6 u acc))
      = iter arg6 harg6 i (ublock arg2 harg2 u) acc 24 (by decide) :=
  read_cons_iter arg6 harg6 i (ublock arg2 harg2 u) acc 23 (by decide) (harg6.unread acc) (runMid.sl.HS_23 c i arg2 harg2 arg6 harg6 u acc) (mid_tail_23 c i arg2 harg2 arg6 harg6 u acc) _ rfl

theorem mid_tail_25 :
    arg6.view.read (Elt F) (arg6.view.writes (Elt F) (harg6.unread acc) (runMid.sl.HS_25 c i arg2 harg2 arg6 harg6 u acc))
      = iter arg6 harg6 i (ublock arg2 harg2 u) acc 25 (by decide) :=
  read_cons_iter arg6 harg6 i (ublock arg2 harg2 u) acc 24 (by decide) (harg6.unread acc) (runMid.sl.HS_24 c i arg2 harg2 arg6 harg6 u acc) (mid_tail_24 c i arg2 harg2 arg6 harg6 u acc) _ rfl

theorem mid_tail_26 :
    arg6.view.read (Elt F) (arg6.view.writes (Elt F) (harg6.unread acc) (runMid.sl.HS_26 c i arg2 harg2 arg6 harg6 u acc))
      = iter arg6 harg6 i (ublock arg2 harg2 u) acc 26 (by decide) :=
  read_cons_iter arg6 harg6 i (ublock arg2 harg2 u) acc 25 (by decide) (harg6.unread acc) (runMid.sl.HS_25 c i arg2 harg2 arg6 harg6 u acc) (mid_tail_25 c i arg2 harg2 arg6 harg6 u acc) _ rfl

theorem mid_tail_27 :
    arg6.view.read (Elt F) (arg6.view.writes (Elt F) (harg6.unread acc) (runMid.sl.HS_27 c i arg2 harg2 arg6 harg6 u acc))
      = iter arg6 harg6 i (ublock arg2 harg2 u) acc 27 (by decide) :=
  read_cons_iter arg6 harg6 i (ublock arg2 harg2 u) acc 26 (by decide) (harg6.unread acc) (runMid.sl.HS_26 c i arg2 harg2 arg6 harg6 u acc) (mid_tail_26 c i arg2 harg2 arg6 harg6 u acc) _ rfl

theorem mid_tail_28 :
    arg6.view.read (Elt F) (arg6.view.writes (Elt F) (harg6.unread acc) (runMid.sl.HS_28 c i arg2 harg2 arg6 harg6 u acc))
      = iter arg6 harg6 i (ublock arg2 harg2 u) acc 28 (by decide) :=
  read_cons_iter arg6 harg6 i (ublock arg2 harg2 u) acc 27 (by decide) (harg6.unread acc) (runMid.sl.HS_27 c i arg2 harg2 arg6 harg6 u acc) (mid_tail_27 c i arg2 harg2 arg6 harg6 u acc) _ rfl

theorem mid_tail_29 :
    arg6.view.read (Elt F) (arg6.view.writes (Elt F) (harg6.unread acc) (runMid.sl.HS_29 c i arg2 harg2 arg6 harg6 u acc))
      = iter arg6 harg6 i (ublock arg2 harg2 u) acc 29 (by decide) :=
  read_cons_iter arg6 harg6 i (ublock arg2 harg2 u) acc 28 (by decide) (harg6.unread acc) (runMid.sl.HS_28 c i arg2 harg2 arg6 harg6 u acc) (mid_tail_28 c i arg2 harg2 arg6 harg6 u acc) _ rfl

theorem mid_tail_30 :
    arg6.view.read (Elt F) (arg6.view.writes (Elt F) (harg6.unread acc) (runMid.sl.HS_30 c i arg2 harg2 arg6 harg6 u acc))
      = iter arg6 harg6 i (ublock arg2 harg2 u) acc 30 (by decide) :=
  read_cons_iter arg6 harg6 i (ublock arg2 harg2 u) acc 29 (by decide) (harg6.unread acc) (runMid.sl.HS_29 c i arg2 harg2 arg6 harg6 u acc) (mid_tail_29 c i arg2 harg2 arg6 harg6 u acc) _ rfl

theorem mid_tail_31 :
    arg6.view.read (Elt F) (arg6.view.writes (Elt F) (harg6.unread acc) (runMid.sl.HS_31 c i arg2 harg2 arg6 harg6 u acc))
      = iter arg6 harg6 i (ublock arg2 harg2 u) acc 31 (by decide) :=
  read_cons_iter arg6 harg6 i (ublock arg2 harg2 u) acc 30 (by decide) (harg6.unread acc) (runMid.sl.HS_30 c i arg2 harg2 arg6 harg6 u acc) (mid_tail_30 c i arg2 harg2 arg6 harg6 u acc) _ rfl

end Cert.Kernel.Hand

end
-- ==== Proof.Bits.RunLast.lean ====
/-
  The body at the last tile of a channel: the tile's thirty-two read-add-write steps on the accumulator, then the
  accumulator's first 8192 rows are copied into the first result block, its last 224 rows into the head of the second
  result block, and the remaining 8192 rows of that block are zeroed.  The accumulator ends at the contents the point
  before left overwritten by the run's pieces; each result buffer at what it held overwritten by its pieces.
-/
import proofs.«166608_j62680752718461_1_alg».proof.Proof.Bits.Setup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S32x1x256x128 .f32) (harg2 : arg2.IsWhole) (arg3 : Memref sig .tc .vmem S1x8416x128 .f32) (harg3 : arg3.IsWhole) (arg4 : Memref sig .tc .vmem S1x8192x128 .f32) (harg4 : arg4.IsWhole) (arg5 : Memref sig .tc .vmem S1x8416x128 .f32) (harg5 : arg5.IsWhole) (arg6 : Memref sig .tc .vmem S8416x128 .f32) (harg6 : arg6.IsWhole)
    (hf : ¬isFirst i) (hl : isLast i) (u : Vec F S32x1x256x128 .f32) (acc : Vec F S8416x128 .f32) :
    Σ' (LO : List (View.Piece (Elt F) S1x8192x128 .f32)) (LN : List (View.Piece (Elt F) S1x8416x128 .f32)),
    { LS : List (View.Piece (Elt F) S8416x128 .f32) //
      ∀ (s : Vec F S1x8416x128 .f32) (o : Vec F S1x8192x128 .f32) (n : Vec F S1x8416x128 .f32) (E : Set ℕ) (K : PUnit → sProp 𝕄),
        iprop(owns (c : Thread nD τ) arg2 fullShare u ∗ owns (c : Thread nD τ) arg3 fullShare s ∗ owns (c : Thread nD τ) arg4 fullShare o
            ∗ owns (c : Thread nD τ) arg5 fullShare n ∗ owns (c : Thread nD τ) arg6 fullShare acc
            ∗ (iprop(owns (c : Thread nD τ) arg2 fullShare u ∗ owns (c : Thread nD τ) arg3 fullShare s
                ∗ (arg4.view.loc (c : Thread nD τ) ↦[arg4.view.set]{fullShare} arg4.view.writes (Elt F) (harg4.unread o) LO)
                ∗ (arg5.view.loc (c : Thread nD τ) ↦[arg5.view.set]{fullShare} arg5.view.writes (Elt F) (harg5.unread n) LN)
                ∗ (arg6.view.loc (c : Thread nD τ) ↦[arg6.view.set]{fullShare} arg6.view.writes (Elt F) (harg6.unread acc) LS)) -∗ K ⟨⟩))
          ⊢ wp frame (wpE (defs₀ (F := F)) Variants.none c none) E (cc0__overlap_add_kernel i arg2 harg2 arg3 harg3 arg4 harg4 arg5 harg5 arg6 harg6) K } := by
  refine ⟨?_, ?_, ?_, fun s o n E K => ?run⟩
  case run =>
    simp only [cc0__overlap_add_kernel_eq_skeleton]; unfold cc0__overlap_add_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [H3]; · iexact H3
    iexact HS

end Cert.Kernel.Hand

end
-- ==== Proof.Bits.TailsLast.lean ====
/-
  The accumulator after the thirty-two steps of a channel's last tile, read back from the stores the body's run left: after step `j` the
  stores so far read back as the first `j` steps applied to what the accumulator held before the tile.
-/
import proofs.«166608_j62680752718461_1_alg».proof.Proof.Bits.RunLast
import proofs.«166608_j62680752718461_1_alg».proof.Proof.Bits.Steps

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000

variable (c : Dev nD) (i : grid0.Coords) (arg2 : Memref sig .tc .vmem S32x1x256x128 .f32) (harg2 : arg2.IsWhole)
  (arg6 : Memref sig .tc .vmem S8416x128 .f32) (harg6 : arg6.IsWhole) (u : Vec F S32x1x256x128 .f32) (acc : Vec F S8416x128 .f32)

theorem last_tail_1 :
    arg6.view.read (Elt F) (arg6.view.writes (Elt F) (harg6.unread acc) (runLast.sl.HS_1 c i arg2 harg2 arg6 harg6 u acc))
      = iter arg6 harg6 i (ublock arg2 harg2 u) acc 1 (by decide) :=
  read_cons_iter arg6 harg6 i (ublock arg2 harg2 u) acc 0 (by decide) (harg6.unread acc) [] (harg6.read_unread acc) _ rfl

theorem last_tail_2 :
    arg6.view.read (Elt F) (arg6.view.writes (Elt F) (harg6.unread acc) (runLast.sl.HS_2 c i arg2 harg2 arg6 harg6 u acc))
      = iter arg6 harg6 i (ublock arg2 harg2 u) acc 2 (by decide) :=
  read_cons_iter arg6 harg6 i (ublock arg2 harg2 u) acc 1 (by decide) (harg6.unread acc) (runLast.sl.HS_1 c i arg2 harg2 arg6 harg6 u acc) (last_tail_1 c i arg2 harg2 arg6 harg6 u acc) _ rfl

theorem last_tail_3 :
    arg6.view.read (Elt F) (arg6.view.writes (Elt F) (harg6.unread acc) (runLast.sl.HS_3 c i arg2 harg2 arg6 harg6 u acc))
      = iter arg6 harg6 i (ublock arg2 harg2 u) acc 3 (by decide) :=
  read_cons_iter arg6 harg6 i (ublock arg2 harg2 u) acc 2 (by decide) (harg6.unread acc) (runLast.sl.HS_2 c i arg2 harg2 arg6 harg6 u acc) (last_tail_2 c i arg2 harg2 arg6 harg6 u acc) _ rfl

theorem last_tail_4 :
    arg6.view.read (Elt F) (arg6.view.writes (Elt F) (harg6.unread acc) (runLast.sl.HS_4 c i arg2 harg2 arg6 harg6 u acc))
      = iter arg6 harg6 i (ublock arg2 harg2 u) acc 4 (by decide) :=
  read_cons_iter arg6 harg6 i (ublock arg2 harg2 u) acc 3 (by decide) (harg6.unread acc) (runLast.sl.HS_3 c i arg2 harg2 arg6 harg6 u acc) (last_tail_3 c i arg2 harg2 arg6 harg6 u acc) _ rfl

theorem last_tail_5 :
    arg6.view.read (Elt F) (arg6.view.writes (Elt F) (harg6.unread acc) (runLast.sl.HS_5 c i arg2 harg2 arg6 harg6 u acc))
      = iter arg6 harg6 i (ublock arg2 harg2 u) acc 5 (by decide) :=
  read_cons_iter arg6 harg6 i (ublock arg2 harg2 u) acc 4 (by decide) (harg6.unread acc) (runLast.sl.HS_4 c i arg2 harg2 arg6 harg6 u acc) (last_tail_4 c i arg2 harg2 arg6 harg6 u acc) _ rfl

theorem last_tail_6 :
    arg6.view.read (Elt F) (arg6.view.writes (Elt F) (harg6.unread acc) (runLast.sl.HS_6 c i arg2 harg2 arg6 harg6 u acc))
      = iter arg6 harg6 i (ublock arg2 harg2 u) acc 6 (by decide) :=
  read_cons_iter arg6 harg6 i (ublock arg2 harg2 u) acc 5 (by decide) (harg6.unread acc) (runLast.sl.HS_5 c i arg2 harg2 arg6 harg6 u acc) (last_tail_5 c i arg2 harg2 arg6 harg6 u acc) _ rfl

theorem last_tail_7 :
    arg6.view.read (Elt F) (arg6.view.writes (Elt F) (harg6.unread acc) (runLast.sl.HS_7 c i arg2 harg2 arg6 harg6 u acc))
      = iter arg6 harg6 i (ublock arg2 harg2 u) acc 7 (by decide) :=
  read_cons_iter arg6 harg6 i (ublock arg2 harg2 u) acc 6 (by decide) (harg6.unread acc) (runLast.sl.HS_6 c i arg2 harg2 arg6 harg6 u acc) (last_tail_6 c i arg2 harg2 arg6 harg6 u acc) _ rfl

theorem last_tail_8 :
    arg6.view.read (Elt F) (arg6.view.writes (Elt F) (harg6.unread acc) (runLast.sl.HS_8 c i arg2 harg2 arg6 harg6 u acc))
      = iter arg6 harg6 i (ublock arg2 harg2 u) acc 8 (by decide) :=
  read_cons_iter arg6 harg6 i (ublock arg2 harg2 u) acc 7 (by decide) (harg6.unread acc) (runLast.sl.HS_7 c i arg2 harg2 arg6 harg6 u acc) (last_tail_7 c i arg2 harg2 arg6 harg6 u acc) _ rfl

theorem last_tail_9 :
    arg6.view.read (Elt F) (arg6.view.writes (Elt F) (harg6.unread acc) (runLast.sl.HS_9 c i arg2 harg2 arg6 harg6 u acc))
      = iter arg6 harg6 i (ublock arg2 harg2 u) acc 9 (by decide) :=
  read_cons_iter arg6 harg6 i (ublock arg2 harg2 u) acc 8 (by decide) (harg6.unread acc) (runLast.sl.HS_8 c i arg2 harg2 arg6 harg6 u acc) (last_tail_8 c i arg2 harg2 arg6 harg6 u acc) _ rfl

theorem last_tail_10 :
    arg6.view.read (Elt F) (arg6.view.writes (Elt F) (harg6.unread acc) (runLast.sl.HS_10 c i arg2 harg2 arg6 harg6 u acc))
      = iter arg6 harg6 i (ublock arg2 harg2 u) acc 10 (by decide) :=
  read_cons_iter arg6 harg6 i (ublock arg2 harg2 u) acc 9 (by decide) (harg6.unread acc) (runLast.sl.HS_9 c i arg2 harg2 arg6 harg6 u acc) (last_tail_9 c i arg2 harg2 arg6 harg6 u acc) _ rfl

theorem last_tail_11 :
    arg6.view.read (Elt F) (arg6.view.writes (Elt F) (harg6.unread acc) (runLast.sl.HS_11 c i arg2 harg2 arg6 harg6 u acc))
      = iter arg6 harg6 i (ublock arg2 harg2 u) acc 11 (by decide) :=
  read_cons_iter arg6 harg6 i (ublock arg2 harg2 u) acc 10 (by decide) (harg6.unread acc) (runLast.sl.HS_10 c i arg2 harg2 arg6 harg6 u acc) (last_tail_10 c i arg2 harg2 arg6 harg6 u acc) _ rfl

theorem last_tail_12 :
    arg6.view.read (Elt F) (arg6.view.writes (Elt F) (harg6.unread acc) (runLast.sl.HS_12 c i arg2 harg2 arg6 harg6 u acc))
      = iter arg6 harg6 i (ublock arg2 harg2 u) acc 12 (by decide) :=
  read_cons_iter arg6 harg6 i (ublock arg2 harg2 u) acc 11 (by decide) (harg6.unread acc) (runLast.sl.HS_11 c i arg2 harg2 arg6 harg6 u acc) (last_tail_11 c i arg2 harg2 arg6 harg6 u acc) _ rfl

theorem last_tail_13 :
    arg6.view.read (Elt F) (arg6.view.writes (Elt F) (harg6.unread acc) (runLast.sl.HS_13 c i arg2 harg2 arg6 harg6 u acc))
      = iter arg6 harg6 i (ublock arg2 harg2 u) acc 13 (by decide) :=
  read_cons_iter arg6 harg6 i (ublock arg2 harg2 u) acc 12 (by decide) (harg6.unread acc) (runLast.sl.HS_12 c i arg2 harg2 arg6 harg6 u acc) (last_tail_12 c i arg2 harg2 arg6 harg6 u acc) _ rfl

theorem last_tail_14 :
    arg6.view.read (Elt F) (arg6.view.writes (Elt F) (harg6.unread acc) (runLast.sl.HS_14 c i arg2 harg2 arg6 harg6 u acc))
      = iter arg6 harg6 i (ublock arg2 harg2 u) acc 14 (by decide) :=
  read_cons_iter arg6 harg6 i (ublock arg2 harg2 u) acc 13 (by decide) (harg6.unread acc) (runLast.sl.HS_13 c i arg2 harg2 arg6 harg6 u acc) (last_tail_13 c i arg2 harg2 arg6 harg6 u acc) _ rfl

theorem last_tail_15 :
    arg6.view.read (Elt F) (arg6.view.writes (Elt F) (harg6.unread acc) (runLast.sl.HS_15 c i arg2 harg2 arg6 harg6 u acc))
      = iter arg6 harg6 i (ublock arg2 harg2 u) acc 15 (by decide) :=
  read_cons_iter arg6 harg6 i (ublock arg2 harg2 u) acc 14 (by decide) (harg6.unread acc) (runLast.sl.HS_14 c i arg2 harg2 arg6 harg6 u acc) (last_tail_14 c i arg2 harg2 arg6 harg6 u acc) _ rfl

theorem last_tail_16 :
    arg6.view.read (Elt F) (arg6.view.writes (Elt F) (harg6.unread acc) (runLast.sl.HS_16 c i arg2 harg2 arg6 harg6 u acc))
      = iter arg6 harg6 i (ublock arg2 harg2 u) acc 16 (by decide) :=
  read_cons_iter arg6 harg6 i (ublock arg2 harg2 u) acc 15 (by decide) (harg6.unread acc) (runLast.sl.HS_15 c i arg2 harg2 arg6 harg6 u acc) (last_tail_15 c i arg2 harg2 arg6 harg6 u acc) _ rfl

theorem last_tail_17 :
    arg6.view.read (Elt F) (arg6.view.writes (Elt F) (harg6.unread acc) (runLast.sl.HS_17 c i arg2 harg2 arg6 harg6 u acc))
      = iter arg6 harg6 i (ublock arg2 harg2 u) acc 17 (by decide) :=
  read_cons_iter arg6 harg6 i (ublock arg2 harg2 u) acc 16 (by decide) (harg6.unread acc) (runLast.sl.HS_16 c i arg2 harg2 arg6 harg6 u acc) (last_tail_16 c i arg2 harg2 arg6 harg6 u acc) _ rfl

theorem last_tail_18 :
    arg6.view.read (Elt F) (arg6.view.writes (Elt F) (harg6.unread acc) (runLast.sl.HS_18 c i arg2 harg2 arg6 harg6 u acc))
      = iter arg6 harg6 i (ublock arg2 harg2 u) acc 18 (by decide) :=
  read_cons_iter arg6 harg6 i (ublock arg2 harg2 u) acc 17 (by decide) (harg6.unread acc) (runLast.sl.HS_17 c i arg2 harg2 arg6 harg6 u acc) (last_tail_17 c i arg2 harg2 arg6 harg6 u acc) _ rfl

theorem last_tail_19 :
    arg6.view.read (Elt F) (arg6.view.writes (Elt F) (harg6.unread acc) (runLast.sl.HS_19 c i arg2 harg2 arg6 harg6 u acc))
      = iter arg6 harg6 i (ublock arg2 harg2 u) acc 19 (by decide) :=
  read_cons_iter arg6 harg6 i (ublock arg2 harg2 u) acc 18 (by decide) (harg6.unread acc) (runLast.sl.HS_18 c i arg2 harg2 arg6 harg6 u acc) (last_tail_18 c i arg2 harg2 arg6 harg6 u acc) _ rfl

theorem last_tail_20 :
    arg6.view.read (Elt F) (arg6.view.writes (Elt F) (harg6.unread acc) (runLast.sl.HS_20 c i arg2 harg2 arg6 harg6 u acc))
      = iter arg6 harg6 i (ublock arg2 harg2 u) acc 20 (by decide) :=
  read_cons_iter arg6 harg6 i (ublock arg2 harg2 u) acc 19 (by decide) (harg6.unread acc) (runLast.sl.HS_19 c i arg2 harg2 arg6 harg6 u acc) (last_tail_19 c i arg2 harg2 arg6 harg6 u acc) _ rfl

theorem last_tail_21 :
    arg6.view.read (Elt F) (arg6.view.writes (Elt F) (harg6.unread acc) (runLast.sl.HS_21 c i arg2 harg2 arg6 harg6 u acc))
      = iter arg6 harg6 i (ublock arg2 harg2 u) acc 21 (by decide) :=
  read_cons_iter arg6 harg6 i (ublock arg2 harg2 u) acc 20 (by decide) (harg6.unread acc) (runLast.sl.HS_20 c i arg2 harg2 arg6 harg6 u acc) (last_tail_20 c i arg2 harg2 arg6 harg6 u acc) _ rfl

theorem last_tail_22 :
    arg6.view.read (Elt F) (arg6.view.writes (Elt F) (harg6.unread acc) (runLast.sl.HS_22 c i arg2 harg2 arg6 harg6 u acc))
      = iter arg6 harg6 i (ublock arg2 harg2 u) acc 22 (by decide) :=
  read_cons_iter arg6 harg6 i (ublock arg2 harg2 u) acc 21 (by decide) (harg6.unread acc) (runLast.sl.HS_21 c i arg2 harg2 arg6 harg6 u acc) (last_tail_21 c i arg2 harg2 arg6 harg6 u acc) _ rfl

theorem last_tail_23 :
    arg6.view.read (Elt F) (arg6.view.writes (Elt F) (harg6.unread acc) (runLast.sl.HS_23 c i arg2 harg2 arg6 harg6 u acc))
      = iter arg6 harg6 i (ublock arg2 harg2 u) acc 23 (by decide) :=
  read_cons_iter arg6 harg6 i (ublock arg2 harg2 u) acc 22 (by decide) (harg6.unread acc) (runLast.sl.HS_22 c i arg2 harg2 arg6 harg6 u acc) (last_tail_22 c i arg2 harg2 arg6 harg6 u acc) _ rfl

theorem last_tail_24 :
    arg6.view.read (Elt F) (arg6.view.writes (Elt F) (harg6.unread acc) (runLast.sl.HS_24 c i arg2 harg2 arg6 harg6 u acc))
      = iter arg6 harg6 i (ublock arg2 harg2 u) acc 24 (by decide) :=
  read_cons_iter arg6 harg6 i (ublock arg2 harg2 u) acc 23 (by decide) (harg6.unread acc) (runLast.sl.HS_23 c i arg2 harg2 arg6 harg6 u acc) (last_tail_23 c i arg2 harg2 arg6 harg6 u acc) _ rfl

theorem last_tail_25 :
    arg6.view.read (Elt F) (arg6.view.writes (Elt F) (harg6.unread acc) (runLast.sl.HS_25 c i arg2 harg2 arg6 harg6 u acc))
      = iter arg6 harg6 i (ublock arg2 harg2 u) acc 25 (by decide) :=
  read_cons_iter arg6 harg6 i (ublock arg2 harg2 u) acc 24 (by decide) (harg6.unread acc) (runLast.sl.HS_24 c i arg2 harg2 arg6 harg6 u acc) (last_tail_24 c i arg2 harg2 arg6 harg6 u acc) _ rfl

theorem last_tail_26 :
    arg6.view.read (Elt F) (arg6.view.writes (Elt F) (harg6.unread acc) (runLast.sl.HS_26 c i arg2 harg2 arg6 harg6 u acc))
      = iter arg6 harg6 i (ublock arg2 harg2 u) acc 26 (by decide) :=
  read_cons_iter arg6 harg6 i (ublock arg2 harg2 u) acc 25 (by decide) (harg6.unread acc) (runLast.sl.HS_25 c i arg2 harg2 arg6 harg6 u acc) (last_tail_25 c i arg2 harg2 arg6 harg6 u acc) _ rfl

theorem last_tail_27 :
    arg6.view.read (Elt F) (arg6.view.writes (Elt F) (harg6.unread acc) (runLast.sl.HS_27 c i arg2 harg2 arg6 harg6 u acc))
      = iter arg6 harg6 i (ublock arg2 harg2 u) acc 27 (by decide) :=
  read_cons_iter arg6 harg6 i (ublock arg2 harg2 u) acc 26 (by decide) (harg6.unread acc) (runLast.sl.HS_26 c i arg2 harg2 arg6 harg6 u acc) (last_tail_26 c i arg2 harg2 arg6 harg6 u acc) _ rfl

theorem last_tail_28 :
    arg6.view.read (Elt F) (arg6.view.writes (Elt F) (harg6.unread acc) (runLast.sl.HS_28 c i arg2 harg2 arg6 harg6 u acc))
      = iter arg6 harg6 i (ublock arg2 harg2 u) acc 28 (by decide) :=
  read_cons_iter arg6 harg6 i (ublock arg2 harg2 u) acc 27 (by decide) (harg6.unread acc) (runLast.sl.HS_27 c i arg2 harg2 arg6 harg6 u acc) (last_tail_27 c i arg2 harg2 arg6 harg6 u acc) _ rfl

theorem last_tail_29 :
    arg6.view.read (Elt F) (arg6.view.writes (Elt F) (harg6.unread acc) (runLast.sl.HS_29 c i arg2 harg2 arg6 harg6 u acc))
      = iter arg6 harg6 i (ublock arg2 harg2 u) acc 29 (by decide) :=
  read_cons_iter arg6 harg6 i (ublock arg2 harg2 u) acc 28 (by decide) (harg6.unread acc) (runLast.sl.HS_28 c i arg2 harg2 arg6 harg6 u acc) (last_tail_28 c i arg2 harg2 arg6 harg6 u acc) _ rfl

theorem last_tail_30 :
    arg6.view.read (Elt F) (arg6.view.writes (Elt F) (harg6.unread acc) (runLast.sl.HS_30 c i arg2 harg2 arg6 harg6 u acc))
      = iter arg6 harg6 i (ublock arg2 harg2 u) acc 30 (by decide) :=
  read_cons_iter arg6 harg6 i (ublock arg2 harg2 u) acc 29 (by decide) (harg6.unread acc) (runLast.sl.HS_29 c i arg2 harg2 arg6 harg6 u acc) (last_tail_29 c i arg2 harg2 arg6 harg6 u acc) _ rfl

theorem last_tail_31 :
    arg6.view.read (Elt F) (arg6.view.writes (Elt F) (harg6.unread acc) (runLast.sl.HS_31 c i arg2 harg2 arg6 harg6 u acc))
      = iter arg6 harg6 i (ublock arg2 harg2 u) acc 31 (by decide) :=
  read_cons_iter arg6 harg6 i (ublock arg2 harg2 u) acc 30 (by decide) (harg6.unread acc) (runLast.sl.HS_30 c i arg2 harg2 arg6 harg6 u acc) (last_tail_30 c i arg2 harg2 arg6 harg6 u acc) _ rfl

theorem last_tail_32 :
    arg6.view.read (Elt F) (arg6.view.writes (Elt F) (harg6.unread acc) (runLast.sl.HS_32 c i arg2 harg2 arg6 harg6 u acc))
      = iter arg6 harg6 i (ublock arg2 harg2 u) acc 32 (by decide) :=
  read_cons_iter arg6 harg6 i (ublock arg2 harg2 u) acc 31 (by decide) (harg6.unread acc) (runLast.sl.HS_31 c i arg2 harg2 arg6 harg6 u acc) (last_tail_31 c i arg2 harg2 arg6 harg6 u acc) _ rfl

end Cert.Kernel.Hand

end
-- ==== Proof.Bits.ReadsML.lean ====
/-
  What the body's runs leave, read back.  After a middle or a last tile the accumulator holds the tile's thirty-two steps
  applied to what it held before (`mid_read`, `last_read`); at a last tile the stores into the two result blocks are the
  accumulator's rows after those steps (`last_O`, `last_N`).
-/
import proofs.«166608_j62680752718461_1_alg».proof.Proof.Bits.TailsMid
import proofs.«166608_j62680752718461_1_alg».proof.Proof.Bits.TailsLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000

variable (c : Dev nD) (i : grid0.Coords) (arg2 : Memref sig .tc .vmem S32x1x256x128 .f32) (harg2 : arg2.IsWhole) (arg3 : Memref sig .tc .vmem S1x8416x128 .f32) (harg3 : arg3.IsWhole) (arg4 : Memref sig .tc .vmem S1x8192x128 .f32) (harg4 : arg4.IsWhole) (arg5 : Memref sig .tc .vmem S1x8416x128 .f32) (harg5 : arg5.IsWhole) (arg6 : Memref sig .tc .vmem S8416x128 .f32) (harg6 : arg6.IsWhole)
variable (u : Vec F S32x1x256x128 .f32) (acc : Vec F S8416x128 .f32)

/-- After a middle tile: the thirty-two steps applied to the accumulator's contents before it. -/
theorem mid_read (hf : ¬isFirst i) (hl : ¬isLast i) :
    arg6.view.read (Elt F) (arg6.view.writes (Elt F) (harg6.unread acc) (runMid c i arg2 harg2 arg3 harg3 arg4 harg4 arg5 harg5 arg6 harg6 hf hl u acc).1)
      = iter arg6 harg6 i (ublock arg2 harg2 u) acc 32 (Nat.le_refl 32) :=
  read_cons_iter arg6 harg6 i (ublock arg2 harg2 u) acc 31 (Nat.le_refl 32) (harg6.unread acc)
    (runMid.sl.HS_31 c i arg2 harg2 arg6 harg6 u acc) (mid_tail_31 c i arg2 harg2 arg6 harg6 u acc) _ rfl

/-- After a last tile: the same. -/
theorem last_read (hf : ¬isFirst i) (hl : isLast i) :
    arg6.view.read (Elt F) (arg6.view.writes (Elt F) (harg6.unread acc) (runLast c i arg2 harg2 arg3 harg3 arg4 harg4 arg5 harg5 arg6 harg6 hf hl u acc).2.2.1)
      = iter arg6 harg6 i (ublock arg2 harg2 u) acc 32 (Nat.le_refl 32) :=
  last_tail_32 c i arg2 harg2 arg6 harg6 u acc

/-- The accumulator buffer itself after a last tile's steps is those contents laid back into the buffer. -/
theorem last_buf (hf : ¬isFirst i) (hl : isLast i) :
    arg6.view.writes (Elt F) (harg6.unread acc) (runLast.sl.HS_32 c i arg2 harg2 arg6 harg6 u acc)
      = harg6.unread (iter arg6 harg6 i (ublock arg2 harg2 u) acc 32 (Nat.le_refl 32)) :=
  harg6.eq_unread (last_tail_32 c i arg2 harg2 arg6 harg6 u acc)

/-- The store a last tile makes into the first result block is of the accumulator's first 8192 rows after its steps. -/
theorem last_O (hf : ¬isFirst i) (hl : isLast i) :
    (runLast c i arg2 harg2 arg3 harg3 arg4 harg4 arg5 harg5 arg6 harg6 hf hl u acc).1
      = piecesO arg6 harg6 (iter arg6 harg6 i (ublock arg2 harg2 u) acc 32 (Nat.le_refl 32)) := by
  show [(⟨Rect.unit (s := S1x8192x128) ![0, 0, 0] S1x8192x128.size inb_S1x8192x128_S1x8192x128_0_0_0,
      k0_pay1 (View.readAt (Elt F) arg6.view
        (Rect.unit (s := S8416x128) ![0, 0] S8192x128.size inb_S8416x128_S8192x128_0_0).toLoadRect
        (arg6.view.writes (Elt F) (harg6.unread acc) (runLast.sl.HS_32 c i arg2 harg2 arg6 harg6 u acc)))⟩ :
      View.Piece (Elt F) S1x8192x128 .f32)] = _
  rw [last_buf c i arg2 harg2 arg6 harg6 u acc hf hl]

/-- The stores it makes into the second result block are of the accumulator's last 224 rows after its steps, and zeros. -/
theorem last_N (hf : ¬isFirst i) (hl : isLast i) :
    (runLast c i arg2 harg2 arg3 harg3 arg4 harg4 arg5 harg5 arg6 harg6 hf hl u acc).2.1
      = piecesN arg6 harg6 (iter arg6 harg6 i (ublock arg2 harg2 u) acc 32 (Nat.le_refl 32)) := by
  show [(⟨Rect.unit (s := S1x8416x128) ![0, 224, 0] S1x8192x128.size inb_S1x8416x128_S1x8192x128_0_224_0, k0_pay3 (F := F)⟩ :
      View.Piece (Elt F) S1x8416x128 .f32),
        ⟨Rect.unit (s := S1x8416x128) ![0, 0, 0] S1x224x128.size inb_S1x8416x128_S1x224x128_0_0_0,
         k0_pay2 (View.readAt (Elt F) arg6.view
          (Rect.unit (s := S8416x128) ![8192, 0] S224x128.size inb_S8416x128_S224x128_8192_0).toLoadRect
          (arg6.view.writes (Elt F) (harg6.unread acc) (runLast.sl.HS_32 c i arg2 harg2 arg6 harg6 u acc)))⟩] = _
  rw [last_buf c i arg2 harg2 arg6 harg6 u acc hf hl]

end Cert.Kernel.Hand

end
-- ==== Proof.Bits.RunFirst.lean ====
/-
  The body at the first tile of a channel: the channel's snapshot block is copied whole into the accumulator, then the
  tile's thirty-two read-add-write steps run on it.  What the accumulator held before is loaded once and never used: the copy
  covers the whole buffer, so what the run leaves is stated over no prior contents at all; both result blocks are handed
  back untouched.
-/
import proofs.«166608_j62680752718461_1_alg».proof.Proof.Bits.Setup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S32x1x256x128 .f32) (harg2 : arg2.IsWhole) (arg3 : Memref sig .tc .vmem S1x8416x128 .f32) (harg3 : arg3.IsWhole) (arg4 : Memref sig .tc .vmem S1x8192x128 .f32) (harg4 : arg4.IsWhole) (arg5 : Memref sig .tc .vmem S1x8416x128 .f32) (harg5 : arg5.IsWhole) (arg6 : Memref sig .tc .vmem S8416x128 .f32) (harg6 : arg6.IsWhole)
    (hf : isFirst i) (hl : ¬isLast i) (u : Vec F S32x1x256x128 .f32) (s : Vec F S1x8416x128 .f32) :
    { LS : List (View.Piece (Elt F) S8416x128 .f32) //
      ∀ (acc : Vec F S8416x128 .f32) (o : Vec F S1x8192x128 .f32) (n : Vec F S1x8416x128 .f32) (E : Set ℕ) (K : PUnit → sProp 𝕄),
        iprop(owns (c : Thread nD τ) arg2 fullShare u ∗ owns (c : Thread nD τ) arg3 fullShare s ∗ owns (c : Thread nD τ) arg4 fullShare o
            ∗ owns (c : Thread nD τ) arg5 fullShare n ∗ owns (c : Thread nD τ) arg6 fullShare acc
            ∗ (iprop(owns (c : Thread nD τ) arg2 fullShare u ∗ owns (c : Thread nD τ) arg3 fullShare s ∗ owns (c : Thread nD τ) arg4 fullShare o
                ∗ owns (c : Thread nD τ) arg5 fullShare n
                ∗ (arg6.view.loc (c : Thread nD τ) ↦[arg6.view.set]{fullShare} arg6.view.writes (Elt F) arg6.view.junk LS)) -∗ K ⟨⟩))
          ⊢ wp frame (wpE (defs₀ (F := F)) Variants.none c none) E (cc0__overlap_add_kernel i arg2 harg2 arg3 harg3 arg4 harg4 arg5 harg5 arg6 harg6) K } := by
  refine ⟨?_, fun acc o n E K => ?run⟩
  case run =>
    simp only [cc0__overlap_add_kernel_eq_skeleton]; unfold cc0__overlap_add_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexact HS

end Cert.Kernel.Hand

end
-- ==== Proof.Bits.TailsFirst.lean ====
/-
  The accumulator during the thirty-two steps of a channel's first tile, read back from the stores the body's run left. The
  run first stores the channel's snapshot block over the whole accumulator: that one store read back is the block
  (`first_tail_0`). After step `j` the stores so far read back as the first `j` steps applied to the block.
-/
import proofs.«166608_j62680752718461_1_alg».proof.Proof.Bits.RunFirst
import proofs.«166608_j62680752718461_1_alg».proof.Proof.Bits.Steps
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000

variable (c : Dev nD) (i : grid0.Coords) (arg2 : Memref sig .tc .vmem S32x1x256x128 .f32) (harg2 : arg2.IsWhole)
  (arg3 : Memref sig .tc .vmem S1x8416x128 .f32) (harg3 : arg3.IsWhole)
  (arg6 : Memref sig .tc .vmem S8416x128 .f32) (harg6 : arg6.IsWhole) (u : Vec F S32x1x256x128 .f32) (s : Vec F S1x8416x128 .f32)

/-- One store over every accumulator row from offset zero, read back: an index reads what was stored at itself, whatever the
    accumulator held before. -/
theorem read_whole_store (f : arg6.view.ty.Contents (Elt F)) (X : Vec F S8416x128 .f32) :
    arg6.view.read (Elt F) (arg6.view.writes (Elt F) f
      [⟨Rect.unit (s := S8416x128) ![0, 0] S8416x128.size inb_S8416x128_S8416x128_0_0, X⟩]) = X :=
  funext fun y => View.read_writes_cons_unit_of_mem arg6.view f inb_S8416x128_S8416x128_0_0 X [] y y rfl
    (fun a => match a with | ⟨0, _⟩ => (Nat.zero_add _).symm | ⟨1, _⟩ => (Nat.zero_add _).symm)

/-- Before the tile's first step the run has made that one store, of the channel's snapshot block. -/
theorem first_tail_0 :
    arg6.view.read (Elt F) (arg6.view.writes (Elt F) arg6.view.junk (runFirst.sl.HS_1 c arg3 harg3 s))
      = iter arg6 harg6 i (ublock arg2 harg2 u) (snapOf arg3 harg3 s) 0 (by decide) :=
  read_whole_store arg6 arg6.view.junk (snapOf arg3 harg3 s)

theorem first_tail_1 :
    arg6.view.read (Elt F) (arg6.view.writes (Elt F) arg6.view.junk (runFirst.sl.HS_2 c i arg2 harg2 arg3 harg3 arg6 u s))
      = iter arg6 harg6 i (ublock arg2 harg2 u) (snapOf arg3 harg3 s) 1 (by decide) :=
  read_cons_iter arg6 harg6 i (ublock arg2 harg2 u) (snapOf arg3 harg3 s) 0 (by decide) arg6.view.junk (runFirst.sl.HS_1 c arg3 harg3 s) (first_tail_0 c i arg2 harg2 arg3 harg3 arg6 harg6 u s) _ rfl

theorem first_tail_2 :
    arg6.view.read (Elt F) (arg6.view.writes (Elt F) arg6.view.junk (runFirst.sl.HS_3 c i arg2 harg2 arg3 harg3 arg6 u s))
      = iter arg6 harg6 i (ublock arg2 harg2 u) (snapOf arg3 harg3 s) 2 (by decide) :=
  read_cons_iter arg6 harg6 i (ublock arg2 harg2 u) (snapOf arg3 harg3 s) 1 (by decide) arg6.view.junk (runFirst.sl.HS_2 c i arg2 harg2 arg3 harg3 arg6 u s) (first_tail_1 c i arg2 harg2 arg3 harg3 arg6 harg6 u s) _ rfl

theorem first_tail_3 :
    arg6.view.read (Elt F) (arg6.view.writes (Elt F) arg6.view.junk (runFirst.sl.HS_4 c i arg2 harg2 arg3 harg3 arg6 u s))
      = iter arg6 harg6 i (ublock arg2 harg2 u) (snapOf arg3 harg3 s) 3 (by decide) :=
  read_cons_iter arg6 harg6 i (ublock arg2 harg2 u) (snapOf arg3 harg3 s) 2 (by decide) arg6.view.junk (runFirst.sl.HS_3 c i arg2 harg2 arg3 harg3 arg6 u s) (first_tail_2 c i arg2 harg2 arg3 harg3 arg6 harg6 u s) _ rfl

theorem first_tail_4 :
    arg6.view.read (Elt F) (arg6.view.writes (Elt F) arg6.view.junk (runFirst.sl.HS_5 c i arg2 harg2 arg3 harg3 arg6 u s))
      = iter arg6 harg6 i (ublock arg2 harg2 u) (snapOf arg3 harg3 s) 4 (by decide) :=
  read_cons_iter arg6 harg6 i (ublock arg2 harg2 u) (snapOf arg3 harg3 s) 3 (by decide) arg6.view.junk (runFirst.sl.HS_4 c i arg2 harg2 arg3 harg3 arg6 u s) (first_tail_3 c i arg2 harg2 arg3 harg3 arg6 harg6 u s) _ rfl

theorem first_tail_5 :
    arg6.view.read (Elt F) (arg6.view.writes (Elt F) arg6.view.junk (runFirst.sl.HS_6 c i arg2 harg2 arg3 harg3 arg6 u s))
      = iter arg6 harg6 i (ublock arg2 harg2 u) (snapOf arg3 harg3 s) 5 (by decide) :=
  read_cons_iter arg6 harg6 i (ublock arg2 harg2 u) (snapOf arg3 harg3 s) 4 (by decide) arg6.view.junk (runFirst.sl.HS_5 c i arg2 harg2 arg3 harg3 arg6 u s) (first_tail_4 c i arg2 harg2 arg3 harg3 arg6 harg6 u s) _ rfl

theorem first_tail_6 :
    arg6.view.read (Elt F) (arg6.view.writes (Elt F) arg6.view.junk (runFirst.sl.HS_7 c i arg2 harg2 arg3 harg3 arg6 u s))
      = iter arg6 harg6 i (ublock arg2 harg2 u) (snapOf arg3 harg3 s) 6 (by decide) :=
  read_cons_iter arg6 harg6 i (ublock arg2 harg2 u) (snapOf arg3 harg3 s) 5 (by decide) arg6.view.junk (runFirst.sl.HS_6 c i arg2 harg2 arg3 harg3 arg6 u s) (first_tail_5 c i arg2 harg2 arg3 harg3 arg6 harg6 u s) _ rfl

theorem first_tail_7 :
    arg6.view.read (Elt F) (arg6.view.writes (Elt F) arg6.view.junk (runFirst.sl.HS_8 c i arg2 harg2 arg3 harg3 arg6 u s))
      = iter arg6 harg6 i (ublock arg2 harg2 u) (snapOf arg3 harg3 s) 7 (by decide) :=
  read_cons_iter arg6 harg6 i (ublock arg2 harg2 u) (snapOf arg3 harg3 s) 6 (by decide) arg6.view.junk (runFirst.sl.HS_7 c i arg2 harg2 arg3 harg3 arg6 u s) (first_tail_6 c i arg2 harg2 arg3 harg3 arg6 harg6 u s) _ rfl

theorem first_tail_8 :
    arg6.view.read (Elt F) (arg6.view.writes (Elt F) arg6.view.junk (runFirst.sl.HS_9 c i arg2 harg2 arg3 harg3 arg6 u s))
      = iter arg6 harg6 i (ublock arg2 harg2 u) (snapOf arg3 harg3 s) 8 (by decide) :=
  read_cons_iter arg6 harg6 i (ublock arg2 harg2 u) (snapOf arg3 harg3 s) 7 (by decide) arg6.view.junk (runFirst.sl.HS_8 c i arg2 harg2 arg3 harg3 arg6 u s) (first_tail_7 c i arg2 harg2 arg3 harg3 arg6 harg6 u s) _ rfl

theorem first_tail_9 :
    arg6.view.read (Elt F) (arg6.view.writes (Elt F) arg6.view.junk (runFirst.sl.HS_10 c i arg2 harg2 arg3 harg3 arg6 u s))
      = iter arg6 harg6 i (ublock arg2 harg2 u) (snapOf arg3 harg3 s) 9 (by decide) :=
  read_cons_iter arg6 harg6 i (ublock arg2 harg2 u) (snapOf arg3 harg3 s) 8 (by decide) arg6.view.junk (runFirst.sl.HS_9 c i arg2 harg2 arg3 harg3 arg6 u s) (first_tail_8 c i arg2 harg2 arg3 harg3 arg6 harg6 u s) _ rfl

theorem first_tail_10 :
    arg6.view.read (Elt F) (arg6.view.writes (Elt F) arg6.view.junk (runFirst.sl.HS_11 c i arg2 harg2 arg3 harg3 arg6 u s))
      = iter arg6 harg6 i (ublock arg2 harg2 u) (snapOf arg3 harg3 s) 10 (by decide) :=
  read_cons_iter arg6 harg6 i (ublock arg2 harg2 u) (snapOf arg3 harg3 s) 9 (by decide) arg6.view.junk (runFirst.sl.HS_10 c i arg2 harg2 arg3 harg3 arg6 u s) (first_tail_9 c i arg2 harg2 arg3 harg3 arg6 harg6 u s) _ rfl

theorem first_tail_11 :
    arg6.view.read (Elt F) (arg6.view.writes (Elt F) arg6.view.junk (runFirst.sl.HS_12 c i arg2 harg2 arg3 harg3 arg6 u s))
      = iter arg6 harg6 i (ublock arg2 harg2 u) (snapOf arg3 harg3 s) 11 (by decide) :=
  read_cons_iter arg6 harg6 i (ublock arg2 harg2 u) (snapOf arg3 harg3 s) 10 (by decide) arg6.view.junk (runFirst.sl.HS_11 c i arg2 harg2 arg3 harg3 arg6 u s) (first_tail_10 c i arg2 harg2 arg3 harg3 arg6 harg6 u s) _ rfl

theorem first_tail_12 :
    arg6.view.read (Elt F) (arg6.view.writes (Elt F) arg6.view.junk (runFirst.sl.HS_13 c i arg2 harg2 arg3 harg3 arg6 u s))
      = iter arg6 harg6 i (ublock arg2 harg2 u) (snapOf arg3 harg3 s) 12 (by decide) :=
  read_cons_iter arg6 harg6 i (ublock arg2 harg2 u) (snapOf arg3 harg3 s) 11 (by decide) arg6.view.junk (runFirst.sl.HS_12 c i arg2 harg2 arg3 harg3 arg6 u s) (first_tail_11 c i arg2 harg2 arg3 harg3 arg6 harg6 u s) _ rfl

theorem first_tail_13 :
    arg6.view.read (Elt F) (arg6.view.writes (Elt F) arg6.view.junk (runFirst.sl.HS_14 c i arg2 harg2 arg3 harg3 arg6 u s))
      = iter arg6 harg6 i (ublock arg2 harg2 u) (snapOf arg3 harg3 s) 13 (by decide) :=
  read_cons_iter arg6 harg6 i (ublock arg2 harg2 u) (snapOf arg3 harg3 s) 12 (by decide) arg6.view.junk (runFirst.sl.HS_13 c i arg2 harg2 arg3 harg3 arg6 u s) (first_tail_12 c i arg2 harg2 arg3 harg3 arg6 harg6 u s) _ rfl

theorem first_tail_14 :
    arg6.view.read (Elt F) (arg6.view.writes (Elt F) arg6.view.junk (runFirst.sl.HS_15 c i arg2 harg2 arg3 harg3 arg6 u s))
      = iter arg6 harg6 i (ublock arg2 harg2 u) (snapOf arg3 harg3 s) 14 (by decide) :=
  read_cons_iter arg6 harg6 i (ublock arg2 harg2 u) (snapOf arg3 harg3 s) 13 (by decide) arg6.view.junk (runFirst.sl.HS_14 c i arg2 harg2 arg3 harg3 arg6 u s) (first_tail_13 c i arg2 harg2 arg3 harg3 arg6 harg6 u s) _ rfl

theorem first_tail_15 :
    arg6.view.read (Elt F) (arg6.view.writes (Elt F) arg6.view.junk (runFirst.sl.HS_16 c i arg2 harg2 arg3 harg3 arg6 u s))
      = iter arg6 harg6 i (ublock arg2 harg2 u) (snapOf arg3 harg3 s) 15 (by decide) :=
  read_cons_iter arg6 harg6 i (ublock arg2 harg2 u) (snapOf arg3 harg3 s) 14 (by decide) arg6.view.junk (runFirst.sl.HS_15 c i arg2 harg2 arg3 harg3 arg6 u s) (first_tail_14 c i arg2 harg2 arg3 harg3 arg6 harg6 u s) _ rfl

theorem first_tail_16 :
    arg6.view.read (Elt F) (arg6.view.writes (Elt F) arg6.view.junk (runFirst.sl.HS_17 c i arg2 harg2 arg3 harg3 arg6 u s))
      = iter arg6 harg6 i (ublock arg2 harg2 u) (snapOf arg3 harg3 s) 16 (by decide) :=
  read_cons_iter arg6 harg6 i (ublock arg2 harg2 u) (snapOf arg3 harg3 s) 15 (by decide) arg6.view.junk (runFirst.sl.HS_16 c i arg2 harg2 arg3 harg3 arg6 u s) (first_tail_15 c i arg2 harg2 arg3 harg3 arg6 harg6 u s) _ rfl

theorem first_tail_17 :
    arg6.view.read (Elt F) (arg6.view.writes (Elt F) arg6.view.junk (runFirst.sl.HS_18 c i arg2 harg2 arg3 harg3 arg6 u s))
      = iter arg6 harg6 i (ublock arg2 harg2 u) (snapOf arg3 harg3 s) 17 (by decide) :=
  read_cons_iter arg6 harg6 i (ublock arg2 harg2 u) (snapOf arg3 harg3 s) 16 (by decide) arg6.view.junk (runFirst.sl.HS_17 c i arg2 harg2 arg3 harg3 arg6 u s) (first_tail_16 c i arg2 harg2 arg3 harg3 arg6 harg6 u s) _ rfl

theorem first_tail_18 :
    arg6.view.read (Elt F) (arg6.view.writes (Elt F) arg6.view.junk (runFirst.sl.HS_19 c i arg2 harg2 arg3 harg3 arg6 u s))
      = iter arg6 harg6 i (ublock arg2 harg2 u) (snapOf arg3 harg3 s) 18 (by decide) :=
  read_cons_iter arg6 harg6 i (ublock arg2 harg2 u) (snapOf arg3 harg3 s) 17 (by decide) arg6.view.junk (runFirst.sl.HS_18 c i arg2 harg2 arg3 harg3 arg6 u s) (first_tail_17 c i arg2 harg2 arg3 harg3 arg6 harg6 u s) _ rfl

theorem first_tail_19 :
    arg6.view.read (Elt F) (arg6.view.writes (Elt F) arg6.view.junk (runFirst.sl.HS_20 c i arg2 harg2 arg3 harg3 arg6 u s))
      = iter arg6 harg6 i (ublock arg2 harg2 u) (snapOf arg3 harg3 s) 19 (by decide) :=
  read_cons_iter arg6 harg6 i (ublock arg2 harg2 u) (snapOf arg3 harg3 s) 18 (by decide) arg6.view.junk (runFirst.sl.HS_19 c i arg2 harg2 arg3 harg3 arg6 u s) (first_tail_18 c i arg2 harg2 arg3 harg3 arg6 harg6 u s) _ rfl

theorem first_tail_20 :
    arg6.view.read (Elt F) (arg6.view.writes (Elt F) arg6.view.junk (runFirst.sl.HS_21 c i arg2 harg2 arg3 harg3 arg6 u s))
      = iter arg6 harg6 i (ublock arg2 harg2 u) (snapOf arg3 harg3 s) 20 (by decide) :=
  read_cons_iter arg6 harg6 i (ublock arg2 harg2 u) (snapOf arg3 harg3 s) 19 (by decide) arg6.view.junk (runFirst.sl.HS_20 c i arg2 harg2 arg3 harg3 arg6 u s) (first_tail_19 c i arg2 harg2 arg3 harg3 arg6 harg6 u s) _ rfl

theorem first_tail_21 :
    arg6.view.read (Elt F) (arg6.view.writes (Elt F) arg6.view.junk (runFirst.sl.HS_22 c i arg2 harg2 arg3 harg3 arg6 u s))
      = iter arg6 harg6 i (ublock arg2 harg2 u) (snapOf arg3 harg3 s) 21 (by decide) :=
  read_cons_iter arg6 harg6 i (ublock arg2 harg2 u) (snapOf arg3 harg3 s) 20 (by decide) arg6.view.junk (runFirst.sl.HS_21 c i arg2 harg2 arg3 harg3 arg6 u s) (first_tail_20 c i arg2 harg2 arg3 harg3 arg6 harg6 u s) _ rfl

theorem first_tail_22 :
    arg6.view.read (Elt F) (arg6.view.writes (Elt F) arg6.view.junk (runFirst.sl.HS_23 c i arg2 harg2 arg3 harg3 arg6 u s))
      = iter arg6 harg6 i (ublock arg2 harg2 u) (snapOf arg3 harg3 s) 22 (by decide) :=
  read_cons_iter arg6 harg6 i (ublock arg2 harg2 u) (snapOf arg3 harg3 s) 21 (by decide) arg6.view.junk (runFirst.sl.HS_22 c i arg2 harg2 arg3 harg3 arg6 u s) (first_tail_21 c i arg2 harg2 arg3 harg3 arg6 harg6 u s) _ rfl

theorem first_tail_23 :
    arg6.view.read (Elt F) (arg6.view.writes (Elt F) arg6.view.junk (runFirst.sl.HS_24 c i arg2 harg2 arg3 harg3 arg6 u s))
      = iter arg6 harg6 i (ublock arg2 harg2 u) (snapOf arg3 harg3 s) 23 (by decide) :=
  read_cons_iter arg6 harg6 i (ublock arg2 harg2 u) (snapOf arg3 harg3 s) 22 (by decide) arg6.view.junk (runFirst.sl.HS_23 c i arg2 harg2 arg3 harg3 arg6 u s) (first_tail_22 c i arg2 harg2 arg3 harg3 arg6 harg6 u s) _ rfl

theorem first_tail_24 :
    arg6.view.read (Elt F) (arg6.view.writes (Elt F) arg6.view.junk (runFirst.sl.HS_25 c i arg2 harg2 arg3 harg3 arg6 u s))
      = iter arg6 harg6 i (ublock arg2 harg2 u) (snapOf arg3 harg3 s) 24 (by decide) :=
  read_cons_iter arg6 harg6 i (ublock arg2 harg2 u) (snapOf arg3 harg3 s) 23 (by decide) arg6.view.junk (runFirst.sl.HS_24 c i arg2 harg2 arg3 harg3 arg6 u s) (first_tail_23 c i arg2 harg2 arg3 harg3 arg6 harg6 u s) _ rfl

theorem first_tail_25 :
    arg6.view.read (Elt F) (arg6.view.writes (Elt F) arg6.view.junk (runFirst.sl.HS_26 c i arg2 harg2 arg3 harg3 arg6 u s))
      = iter arg6 harg6 i (ublock arg2 harg2 u) (snapOf arg3 harg3 s) 25 (by decide) :=
  read_cons_iter arg6 harg6 i (ublock arg2 harg2 u) (snapOf arg3 harg3 s) 24 (by decide) arg6.view.junk (runFirst.sl.HS_25 c i arg2 harg2 arg3 harg3 arg6 u s) (first_tail_24 c i arg2 harg2 arg3 harg3 arg6 harg6 u s) _ rfl

theorem first_tail_26 :
    arg6.view.read (Elt F) (arg6.view.writes (Elt F) arg6.view.junk (runFirst.sl.HS_27 c i arg2 harg2 arg3 harg3 arg6 u s))
      = iter arg6 harg6 i (ublock arg2 harg2 u) (snapOf arg3 harg3 s) 26 (by decide) :=
  read_cons_iter arg6 harg6 i (ublock arg2 harg2 u) (snapOf arg3 harg3 s) 25 (by decide) arg6.view.junk (runFirst.sl.HS_26 c i arg2 harg2 arg3 harg3 arg6 u s) (first_tail_25 c i arg2 harg2 arg3 harg3 arg6 harg6 u s) _ rfl

theorem first_tail_27 :
    arg6.view.read (Elt F) (arg6.view.writes (Elt F) arg6.view.junk (runFirst.sl.HS_28 c i arg2 harg2 arg3 harg3 arg6 u s))
      = iter arg6 harg6 i (ublock arg2 harg2 u) (snapOf arg3 harg3 s) 27 (by decide) :=
  read_cons_iter arg6 harg6 i (ublock arg2 harg2 u) (snapOf arg3 harg3 s) 26 (by decide) arg6.view.junk (runFirst.sl.HS_27 c i arg2 harg2 arg3 harg3 arg6 u s) (first_tail_26 c i arg2 harg2 arg3 harg3 arg6 harg6 u s) _ rfl

theorem first_tail_28 :
    arg6.view.read (Elt F) (arg6.view.writes (Elt F) arg6.view.junk (runFirst.sl.HS_29 c i arg2 harg2 arg3 harg3 arg6 u s))
      = iter arg6 harg6 i (ublock arg2 harg2 u) (snapOf arg3 harg3 s) 28 (by decide) :=
  read_cons_iter arg6 harg6 i (ublock arg2 harg2 u) (snapOf arg3 harg3 s) 27 (by decide) arg6.view.junk (runFirst.sl.HS_28 c i arg2 harg2 arg3 harg3 arg6 u s) (first_tail_27 c i arg2 harg2 arg3 harg3 arg6 harg6 u s) _ rfl

theorem first_tail_29 :
    arg6.view.read (Elt F) (arg6.view.writes (Elt F) arg6.view.junk (runFirst.sl.HS_30 c i arg2 harg2 arg3 harg3 arg6 u s))
      = iter arg6 harg6 i (ublock arg2 harg2 u) (snapOf arg3 harg3 s) 29 (by decide) :=
  read_cons_iter arg6 harg6 i (ublock arg2 harg2 u) (snapOf arg3 harg3 s) 28 (by decide) arg6.view.junk (runFirst.sl.HS_29 c i arg2 harg2 arg3 harg3 arg6 u s) (first_tail_28 c i arg2 harg2 arg3 harg3 arg6 harg6 u s) _ rfl

theorem first_tail_30 :
    arg6.view.read (Elt F) (arg6.view.writes (Elt F) arg6.view.junk (runFirst.sl.HS_31 c i arg2 harg2 arg3 harg3 arg6 u s))
      = iter arg6 harg6 i (ublock arg2 harg2 u) (snapOf arg3 harg3 s) 30 (by decide) :=
  read_cons_iter arg6 harg6 i (ublock arg2 harg2 u) (snapOf arg3 harg3 s) 29 (by decide) arg6.view.junk (runFirst.sl.HS_30 c i arg2 harg2 arg3 harg3 arg6 u s) (first_tail_29 c i arg2 harg2 arg3 harg3 arg6 harg6 u s) _ rfl

theorem first_tail_31 :
    arg6.view.read (Elt F) (arg6.view.writes (Elt F) arg6.view.junk (runFirst.sl.HS_32 c i arg2 harg2 arg3 harg3 arg6 u s))
      = iter arg6 harg6 i (ublock arg2 harg2 u) (snapOf arg3 harg3 s) 31 (by decide) :=
  read_cons_iter arg6 harg6 i (ublock arg2 harg2 u) (snapOf arg3 harg3 s) 30 (by decide) arg6.view.junk (runFirst.sl.HS_31 c i arg2 harg2 arg3 harg3 arg6 u s) (first_tail_30 c i arg2 harg2 arg3 harg3 arg6 harg6 u s) _ rfl

end Cert.Kernel.Hand

end
-- ==== Proof.Bits.ReadsF.lean ====
/-
  What the body's run leaves at a channel's first tile, read back.  The run stores the channel's snapshot block over the whole
  accumulator and then makes the tile's thirty-two steps, so whatever the accumulator held before, it ends at those steps
  applied to the snapshot block (`first_read`).
-/
import proofs.«166608_j62680752718461_1_alg».proof.Proof.Bits.TailsFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000

variable (c : Dev nD) (i : grid0.Coords) (arg2 : Memref sig .tc .vmem S32x1x256x128 .f32) (harg2 : arg2.IsWhole) (arg3 : Memref sig .tc .vmem S1x8416x128 .f32) (harg3 : arg3.IsWhole) (arg4 : Memref sig .tc .vmem S1x8192x128 .f32) (harg4 : arg4.IsWhole) (arg5 : Memref sig .tc .vmem S1x8416x128 .f32) (harg5 : arg5.IsWhole) (arg6 : Memref sig .tc .vmem S8416x128 .f32) (harg6 : arg6.IsWhole)
variable (u : Vec F S32x1x256x128 .f32) (s : Vec F S1x8416x128 .f32)

/-- After a first tile: the thirty-two steps applied to the channel's snapshot block.  The run's newest store is step 31's,
    over the stores that read back as the first thirty-one steps. -/
theorem first_read (hf : isFirst i) (hl : ¬isLast i) :
    arg6.view.read (Elt F) (arg6.view.writes (Elt F) arg6.view.junk (runFirst c i arg2 harg2 arg3 harg3 arg4 harg4 arg5 harg5 arg6 harg6 hf hl u s).1)
      = iter arg6 harg6 i (ublock arg2 harg2 u) (snapOf arg3 harg3 s) 32 (Nat.le_refl 32) :=
  read_cons_iter arg6 harg6 i (ublock arg2 harg2 u) (snapOf arg3 harg3 s) 31 (Nat.le_refl 32) arg6.view.junk
    (runFirst.sl.HS_32 c i arg2 harg2 arg3 harg3 arg6 u s) (first_tail_31 c i arg2 harg2 arg3 harg3 arg6 harg6 u s) _ rfl

end Cert.Kernel.Hand

end
-- ==== Proof.Bits.Body.lean ====
/-
  The body obligation of the overlap-add region at every grid point, the region's run and the frame.

  A point is in one of three cases by its tile alone.  At a channel's first tile the accumulator, whatever it held, is
  overwritten by the channel's snapshot block and then takes the tile's thirty-two steps; at a middle tile it takes the
  steps from what the point before left; at a channel's last tile it takes them and is then copied out into the two
  result blocks.  In each case the body's run hands the accumulator back at the stores it made, and reading those back
  is the contents the proof data names for the point (`accAt`, `outO`, `outN`).  Away from a last tile the result
  windows are idle: their buffers come back as they went in.
-/
import proofs.«166608_j62680752718461_1_alg».proof.Proof.Bits.Data
import proofs.«166608_j62680752718461_1_alg».proof.Proof.Bits.ReadsML
import proofs.«166608_j62680752718461_1_alg».proof.Proof.Bits.ReadsF

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mU t) fullShare ((dats m 0 c).before 0 t d))
    ∗ (∃ d, owns (c : Thread nD τ) (mS t) fullShare ((dats m 0 c).before 1 t d))
    ∗ (∃ d, owns (c : Thread nD τ) (mO t) fullShare ((dats m 0 c).before 2 t d))
    ∗ (∃ d, owns (c : Thread nD τ) (mN t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- A point's tile coordinate is its position modulo eight, so a first tile is no last tile. -/
theorem not_last_of_first (t : Fin cfg0.N) (h0 : t.val % 8 = 0) : ¬isLast (grid0.coords t) :=
  fun h => by have := (isLast_iff t).mp h; omega

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (mU t) fullShare ((dats m 0 c).after 0 t) from by
    unfold Dat.leavesExact; rw [live_in0 t], after_0]
  rw [show (dats m 0 c).leavesExact 1 t = owns (c : Thread nD τ) (mS t) fullShare ((dats m 0 c).after 1 t) from by
    unfold Dat.leavesExact; rw [live_in1 t], after_1]
  by_cases h0 : t.val % 8 = 0
  · -- a channel's first tile
    have hf : isFirst (grid0.coords t) := (isFirst_iff t).mpr h0
    have hl : ¬isLast (grid0.coords t) := not_last_of_first t h0
    rw [Dat.leavesExact_idle (dats m 0 c) 2 t (idle_out2 t hl) (noflush_out2 t hl)]
    rw [Dat.leavesExact_idle (dats m 0 c) 3 t (idle_out3 t hl) (noflush_out3 t hl)]
    have hread := (first_read c (grid0.coords t) (mU t) (hU t) (mS t) (hS t) (mO t) (hO t) (mN t) (hN t) mAcc hAcc
      (iblk m c 0 t) (iblk m c 1 t) hf hl).trans (accAt_first m c t h0).symm
    by_cases hz : t.val = 0
    · rw [PhiS_castSucc m c t, PhiS_zero m c _ _ hz, PhiA_eq]
      iintro ⟨⟨⟨%d, HS0⟩, Hg⟩, Ho, ⟨%d0, H0⟩, ⟨%d1, H1⟩, ⟨%d2, H2⟩, ⟨%d3, H3⟩⟩
      iapply ((runFirst c (grid0.coords t) (mU t) (hU t) (mS t) (hS t) (mO t) (hO t) (mN t) (hN t) mAcc hAcc hf hl
        (iblk m c 0 t) (iblk m c 1 t)).2 _ _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hg]
      · isplitl [HS0]
        · unfold owns; iexists _; isplitr
          swap; · iexact HS0
          ipureintro; exact hread
        iexact Hg
      isplitl [Ho]; · iexact Ho
      isplitl [H0]; · iexact H0
      isplitl [H1]; · iexact H1
      isplitl [H2]; · iexists _; iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runFirst c (grid0.coords t) (mU t) (hU t) (mS t) (hS t) (mO t) (hO t) (mN t) (hN t) mAcc hAcc hf hl
        (iblk m c 0 t) (iblk m c 1 t)).2 _ _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hg]
      · isplitl [HS0]
        · unfold owns; iexists _; isplitr
          swap; · iexact HS0
          ipureintro; exact hread
        iexact Hg
      isplitl [Ho]; · iexact Ho
      isplitl [H0]; · iexact H0
      isplitl [H1]; · iexact H1
      isplitl [H2]; · iexists _; iexact H2
      iexists _; iexact H3
  · have hf : ¬isFirst (grid0.coords t) := fun h => h0 ((isFirst_iff t).mp h)
    have hz : t.val ≠ 0 := fun h => h0 (by rw [h])
    by_cases h7 : t.val % 8 = 7
    · -- a channel's last tile
      have hl : isLast (grid0.coords t) := (isLast_iff t).mpr h7
      rw [show (dats m 0 c).leavesExact 2 t = owns (c : Thread nD τ) (mO t) fullShare ((dats m 0 c).after 2 t) from by
        unfold Dat.leavesExact; rw [live_out2 t hl], after_2]
      rw [show (dats m 0 c).leavesExact 3 t = owns (c : Thread nD τ) (mN t) fullShare ((dats m 0 c).after 3 t) from by
        unfold Dat.leavesExact; rw [live_out3 t hl], after_3]
      have hacc := accAt_next m c t h0
      have hacc' : iter mAcc hAcc (grid0.coords t) (ublock (mU t) (hU t) (iblk m c 0 t))
          (accAt m c (t.val - 1) (Nat.lt_of_le_of_lt (Nat.sub_le _ _) t.isLt)) 32 (Nat.le_refl 32) = accAt m c t.val t.isLt := hacc.symm
      have hread := (last_read c (grid0.coords t) (mU t) (hU t) (mS t) (hS t) (mO t) (hO t) (mN t) (hN t) mAcc hAcc
        (iblk m c 0 t) (accAt m c (t.val - 1) (Nat.lt_of_le_of_lt (Nat.sub_le _ _) t.isLt)) hf hl).trans hacc.symm
      have hO' := last_O c (grid0.coords t) (mU t) (hU t) (mS t) (hS t) (mO t) (hO t) (mN t) (hN t) mAcc hAcc
        (iblk m c 0 t) (accAt m c (t.val - 1) (Nat.lt_of_le_of_lt (Nat.sub_le _ _) t.isLt)) hf hl
      have hN' := last_N c (grid0.coords t) (mU t) (hU t) (mS t) (hS t) (mO t) (hO t) (mN t) (hN t) mAcc hAcc
        (iblk m c 0 t) (accAt m c (t.val - 1) (Nat.lt_of_le_of_lt (Nat.sub_le _ _) t.isLt)) hf hl
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runLast c (grid0.coords t) (mU t) (hU t) (mS t) (hS t) (mO t) (hO t) (mN t) (hN t) mAcc hAcc hf hl
        (iblk m c 0 t) (accAt m c (t.val - 1) (Nat.lt_of_le_of_lt (Nat.sub_le _ _) t.isLt))).2.2.2 _ _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hg]
      · isplitl [HS0]
        · unfold owns; iexists _; isplitr
          swap; · iexact HS0
          ipureintro; exact hread
        iexact Hg
      isplitl [Ho]; · iexact Ho
      isplitl [H0]; · iexact H0
      isplitl [H1]; · iexact H1
      isplitl [H2]
      · unfold owns; iexists _; isplitr
        swap; · iexact H2
        ipureintro
        rw [hO', hacc']
        unfold outO
        exact View.read_writes_of_cover _ _ _ _ _ (coverO mAcc hAcc _)
      unfold owns; iexists _; isplitr
      swap; · iexact H3
      ipureintro
      rw [hN', hacc']
      unfold outN
      exact View.read_writes_of_cover _ _ _ _ _ (coverN mAcc hAcc _)
    · -- a middle tile
      have hl : ¬isLast (grid0.coords t) := fun h => h7 ((isLast_iff t).mp h)
      rw [Dat.leavesExact_idle (dats m 0 c) 2 t (idle_out2 t hl) (noflush_out2 t hl)]
      rw [Dat.leavesExact_idle (dats m 0 c) 3 t (idle_out3 t hl) (noflush_out3 t hl)]
      have hread := (mid_read c (grid0.coords t) (mU t) (hU t) (mS t) (hS t) (mO t) (hO t) (mN t) (hN t) mAcc hAcc
        (iblk m c 0 t) (accAt m c (t.val - 1) (Nat.lt_of_le_of_lt (Nat.sub_le _ _) t.isLt)) hf hl).trans (accAt_next m c t h0).symm
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runMid c (grid0.coords t) (mU t) (hU t) (mS t) (hS t) (mO t) (hO t) (mN t) (hN t) mAcc hAcc hf hl
        (iblk m c 0 t) (accAt m c (t.val - 1) (Nat.lt_of_le_of_lt (Nat.sub_le _ _) t.isLt))).2 _ _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hg]
      · isplitl [HS0]
        · unfold owns; iexists _; isplitr
          swap; · iexact HS0
          ipureintro; exact hread
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- Every weakly fair execution of @main terminates with every array of the pipeline at what the proof data computes
    and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.Spec.lean ====
/-
  The value both programs compute, as ONE function of the two argument arrays over the extended reals.

  `update` holds 256 windows of 32768 samples for each of two channels; window `b` sits at positions
  `[4096 · b, 4096 · b + 32768)` of a ring of 1077248 positions, so consecutive windows overlap and a position lies in
  between one and eight of them.  The overlap-add of channel `c` at position `p` is the snapshot there plus one eighth
  of every window sample that falls on `p` (`ovl`).  The first result is the overlap-add over the first 1048576
  positions; the second is its remaining 28672 positions followed by zeros.
-/
import Idealize.ShloMosaic.PureOps.Ideal
import Idealize.ShloMosaic.Lib.ValueIdx

noncomputable section

namespace Cert.Spec

open Idealize.ShloMosaic Idealize.ShloMosaic.ValueIdx
open scoped BigOperators

/-- The shapes of `update`, of `snapshot` (and the second result), and of the first result. -/
abbrev SU : Shape := ⟨3, ![256, 2, 32768]⟩
abbrev SS : Shape := ⟨2, ![2, 1077248]⟩
abbrev SO : Shape := ⟨3, ![1, 2, 1048576]⟩

/-- The float patterns the two programs spell, as the extended reals they denote: `0.0`, `0.125`, `8.0`, `1.0`. -/
theorem ofBits_zero : Ideal.ofBits .f32 0x00000000#32 = 0 := by
  simp [Ideal.ofBits, Ideal.ieee]
theorem ofBits_eighth : Ideal.ofBits .f32 0x3E000000#32 = ((1 / 8 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_one : Ideal.ofBits .f32 0x3F800000#32 = 1 := by
  simp [Ideal.ofBits, Ideal.ieee, -EReal.coe_mul]; norm_num

/-- Window `b` covers position `p`. -/
abbrev covers (b : Fin 256) (p : ℕ) : Prop := 4096 * b.val ≤ p ∧ p < 4096 * b.val + 32768

/-- The overlap-add of channel `c` at ring position `p`: the snapshot there plus one eighth of each window's sample that
    falls on `p`. -/
def ovl (x : SU.Idx → EReal) (s : SS.Idx → EReal) (c : Fin 2) (p : ℕ) (hp : p < 1077248) : EReal :=
  s (ix2 c ⟨p, hp⟩)
    + ∑ b : Fin 256, if h : covers b p then x (ix3 b c ⟨p - 4096 * b.val, by have := h.1; have := h.2; omega⟩) * ((1 / 8 : ℝ) : EReal) else 0

/-- The first result: the overlap-add at the first 1048576 positions, under a leading axis of extent one. -/
def out0 (x : SU.Idx → EReal) (s : SS.Idx → EReal) : SO.Idx → EReal := fun j =>
  ovl x s ⟨(j 1).val, (j 1).isLt⟩ (j 2).val (by have h : (j 2).val < 1048576 := (j 2).isLt; omega)

/-- The second result: the overlap-add at the last 28672 positions, then zeros. -/
def out1 (x : SU.Idx → EReal) (s : SS.Idx → EReal) : SS.Idx → EReal := fun j =>
  if h : (j 1).val < 28672 then ovl x s ⟨(j 0).val, (j 0).isLt⟩ (1048576 + (j 1).val) (by omega) else 0

end Cert.Spec

end
-- ==== Proof.AccClosed.lean ====
/-
  The accumulator after each grid point in closed form, at the exact instance: the channel's snapshot plus one eighth of
  every update window of the channel's tiles so far, each window landing on the 256 rows from row 32 · b on.

  The road: one read-add-write step read at an entry (the rows of the step's band gain an eighth of the update row-block's
  entry, the others keep theirs); the first `k` steps of a tile by induction on `k`; the tile's row-blocks and the snapshot
  block as entries of the staged arrays; and the accumulator after point `n` by induction on `n`, the tiles' windows
  re-indexed by the window number `b = 32 · tile + step`.
-/
import proofs.«166608_j62680752718461_1_alg».proof.Proof.Data
import proofs.«166608_j62680752718461_1_alg».proof.Proof.Spec
import Idealize.ShloMosaic.PureOps.Ideal
import Idealize.ShloMosaic.Lib.ValueIdx
import Idealize.ShloMosaic.Lib.WritesUnit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! ## One step, and the first `k` steps of a tile, read at an entry -/

section Steps

variable (arg6 : Memref sig .tc .vmem S8416x128 .f32) (harg6 : arg6.IsWhole)

/-- Dropping the two unit axes of an update row-block. -/
theorem ub_cast_apply (ub : Vec Ideal S1x1x256x128 .f32) (a : Fin 256) (l : Fin 128) :
    shapeCast S256x128 ub shapeCasts_S1x1x256x128_S256x128 (ix2 a l) = ub (ix4 (0 : Fin 1) (0 : Fin 1) a l) := by
  refine shapeCast_apply ub _ (ix2 a l) (ix4 (0 : Fin 1) (0 : Fin 1) a l) ?_
  rw [Shape.rowMajor_val_four, Shape.rowMajor_val_two]
  show ((0 * 1 + 0) * 256 + a.val) * 128 + l.val = a.val * 128 + l.val
  omega

/-- One store of a band of 256 rows from row `o` on, its payload the band as loaded plus an eighth of `ub`, read back at
    an entry: the rows of the band gain an eighth of `ub`'s entry, the others keep theirs. -/
theorem band_store_apply {off : Fin 2 → ℕ} (o : ℕ) (inb : ∀ a, off a + S256x128.size a ≤ S8416x128.size a)
    (hoff : off = ![o, 0]) (ub : Vec Ideal S1x1x256x128 .f32) (X : Vec Ideal S8416x128 .f32) (r : Fin 8416) (l : Fin 128) :
    arg6.view.read (Elt Ideal) (arg6.view.writes (Elt Ideal) (harg6.unread X)
      [⟨Rect.unit (s := S8416x128) off S256x128.size inb,
        stepPay ub (View.readAt (Elt Ideal) arg6.view (Rect.unit (s := S8416x128) off S256x128.size inb).toLoadRect (harg6.unread X))⟩]) (ix2 r l)
      = if h : o ≤ r.val ∧ r.val < o + 256
          then X (ix2 r l) + ub (ix4 (0 : Fin 1) (0 : Fin 1) (⟨r.val - o, by omega⟩ : Fin 256) l) * ((1 / 8 : ℝ) : EReal)
          else X (ix2 r l) := by
  subst hoff
  by_cases h : o ≤ r.val ∧ r.val < o + 256
  · rw [dif_pos h]
    have hro : r.val - o < 256 := by omega
    rw [View.read_writes_cons_rows_of_mem arg6.view (harg6.unread X) inb _ [] (ix2 r l)
      (ix2 (⟨r.val - o, hro⟩ : Fin 256) l) rfl (by show r.val = o + (r.val - o); omega) rfl]
    unfold stepPay
    rw [shapeCast_self]
    show View.readAt (Elt Ideal) arg6.view (Rect.unit (s := S8416x128) ![o, 0] S256x128.size inb).toLoadRect (harg6.unread X) (ix2 (⟨r.val - o, hro⟩ : Fin 256) l)
        + shapeCast S256x128 ub shapeCasts_S1x1x256x128_S256x128 (ix2 (⟨r.val - o, hro⟩ : Fin 256) l) * Ideal.ofBits .f32 0x3E000000#32 = _
    rw [ub_cast_apply, Cert.Spec.ofBits_eighth, View.readAt_apply, harg6.read_unread]
    congr 2
    funext a
    apply Fin.ext
    match a with
    | ⟨0, _⟩ => show o + 1 * (r.val - o) = r.val; omega
    | ⟨1, _⟩ => show 0 + 1 * l.val = l.val; omega
  · rw [dif_neg h]
    rw [View.read_writes_cons_rows_of_not_mem arg6.view (harg6.unread X) inb _ [] (ix2 r l) rfl rfl (by show r.val < o ∨ o + 256 ≤ r.val; omega)]
    show arg6.view.read (Elt Ideal) (harg6.unread X) (ix2 r l) = _
    rw [harg6.read_unread]

/-- What step `j` of the tile at grid point `i` adds at entry `(r, l)`: an eighth of the update row-block's entry when the
    step's band (the 256 rows from row `1024 · tile + 32 · j` on) holds row `r`, nothing otherwise. -/
def stepTerm (i : grid0.Coords) (ub : Fin 32 → Vec Ideal S1x1x256x128 .f32) (r : Fin 8416) (l : Fin 128) (j : Fin 32) : EReal :=
  if h : 1024 * (i 1).val + 32 * j.val ≤ r.val ∧ r.val < 1024 * (i 1).val + 32 * j.val + 256
    then ub j (ix4 (0 : Fin 1) (0 : Fin 1) (⟨r.val - (1024 * (i 1).val + 32 * j.val), by omega⟩ : Fin 256) l) * ((1 / 8 : ℝ) : EReal)
    else 0

/-- One step read at an entry. -/
theorem step_apply (i : grid0.Coords) (k : Fin 32) (ub : Fin 32 → Vec Ideal S1x1x256x128 .f32) (X : Vec Ideal S8416x128 .f32)
    (r : Fin 8416) (l : Fin 128) :
    step arg6 harg6 i k (ub k) X (ix2 r l) = X (ix2 r l) + stepTerm i ub r l k := by
  unfold step
  rw [band_store_apply arg6 harg6 (1024 * (i 1).val + 32 * k.val) (k0_off1_inb i k) (k0_off1_eq i k) (ub k) X r l]
  unfold stepTerm
  by_cases h : 1024 * (i 1).val + 32 * k.val ≤ r.val ∧ r.val < 1024 * (i 1).val + 32 * k.val + 256
  · rw [dif_pos h, dif_pos h]
  · rw [dif_neg h, dif_neg h, add_zero]

/-- The first `k` steps of a tile read at an entry: what was there plus the addends of the steps done. -/
theorem iter_apply (i : grid0.Coords) (ub : Fin 32 → Vec Ideal S1x1x256x128 .f32) (X₀ : Vec Ideal S8416x128 .f32)
    (r : Fin 8416) (l : Fin 128) : ∀ (k : ℕ) (hk : k ≤ 32),
    iter arg6 harg6 i ub X₀ k hk (ix2 r l)
      = X₀ (ix2 r l) + ∑ j : Fin 32, if j.val < k then stepTerm i ub r l j else 0
  | 0, _ => by
    show X₀ (ix2 r l) = _
    rw [Finset.sum_eq_zero (fun j _ => if_neg (Nat.not_lt_zero _)), add_zero]
  | k + 1, hk => by
    rw [iter_succ, step_apply, iter_apply i ub X₀ r l k (Nat.le_of_succ_le hk), add_assoc]
    congr 1
    have hsplit : ∀ j : Fin 32, (if j.val < k + 1 then stepTerm i ub r l j else 0)
        = (if j.val < k then stepTerm i ub r l j else 0) + (if j = (⟨k, hk⟩ : Fin 32) then stepTerm i ub r l j else 0) := by
      intro j
      by_cases h1 : j.val < k
      · have h2 : j ≠ (⟨k, hk⟩ : Fin 32) := fun e => by rw [e] at h1; exact Nat.lt_irrefl _ h1
        rw [if_pos h1, if_pos (Nat.lt_succ_of_lt h1), if_neg h2, add_zero]
      · by_cases h2 : j = (⟨k, hk⟩ : Fin 32)
        · rw [if_neg h1, if_pos h2, if_pos (by rw [h2]; exact Nat.lt_succ_self k), zero_add]
        · have h3 : ¬ j.val < k + 1 := fun h => h2 (Fin.ext (by show j.val = k; omega))
          rw [if_neg h1, if_neg h2, if_neg h3, add_zero]
    rw [Finset.sum_congr rfl (fun j _ => hsplit j), Finset.sum_add_distrib, Finset.sum_ite_eq' Finset.univ (⟨k, hk⟩ : Fin 32),
      if_pos (Finset.mem_univ _)]

end Steps

/-! ## The tile's row-blocks and the snapshot block as entries of the staged arrays -/

variable (m : (ℓ : Loc nD τ sig) → Buf (Elt Ideal) ℓ)

/-- The two staged arrays as the region finds them: the updates as [256, 2, 256, 128], the snapshot as [2, 8416, 128]. -/
abbrev U4 (c : Dev nD) : Vec Ideal S256x2x256x128 .f32 := V m c main_v0
abbrev S3 (c : Dev nD) : Vec Ideal S2x8416x128 .f32 := V m c main_v1

/-- The channel of grid point `n`. -/
def chOf (n : ℕ) (hn : n < cfg0.N) : Fin 2 := ⟨n / 8, by have h : cfg0.N = 16 := N_0; omega⟩

/-- Row-block `k` of a tile of updates held in a whole buffer, at an entry. -/
theorem ublock_apply (arg2 : Memref sig .tc .vmem S32x1x256x128 .f32) (harg2 : arg2.IsWhole) (u : Vec Ideal S32x1x256x128 .f32)
    (k : Fin 32) (a : Fin 256) (l : Fin 128) :
    ublock arg2 harg2 u k (ix4 (0 : Fin 1) (0 : Fin 1) a l) = u (ix4 k (0 : Fin 1) a l) := by
  show View.readAt (Elt Ideal) arg2.view _ (harg2.unread u) _ = _
  rw [View.readAt_apply, harg2.read_unread]
  congr 1
  funext b
  apply Fin.ext
  match b with
  | ⟨0, _⟩ => show k.val + 1 * 0 = k.val; omega
  | ⟨1, _⟩ => show 0 + 1 * 0 = 0; omega
  | ⟨2, _⟩ => show 0 + 1 * a.val = a.val; omega
  | ⟨3, _⟩ => show 0 + 1 * l.val = l.val; omega

/-- A snapshot block held in a whole buffer, laid out as accumulator contents, at an entry. -/
theorem snapOf_apply (arg3 : Memref sig .tc .vmem S1x8416x128 .f32) (harg3 : arg3.IsWhole) (s : Vec Ideal S1x8416x128 .f32)
    (r : Fin 8416) (l : Fin 128) :
    snapOf arg3 harg3 s (ix2 r l) = s (ix3 (0 : Fin 1) r l) := by
  unfold snapOf k0_pay4
  dsimp only
  rw [shapeCast_self]
  refine (shapeCast_apply _ _ (ix2 r l) (ix3 (0 : Fin 1) r l) ?_).trans ?_
  · rw [Shape.rowMajor_val_three, Shape.rowMajor_val_two]
    show (0 * 8416 + r.val) * 128 + l.val = r.val * 128 + l.val
    omega
  · rw [View.readAt_apply, harg3.read_unread]
    congr 1
    funext b
    apply Fin.ext
    match b with
    | ⟨0, _⟩ => show 0 + 1 * 0 = 0; omega
    | ⟨1, _⟩ => show 0 + 1 * r.val = r.val; omega
    | ⟨2, _⟩ => show 0 + 1 * l.val = l.val; omega

/-- The update window's block at point `t` is rows `32 · (t % 8) …` of channel `t / 8` of the staged updates. -/
theorem iblk0_apply (c : Dev nD) (t : Fin cfg0.N) (x : S32x1x256x128.Idx) (k : S256x2x256x128.Idx)
    (hk0 : (k 0).val = 32 * (t.val % 8) + (x 0).val) (hk1 : (k 1).val = t.val / 8)
    (hk2 : (k 2).val = (x 2).val) (hk3 : (k 3).val = (x 3).val) :
    (iblk m c 0 t : Vec Ideal S32x1x256x128 .f32) x = U4 m c k := by
  have hi : win0_0.index t 0 = t.val % 8 ∧ win0_0.index t 1 = t.val / 8 ∧ win0_0.index t 2 = 0 ∧ win0_0.index t 3 = 0 :=
    (by decide +kernel : ∀ t : Fin grid0.N, win0_0.index t 0 = t.val % 8 ∧ win0_0.index t 1 = t.val / 8 ∧ win0_0.index t 2 = 0 ∧ win0_0.index t 3 = 0) t
  have hx1 : (x 1).val < 1 := (x 1).isLt
  unfold iblk
  rw [View.read_apply]
  show V m c main_v0 _ = V m c main_v0 _
  congr 1
  funext a
  apply Fin.ext
  match a with
  | ⟨0, _⟩ => show win0_0.index t 0 * 32 + 1 * (x 0).val = (k 0).val; rw [hi.1, hk0]; omega
  | ⟨1, _⟩ => show win0_0.index t 1 * 1 + 1 * (x 1).val = (k 1).val; rw [hi.2.1, hk1]; omega
  | ⟨2, _⟩ => show win0_0.index t 2 * 256 + 1 * (x 2).val = (k 2).val; rw [hi.2.2.1, hk2]; omega
  | ⟨3, _⟩ => show win0_0.index t 3 * 128 + 1 * (x 3).val = (k 3).val; rw [hi.2.2.2, hk3]; omega

/-- The snapshot window's block at point `t` is channel `t / 8` of the staged snapshot. -/
theorem iblk1_apply (c : Dev nD) (t : Fin cfg0.N) (x : S1x8416x128.Idx) (k : S2x8416x128.Idx)
    (hk0 : (k 0).val = t.val / 8) (hk1 : (k 1).val = (x 1).val) (hk2 : (k 2).val = (x 2).val) :
    (iblk m c 1 t : Vec Ideal S1x8416x128 .f32) x = S3 m c k := by
  have hi : win0_1.index t 0 = t.val / 8 ∧ win0_1.index t 1 = 0 ∧ win0_1.index t 2 = 0 :=
    (by decide +kernel : ∀ t : Fin grid0.N, win0_1.index t 0 = t.val / 8 ∧ win0_1.index t 1 = 0 ∧ win0_1.index t 2 = 0) t
  have hx0 : (x 0).val < 1 := (x 0).isLt
  unfold iblk
  rw [View.read_apply]
  show V m c main_v1 _ = V m c main_v1 _
  congr 1
  funext a
  apply Fin.ext
  match a with
  | ⟨0, _⟩ => show win0_1.index t 0 * 1 + 1 * (x 0).val = (k 0).val; rw [hi.1, hk0]; omega
  | ⟨1, _⟩ => show win0_1.index t 1 * 8416 + 1 * (x 1).val = (k 1).val; rw [hi.2.1, hk1]; omega
  | ⟨2, _⟩ => show win0_1.index t 2 * 128 + 1 * (x 2).val = (k 2).val; rw [hi.2.2, hk2]; omega

/-- Row-block `k` of point `t`'s tile is update window `32 · (t % 8) + k` of the point's channel. -/
theorem ubAt_apply (c : Dev nD) (t : Fin cfg0.N) (k : Fin 32) (a : Fin 256) (l : Fin 128) :
    ubAt m c t k (ix4 (0 : Fin 1) (0 : Fin 1) a l)
      = U4 m c (ix4 (⟨32 * (t.val % 8) + k.val, by omega⟩ : Fin 256) (chOf t.val t.isLt) a l) :=
  (ublock_apply (mU t) (hU t) (iblk m c 0 t) k a l).trans
    (iblk0_apply m c t (ix4 k (0 : Fin 1) a l) (ix4 (⟨32 * (t.val % 8) + k.val, by omega⟩ : Fin 256) (chOf t.val t.isLt) a l) rfl rfl rfl rfl)

/-- The snapshot block at point `t`, as accumulator contents, is the point's channel of the staged snapshot. -/
theorem snapAt_apply (c : Dev nD) (t : Fin cfg0.N) (r : Fin 8416) (l : Fin 128) :
    snapAt m c t (ix2 r l) = S3 m c (ix3 (chOf t.val t.isLt) r l) :=
  (snapOf_apply (mS t) (hS t) (iblk m c 1 t) r l).trans
    (iblk1_apply m c t (ix3 (0 : Fin 1) r l) (ix3 (chOf t.val t.isLt) r l) rfl rfl rfl)

/-! ## The accumulator after each point -/

/-- What update window `b` adds at entry `(r, l)` of channel `ch`: an eighth of its entry on the 256 rows from row `32 · b` on. -/
def winTerm (c : Dev nD) (ch : Fin 2) (r : Fin 8416) (l : Fin 128) (b : Fin 256) : EReal :=
  if h : 32 * b.val ≤ r.val ∧ r.val < 32 * b.val + 256
    then U4 m c (ix4 b ch (⟨r.val - 32 * b.val, by omega⟩ : Fin 256) l) * ((1 / 8 : ℝ) : EReal)
    else 0

/-- The tile coordinate of point `t`. -/
theorem coords_tile : ∀ t : Fin cfg0.N, (grid0.coords t 1).val = t.val % 8 :=
  (by decide +kernel : ∀ t : Fin grid0.N, (grid0.coords t 1).val = t.val % 8)

/-- Step `j` of point `t`'s tile adds update window `32 · (t % 8) + j` of the point's channel. -/
theorem stepTerm_eq (c : Dev nD) (t : Fin cfg0.N) (τ : ℕ) (hτ : t.val % 8 = τ) (r : Fin 8416) (l : Fin 128) (j : Fin 32) :
    stepTerm (grid0.coords t) (ubAt m c t) r l j
      = winTerm m c (chOf t.val t.isLt) r l (⟨32 * τ + j.val, by omega⟩ : Fin 256) := by
  subst hτ
  unfold stepTerm winTerm
  have hc := coords_tile t
  by_cases h : 1024 * (grid0.coords t 1).val + 32 * j.val ≤ r.val ∧ r.val < 1024 * (grid0.coords t 1).val + 32 * j.val + 256
  · have h' : 32 * (32 * (t.val % 8) + j.val) ≤ r.val ∧ r.val < 32 * (32 * (t.val % 8) + j.val) + 256 := by
      rw [hc] at h; omega
    rw [dif_pos h, dif_pos h', ubAt_apply]
    have key : ∀ (a a' : Fin 256), a = a' →
        U4 m c (ix4 (⟨32 * (t.val % 8) + j.val, by omega⟩ : Fin 256) (chOf t.val t.isLt) a l) * ((1 / 8 : ℝ) : EReal)
          = U4 m c (ix4 (⟨32 * (t.val % 8) + j.val, by omega⟩ : Fin 256) (chOf t.val t.isLt) a' l) * ((1 / 8 : ℝ) : EReal) :=
      fun _ _ e => by rw [e]
    exact key _ _ (Fin.ext (by
      show r.val - (1024 * (grid0.coords t 1).val + 32 * j.val) = r.val - 32 * (32 * (t.val % 8) + j.val)
      rw [hc]; omega))
  · have h' : ¬ (32 * (32 * (t.val % 8) + j.val) ≤ r.val ∧ r.val < 32 * (32 * (t.val % 8) + j.val) + 256) := by
      rw [hc] at h; omega
    rw [dif_neg h, dif_neg h']

/-- A tile's thirty-two steps read at an entry: what was there plus the tile's thirty-two update windows. -/
theorem tileRun_apply (c : Dev nD) (t : Fin cfg0.N) (X : Vec Ideal S8416x128 .f32) (r : Fin 8416) (l : Fin 128)
    (τ : ℕ) (hτ : t.val % 8 = τ) :
    tileRun m c t X (ix2 r l)
      = X (ix2 r l) + ∑ j : Fin 32, winTerm m c (chOf t.val t.isLt) r l (⟨32 * τ + j.val, by omega⟩ : Fin 256) := by
  show iter mAcc hAcc (grid0.coords t) (ubAt m c t) X 32 (Nat.le_refl 32) (ix2 r l) = _
  rw [iter_apply mAcc hAcc (grid0.coords t) (ubAt m c t) X r l 32 (Nat.le_refl 32)]
  congr 1
  exact Finset.sum_congr rfl (fun j _ => by rw [if_pos j.isLt, stepTerm_eq m c t τ hτ r l j])

/-- The windows below `32 · (τ + 1)` are those below `32 · τ` and the thirty-two of block `τ`. -/
theorem sum_block (f : Fin 256 → EReal) (τ : ℕ) (hτ : τ < 8) :
    (∑ b : Fin 256, if b.val < 32 * τ then f b else 0) + ∑ j : Fin 32, f (⟨32 * τ + j.val, by omega⟩ : Fin 256)
      = ∑ b : Fin 256, if b.val < 32 * (τ + 1) then f b else 0 := by
  have hsplit : ∀ b : Fin 256, (if b.val < 32 * (τ + 1) then f b else 0)
      = (if b.val < 32 * τ then f b else 0) + (if 32 * τ ≤ b.val ∧ b.val < 32 * τ + 32 then f b else 0) := by
    intro b
    by_cases h1 : b.val < 32 * τ
    · have a1 : b.val < 32 * (τ + 1) := by omega
      have a2 : ¬ (32 * τ ≤ b.val ∧ b.val < 32 * τ + 32) := by omega
      rw [if_pos h1, if_pos a1, if_neg a2, add_zero]
    · by_cases h2 : b.val < 32 * τ + 32
      · have a1 : b.val < 32 * (τ + 1) := by omega
        have a2 : 32 * τ ≤ b.val ∧ b.val < 32 * τ + 32 := by omega
        rw [if_neg h1, if_pos a1, if_pos a2, zero_add]
      · have a1 : ¬ b.val < 32 * (τ + 1) := by omega
        have a2 : ¬ (32 * τ ≤ b.val ∧ b.val < 32 * τ + 32) := by omega
        rw [if_neg h1, if_neg a1, if_neg a2, add_zero]
  rw [Finset.sum_congr rfl (fun b _ => hsplit b), Finset.sum_add_distrib]
  congr 1
  rw [← Finset.sum_filter]
  refine Finset.sum_nbij' (fun j => (⟨32 * τ + j.val, by omega⟩ : Fin 256))
    (fun b => (⟨(b.val - 32 * τ) % 32, Nat.mod_lt _ (by decide)⟩ : Fin 32)) ?_ ?_ ?_ ?_ ?_
  · intro j _
    rw [Finset.mem_filter]
    exact ⟨Finset.mem_univ _, by show 32 * τ ≤ 32 * τ + j.val ∧ 32 * τ + j.val < 32 * τ + 32; omega⟩
  · intro b _
    exact Finset.mem_univ _
  · intro j _
    apply Fin.ext
    show (32 * τ + j.val - 32 * τ) % 32 = j.val
    omega
  · intro b hb
    rw [Finset.mem_filter] at hb
    apply Fin.ext
    show 32 * τ + (b.val - 32 * τ) % 32 = b.val
    omega
  · intro j _
    rfl

/-- At a channel's first tile: the snapshot plus the tile's windows. -/
theorem accAt_first_sum (c : Dev nD) (t : Fin cfg0.N) (h0 : t.val % 8 = 0) (r : Fin 8416) (l : Fin 128) :
    accAt m c t.val t.isLt (ix2 r l)
      = S3 m c (ix3 (chOf t.val t.isLt) r l)
        + ∑ b : Fin 256, if b.val < 32 * (t.val % 8 + 1) then winTerm m c (chOf t.val t.isLt) r l b else 0 := by
  have z : (∑ b : Fin 256, if b.val < 32 * 0 then winTerm m c (chOf t.val t.isLt) r l b else 0) = 0 :=
    Finset.sum_eq_zero (fun b _ => if_neg (by omega))
  rw [accAt_first m c t h0, tileRun_apply m c t _ r l 0 h0, snapAt_apply, h0,
    ← sum_block (winTerm m c (chOf t.val t.isLt) r l) 0 (by omega), z, zero_add]

/-- The accumulator after grid point `n`, entry by entry: the channel's snapshot plus the windows of the tiles so far. -/
theorem accAt_sum (c : Dev nD) (r : Fin 8416) (l : Fin 128) : ∀ (n : ℕ) (hn : n < cfg0.N),
    accAt m c n hn (ix2 r l)
      = S3 m c (ix3 (chOf n hn) r l)
        + ∑ b : Fin 256, if b.val < 32 * (n % 8 + 1) then winTerm m c (chOf n hn) r l b else 0 := by
  intro n
  induction n with
  | zero => intro hn; exact accAt_first_sum m c ⟨0, hn⟩ rfl r l
  | succ n ih =>
    intro hn
    by_cases h0 : (n + 1) % 8 = 0
    · exact accAt_first_sum m c ⟨n + 1, hn⟩ h0 r l
    · have hN : cfg0.N = 16 := N_0
      have hm : (n + 1) % 8 = n % 8 + 1 := by omega
      have hn' : n < cfg0.N := Nat.lt_of_succ_lt hn
      have hch : chOf n hn' = chOf (n + 1) hn := Fin.ext (by show n / 8 = (n + 1) / 8; omega)
      rw [accAt_next m c ⟨n + 1, hn⟩ h0, tileRun_apply m c ⟨n + 1, hn⟩ _ r l (n % 8 + 1) hm]
      show accAt m c n hn' (ix2 r l) + _ = _
      rw [ih hn', hch, add_assoc, hm, sum_block (winTerm m c (chOf (n + 1) hn) r l) (n % 8 + 1) (by omega)]

/-- Window `b` has been added by the end of tile `n % 8` and lands on accumulator row `r`. -/
abbrev lands (n : ℕ) (b : Fin 256) (r : Fin 8416) : Prop := b.val < 32 * (n % 8 + 1) ∧ 32 * b.val ≤ r.val ∧ r.val < 32 * b.val + 256

/-- The accumulator after grid point `n`, entry by entry. -/
theorem accAt_apply (c : Dev nD) (n : ℕ) (hn : n < cfg0.N) (r : Fin 8416) (l : Fin 128) :
    accAt m c n hn (ix2 r l)
      = S3 m c (ix3 (chOf n hn) r l)
        + ∑ b : Fin 256, if h : lands n b r
            then U4 m c (ix4 b (chOf n hn) (⟨r.val - 32 * b.val, by have := h.2.1; have := h.2.2; omega⟩ : Fin 256) l) * ((1 / 8 : ℝ) : EReal)
            else 0 := by
  rw [accAt_sum m c r l n hn]
  refine congrArg (fun z => S3 m c (ix3 (chOf n hn) r l) + z) (Finset.sum_congr rfl (fun b _ => ?_))
  unfold winTerm
  by_cases h1 : b.val < 32 * (n % 8 + 1)
  · by_cases h2 : 32 * b.val ≤ r.val ∧ r.val < 32 * b.val + 256
    · rw [if_pos h1, dif_pos h2, dif_pos (show lands n b r from ⟨h1, h2⟩)]
    · rw [if_pos h1, dif_neg h2, dif_neg (show ¬ lands n b r from fun h => h2 h.2)]
  · rw [if_neg h1, dif_neg (show ¬ lands n b r from fun h => h1 h.1)]

end Cert.KernelIdeal.Hand

end
-- ==== Proof.ArrFinal.lean ====
/-
  The two result arrays after the region.  A channel's result blocks are written back once, at the channel's last tile, so
  the first result array holds, channel by channel, the first 8192 rows of the accumulator after that tile, and the second
  its last 224 rows followed by zeros.
-/
import proofs.«166608_j62680752718461_1_alg».proof.Proof.AccClosed
import proofs.«166608_j62680752718461_1_alg».proof.Proof.Spec
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators
variable (m : (ℓ : Loc nD τ sig) → Buf (Elt Ideal) ℓ)

/-- A channel's last tile is a grid point. -/
theorem lastPt_lt (ch : ℕ) (h : ch < 2) : 8 * ch + 7 < cfg0.N := by have h16 : cfg0.N = 16 := N_0; omega

/-- The first result array after the region: channel `j 0`'s accumulator rows 0 … 8191 after the channel's last tile. -/
def G2 (c : Dev nD) : Vec Ideal S2x8192x128 .f32 := fun j =>
  accAt m c (8 * (j 0).val + 7) (lastPt_lt _ (j 0).isLt)
    (ix2 (⟨(j 1).val, by have h : (j 1).val < 8192 := (j 1).isLt; omega⟩ : Fin 8416) (⟨(j 2).val, (j 2).isLt⟩ : Fin 128))

/-- The second: its rows 8192 … 8415, then zero rows. -/
def G3 (c : Dev nD) : Vec Ideal S2x8416x128 .f32 := fun j =>
  if h : (j 1).val < 224 then
    accAt m c (8 * (j 0).val + 7) (lastPt_lt _ (j 0).isLt)
      (ix2 (⟨8192 + (j 1).val, by omega⟩ : Fin 8416) (⟨(j 2).val, (j 2).isLt⟩ : Fin 128))
  else 0

/-- The zero offsets of a rank-3 block, spelt as a constant function. -/
theorem hz3 : (![0, 0, 0] : Fin 3 → Nat) = fun _ => 0 := funext fun a => by fin_cases a <;> rfl

/-- The first result block at a channel's last tile is the accumulator's first 8192 rows. -/
theorem outO_apply (c : Dev nD) (t : Fin cfg0.N) (j : S1x8192x128.Idx) :
    outO m c t j = accAt m c t.val t.isLt
      (ix2 (⟨(j 1).val, by have h : (j 1).val < 8192 := (j 1).isLt; omega⟩ : Fin 8416) (⟨(j 2).val, (j 2).isLt⟩ : Fin 128)) := by
  unfold outO
  rw [View.read_writes_junk_eq_canon, View.canon_unit_zero hz3]
  unfold k0_pay1
  rw [shapeCast_addUnit_apply]
  show mAcc.view.read (Elt Ideal) (hAcc.unread (accAt m c t.val t.isLt)) _ = _
  rw [hAcc.read_unread]
  refine congrArg (accAt m c t.val t.isLt) (funext fun a => Fin.ext ?_)
  match a with
  | ⟨0, _⟩ => show 0 + 1 * (j 1).val = (j 1).val; omega
  | ⟨1, _⟩ => show 0 + 1 * (j 2).val = (j 2).val; omega

/-- The second result block at a channel's last tile: the accumulator's last 224 rows, then zero rows. -/
theorem outN_apply_lt (c : Dev nD) (t : Fin cfg0.N) (j : S1x8416x128.Idx) (h : (j 1).val < 224) :
    outN m c t j = accAt m c t.val t.isLt
      (ix2 (⟨8192 + (j 1).val, by omega⟩ : Fin 8416) (⟨(j 2).val, (j 2).isLt⟩ : Fin 128)) := by
  unfold outN
  have h0 : (j 0).val = 0 := by have h : (j 0).val < 1 := (j 0).isLt; omega
  rw [View.read_writes_cons_unit_of_not_mem VN VN.junk inb_S1x8416x128_S1x8192x128_0_224_0 _ _ j rfl (1 : Fin 3) (Or.inl h)]
  rw [View.read_writes_cons_unit_of_mem VN VN.junk inb_S1x8416x128_S1x224x128_0_0_0 _ _ j
    (ix3 (⟨0, by omega⟩ : Fin 1) (⟨(j 1).val, h⟩ : Fin 224) (⟨(j 2).val, (j 2).isLt⟩ : Fin 128)) rfl
    (fun a => match a with
      | ⟨0, _⟩ => by show (j 0).val = 0 + 0; omega
      | ⟨1, _⟩ => by show (j 1).val = 0 + (j 1).val; omega
      | ⟨2, _⟩ => by show (j 2).val = 0 + (j 2).val; omega)]
  unfold k0_pay2
  rw [shapeCast_addUnit_apply]
  show mAcc.view.read (Elt Ideal) (hAcc.unread (accAt m c t.val t.isLt)) _ = _
  rw [hAcc.read_unread]
  refine congrArg (accAt m c t.val t.isLt) (funext fun a => Fin.ext ?_)
  match a with
  | ⟨0, _⟩ => show 8192 + 1 * (j 1).val = 8192 + (j 1).val; omega
  | ⟨1, _⟩ => show 0 + 1 * (j 2).val = (j 2).val; omega

/-- Below them it holds zeros. -/
theorem outN_apply_ge (c : Dev nD) (t : Fin cfg0.N) (j : S1x8416x128.Idx) (h : ¬(j 1).val < 224) :
    outN m c t j = 0 := by
  unfold outN
  have h0 : (j 0).val = 0 := by have h : (j 0).val < 1 := (j 0).isLt; omega
  have h1 : (j 1).val < 8416 := (j 1).isLt
  rw [View.read_writes_cons_unit_of_mem VN VN.junk inb_S1x8416x128_S1x8192x128_0_224_0 _ _ j
    (ix3 (⟨0, by omega⟩ : Fin 1) (⟨(j 1).val - 224, by omega⟩ : Fin 8192) (⟨(j 2).val, (j 2).isLt⟩ : Fin 128)) rfl
    (fun a => match a with
      | ⟨0, _⟩ => by show (j 0).val = 0 + 0; omega
      | ⟨1, _⟩ => by show (j 1).val = 224 + ((j 1).val - 224); omega
      | ⟨2, _⟩ => by show (j 2).val = 0 + (j 2).val; omega)]
  unfold k0_pay3
  rw [shapeCast_addUnit_apply]
  exact Cert.Spec.ofBits_zero

/-- The accumulator's contents named at equal points and equal indices are equal. -/
theorem accAt_congr (c : Dev nD) (n n' : ℕ) (hn : n < cfg0.N) (hn' : n' < cfg0.N) (e : n = n')
    (x x' : S8416x128.Idx) (ex : x = x') : accAt m c n hn x = accAt m c n' hn' x' := by
  subst e; subst ex; rfl

/-- The result windows' block index maps, decided over the grid: point `t`'s block is channel `t / 8`, whole. -/
theorem idx_facts2 : ∀ t : Fin cfg0.N, win0_2.index t (0 : Fin 3) = t.val / 8
    ∧ win0_2.index t (1 : Fin 3) = 0 ∧ win0_2.index t (2 : Fin 3) = 0 :=
  (by decide +kernel : ∀ t : Fin grid0.N, win0_2.index t (0 : Fin 3) = t.val / 8
    ∧ win0_2.index t (1 : Fin 3) = 0 ∧ win0_2.index t (2 : Fin 3) = 0)
theorem idx_facts3 : ∀ t : Fin cfg0.N, win0_3.index t (0 : Fin 3) = t.val / 8
    ∧ win0_3.index t (1 : Fin 3) = 0 ∧ win0_3.index t (2 : Fin 3) = 0 :=
  (by decide +kernel : ∀ t : Fin grid0.N, win0_3.index t (0 : Fin 3) = t.val / 8
    ∧ win0_3.index t (1 : Fin 3) = 0 ∧ win0_3.index t (2 : Fin 3) = 0)

/-- What a channel's last tile writes back to the first result array is its block of `G2`. -/
theorem flushed2_eq (c : Dev nD) (t : Fin cfg0.N) (hf : (cfg0.win 2).flush t = true) :
    (dats m 0 c).flushed 2 t = ((cfg0.win 2).blk t).view.read (Elt Ideal) (G2 m c) := by
  have h7 : t.val % 8 = 7 := (flush0_2 t).mp hf
  show (cfg0.win 2).cut (grid0.coords t) ((dats m 0 c).after 2 t) = _
  rw [after_2]
  obtain ⟨e0, e1, e2⟩ := idx_facts2 t
  funext j
  show outO m c t j = G2 m c (((cfg0.win 2).blk t).view.emb j)
  refine (outO_apply m c t j).trans ?_
  unfold G2
  have hj0 : (j 0).val < 1 := (j 0).isLt
  have hj1 : (j 1).val < 8192 := (j 1).isLt
  have hj2 : (j 2).val < 128 := (j 2).isLt
  have a0 : ((((cfg0.win 2).blk t).view.emb j) 0).val = t.val / 8 := by
    show win0_2.index t (0 : Fin 3) * 1 + 1 * (j 0).val = t.val / 8; omega
  have a1 : ((((cfg0.win 2).blk t).view.emb j) 1).val = (j 1).val := by
    show win0_2.index t (1 : Fin 3) * 8192 + 1 * (j 1).val = (j 1).val; omega
  have a2 : ((((cfg0.win 2).blk t).view.emb j) 2).val = (j 2).val := by
    show win0_2.index t (2 : Fin 3) * 128 + 1 * (j 2).val = (j 2).val; omega
  refine accAt_congr m c _ _ _ _ (by rw [a0]; omega) _ _ (funext fun a => Fin.ext ?_)
  match a with
  | ⟨0, _⟩ => exact a1.symm
  | ⟨1, _⟩ => exact a2.symm

/-- An index of the first result array is in point `t`'s block iff each coordinate is in the block's range on its axis. -/
theorem mem_blk2 (t : Fin cfg0.N) (i : S2x8192x128.Idx) :
    i ∈ ((cfg0.win 2).blk t).view.set ↔ ∀ a : Fin 3, win0_2.index t a * S1x8192x128.size a ≤ (i a).val
      ∧ (i a).val < win0_2.index t a * S1x8192x128.size a + S1x8192x128.size a := by
  show i ∈ ((View.whole main_v2_0).slice (win0_2.rect t)).set ↔ _
  rw [View.set_slice_whole, Rect.mem_set_unit]
  exact Iff.rfl

/-- Every index of the first result array lies in the block of its channel's last tile. -/
theorem cover2 (i : S2x8192x128.Idx) :
    ∃ t : Fin cfg0.N, (cfg0.win 2).flush t = true ∧ i ∈ ((cfg0.win 2).blk t).view.set := by
  have hi0 : (i 0).val < 2 := (i 0).isLt
  have hi1 : (i 1).val < 8192 := (i 1).isLt
  have hi2 : (i 2).val < 128 := (i 2).isLt
  have ht : (⟨8 * (i 0).val + 7, lastPt_lt _ hi0⟩ : Fin cfg0.N).val = 8 * (i 0).val + 7 := rfl
  obtain ⟨e0, e1, e2⟩ := idx_facts2 ⟨8 * (i 0).val + 7, lastPt_lt _ hi0⟩
  refine ⟨⟨8 * (i 0).val + 7, lastPt_lt _ hi0⟩, (flush0_2 _).mpr (by rw [ht]; omega), ?_⟩
  rw [mem_blk2]
  intro a
  match a with
  | ⟨0, _⟩ =>
    show win0_2.index ⟨8 * (i 0).val + 7, lastPt_lt _ hi0⟩ (0 : Fin 3) * 1 ≤ (i 0).val
      ∧ (i 0).val < win0_2.index ⟨8 * (i 0).val + 7, lastPt_lt _ hi0⟩ (0 : Fin 3) * 1 + 1
    rw [e0, ht]; omega
  | ⟨1, _⟩ =>
    show win0_2.index ⟨8 * (i 0).val + 7, lastPt_lt _ hi0⟩ (1 : Fin 3) * 8192 ≤ (i 1).val
      ∧ (i 1).val < win0_2.index ⟨8 * (i 0).val + 7, lastPt_lt _ hi0⟩ (1 : Fin 3) * 8192 + 8192
    rw [e1]; omega
  | ⟨2, _⟩ =>
    show win0_2.index ⟨8 * (i 0).val + 7, lastPt_lt _ hi0⟩ (2 : Fin 3) * 128 ≤ (i 2).val
      ∧ (i 2).val < win0_2.index ⟨8 * (i 0).val + 7, lastPt_lt _ hi0⟩ (2 : Fin 3) * 128 + 128
    rw [e2]; omega

theorem arr2_final (c : Dev nD) : (dats m 0 c).arrAt 2 cfg0.N = G2 m c :=
  (dats m 0 c).arrAt_eq_of_cover 2 (G2 m c) (fun t hf => flushed2_eq m c t hf) cover2

/-- What a channel's last tile writes back to the second result array is its block of `G3`. -/
theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  show (cfg0.win 3).cut (grid0.coords t) ((dats m 0 c).after 3 t) = _
  rw [after_3]
  obtain ⟨e0, e1, e2⟩ := idx_facts3 t
  funext j
  show outN m c t j = G3 m c (((cfg0.win 3).blk t).view.emb j)
  have hj0 : (j 0).val < 1 := (j 0).isLt
  have hj1 : (j 1).val < 8416 := (j 1).isLt
  have hj2 : (j 2).val < 128 := (j 2).isLt
  have a0 : ((((cfg0.win 3).blk t).view.emb j) 0).val = t.val / 8 := by
    show win0_3.index t (0 : Fin 3) * 1 + 1 * (j 0).val = t.val / 8; omega
  have a1 : ((((cfg0.win 3).blk t).view.emb j) 1).val = (j 1).val := by
    show win0_3.index t (1 : Fin 3) * 8416 + 1 * (j 1).val = (j 1).val; omega
  have a2 : ((((cfg0.win 3).blk t).view.emb j) 2).val = (j 2).val := by
    show win0_3.index t (2 : Fin 3) * 128 + 1 * (j 2).val = (j 2).val; omega
  unfold G3
  by_cases h : (j 1).val < 224
  · rw [dif_pos (show ((((cfg0.win 3).blk t).view.emb j) 1).val < 224 by rw [a1]; exact h)]
    refine (outN_apply_lt m c t j h).trans ?_
    refine accAt_congr m c _ _ _ _ (by rw [a0]; omega) _ _ (funext fun a => Fin.ext ?_)
    match a with
    | ⟨0, _⟩ => show 8192 + (j 1).val = 8192 + ((((cfg0.win 3).blk t).view.emb j) 1).val; rw [a1]
    | ⟨1, _⟩ => exact a2.symm
  · rw [dif_neg (show ¬((((cfg0.win 3).blk t).view.emb j) 1).val < 224 by rw [a1]; exact h)]
    exact outN_apply_ge m c t j h

/-- An index of the second result array is in point `t`'s block iff each coordinate is in the block's range on its axis. -/
theorem mem_blk3 (t : Fin cfg0.N) (i : S2x8416x128.Idx) :
    i ∈ ((cfg0.win 3).blk t).view.set ↔ ∀ a : Fin 3, win0_3.index t a * S1x8416x128.size a ≤ (i a).val
      ∧ (i a).val < win0_3.index t a * S1x8416x128.size a + S1x8416x128.size a := by
  show i ∈ ((View.whole main_v2_1).slice (win0_3.rect t)).set ↔ _
  rw [View.set_slice_whole, Rect.mem_set_unit]
  exact Iff.rfl

/-- Every index of the second result array lies in the block of its channel's last tile. -/
theorem cover3 (i : S2x8416x128.Idx) :
    ∃ t : Fin cfg0.N, (cfg0.win 3).flush t = true ∧ i ∈ ((cfg0.win 3).blk t).view.set := by
  have hi0 : (i 0).val < 2 := (i 0).isLt
  have hi1 : (i 1).val < 8416 := (i 1).isLt
  have hi2 : (i 2).val < 128 := (i 2).isLt
  have ht : (⟨8 * (i 0).val + 7, lastPt_lt _ hi0⟩ : Fin cfg0.N).val = 8 * (i 0).val + 7 := rfl
  obtain ⟨e0, e1, e2⟩ := idx_facts3 ⟨8 * (i 0).val + 7, lastPt_lt _ hi0⟩
  refine ⟨⟨8 * (i 0).val + 7, lastPt_lt _ hi0⟩, (flush0_3 _).mpr (by rw [ht]; omega), ?_⟩
  rw [mem_blk3]
  intro a
  match a with
  | ⟨0, _⟩ =>
    show win0_3.index ⟨8 * (i 0).val + 7, lastPt_lt _ hi0⟩ (0 : Fin 3) * 1 ≤ (i 0).val
      ∧ (i 0).val < win0_3.index ⟨8 * (i 0).val + 7, lastPt_lt _ hi0⟩ (0 : Fin 3) * 1 + 1
    rw [e0, ht]; omega
  | ⟨1, _⟩ =>
    show win0_3.index ⟨8 * (i 0).val + 7, lastPt_lt _ hi0⟩ (1 : Fin 3) * 8416 ≤ (i 1).val
      ∧ (i 1).val < win0_3.index ⟨8 * (i 0).val + 7, lastPt_lt _ hi0⟩ (1 : Fin 3) * 8416 + 8416
    rw [e1]; omega
  | ⟨2, _⟩ =>
    show win0_3.index ⟨8 * (i 0).val + 7, lastPt_lt _ hi0⟩ (2 : Fin 3) * 128 ≤ (i 2).val
      ∧ (i 2).val < win0_3.index ⟨8 * (i 0).val + 7, lastPt_lt _ hi0⟩ (2 : Fin 3) * 128 + 128
    rw [e2]; omega

theorem arr3_final (c : Dev nD) : (dats m 0 c).arrAt 3 cfg0.N = G3 m c :=
  (dats m 0 c).arrAt_eq_of_cover 3 (G3 m c) (fun t hf => flushed3_eq m c t hf) cover3

end Cert.KernelIdeal.Hand

end
-- ==== Proof.HostPrefix.lean ====
/-
  The two staged arrays as the region finds them.  The host lines before the region only re-lay the arguments: an
  update window's 32768 samples as 256 rows of 128, the snapshot's 1077248 positions as 8416 rows of 128; entry
  (row, lane) is flat position 128 · row + lane.
-/
import proofs.«166608_j62680752718461_1_alg».proof.Proof.AccClosed
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Idealize.ShloMosaic.StableHlo
open scoped BigOperators
variable (m : (ℓ : Loc nD τ sig) → Buf (Elt Ideal) ℓ)

/-- The two arguments at their literal types. -/
abbrev argU (c : Dev nD) : Vec Ideal S256x2x32768 .f32 := m ((c.tc : Thread nD τ).loc main_arg0)
abbrev argS (c : Dev nD) : Vec Ideal S2x1077248 .f32 := m ((c.tc : Thread nD τ).loc main_arg1)

theorem U4_eq (c : Dev nD) :
    U4 m c = shapeCast S256x2x256x128 (argU m c) shapeCasts_S256x2x32768_S256x2x256x128 := by
  show StableHlo.after hostOps0 (fun b => m (c, b)) (Proc.devRef .tc main_v0) = _
  after_results
  rfl

theorem S3_eq (c : Dev nD) :
    S3 m c = shapeCast S2x8416x128 (argS m c) shapeCasts_S2x1077248_S2x8416x128 := by
  show StableHlo.after hostOps0 (fun b => m (c, b)) (Proc.devRef .tc main_v1) = _
  after_results
  rfl

/-- Update window `b` of channel `ch` at (row, lane) is its sample `128 · row + lane`. -/
theorem U4_apply (c : Dev nD) (b : Fin 256) (ch : Fin 2) (rr : Fin 256) (l : Fin 128) :
    U4 m c (ix4 b ch rr l) = argU m c (ix3 b ch (⟨128 * rr.val + l.val, by omega⟩ : Fin 32768)) := by
  rw [U4_eq]
  refine shapeCast_apply _ _ _ _ ?_
  rw [Shape.rowMajor_val_three, Shape.rowMajor_val_four]
  show (b.val * 2 + ch.val) * 32768 + (128 * rr.val + l.val) = ((b.val * 2 + ch.val) * 256 + rr.val) * 128 + l.val
  omega

/-- The snapshot of channel `ch` at (row, lane) is its position `128 · row + lane`. -/
theorem S3_apply (c : Dev nD) (ch : Fin 2) (r : Fin 8416) (l : Fin 128) :
    S3 m c (ix3 ch r l) = argS m c (ix2 ch (⟨128 * r.val + l.val, by omega⟩ : Fin 1077248)) := by
  rw [S3_eq]
  refine shapeCast_apply _ _ _ _ ?_
  rw [Shape.rowMajor_val_two, Shape.rowMajor_val_three]
  show ch.val * 1077248 + (128 * r.val + l.val) = (ch.val * 8416 + r.val) * 128 + l.val
  omega

end Cert.KernelIdeal.Hand

end
-- ==== Proof.KernelValue.lean ====
/-
  What the idealized kernel program computes: its two results are the specification's overlap-add of the two argument
  arrays.  The region leaves the result arrays at the accumulator's rows after each channel's last tile; the host lines
  around it only re-lay rows of 128 as flat positions, position `p` being row `p / 128`, lane `p % 128`, and a window
  that starts at position `4096 · b` starts at row `32 · b`.
-/
import proofs.«166608_j62680752718461_1_alg».proof.Proof.Body
import proofs.«166608_j62680752718461_1_alg».proof.Proof.ArrFinal
import proofs.«166608_j62680752718461_1_alg».proof.Proof.HostPrefix
import proofs.«166608_j62680752718461_1_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators
variable (m : (ℓ : Loc nD τ sig) → Buf (Elt Ideal) ℓ) (ρ : Dev nD → PrngReg)

/-! ## The arithmetic: rows of 128 against flat positions -/

/-- The overlap-add laid out in rows of 128 is the specification's overlap-add of flat positions. -/
theorem rows_ovl (x : S256x2x32768.Idx → EReal) (s : S2x1077248.Idx → EReal)
    (X4 : S256x2x256x128.Idx → EReal) (Y3 : S2x8416x128.Idx → EReal)
    (hX : ∀ (b : Fin 256) (ch : Fin 2) (rr : Fin 256) (l : Fin 128),
      X4 (ix4 b ch rr l) = x (ix3 b ch (⟨128 * rr.val + l.val, by have := rr.isLt; have := l.isLt; omega⟩ : Fin 32768)))
    (hY : ∀ (ch : Fin 2) (r : Fin 8416) (l : Fin 128),
      Y3 (ix3 ch r l) = s (ix2 ch (⟨128 * r.val + l.val, by have := r.isLt; have := l.isLt; omega⟩ : Fin 1077248)))
    (ch : Fin 2) (n : ℕ) (hn : n % 8 = 7) (r : Fin 8416) (l : Fin 128) (p : ℕ) (hp : p < 1077248)
    (hr : r.val = p / 128) (hl : l.val = p % 128) :
    Y3 (ix3 ch r l)
        + ∑ b : Fin 256, (if h : lands n b r
            then X4 (ix4 b ch (⟨r.val - 32 * b.val, by have := h.2.1; have := h.2.2; omega⟩ : Fin 256) l) * ((1 / 8 : ℝ) : EReal)
            else 0)
      = Cert.Spec.ovl x s ch p hp := by
  unfold Cert.Spec.ovl
  rw [hY]
  congr 1
  · exact congrArg (fun t => s (ix2 ch t)) (Fin.ext (by show 128 * r.val + l.val = p; omega))
  · refine Finset.sum_congr rfl fun b _ => ?_
    by_cases h : lands n b r
    · have h' : Cert.Spec.covers b p := by
        obtain ⟨_, h1, h2⟩ := h
        constructor <;> omega
      rw [dif_pos h, dif_pos h', hX]
      exact congrArg (fun t => x (ix3 b ch t) * ((1 / 8 : ℝ) : EReal))
        (Fin.ext (by show 128 * (r.val - 32 * b.val) + l.val = p - 4096 * b.val; obtain ⟨_, h1, h2⟩ := h; omega))
    · have h' : ¬ Cert.Spec.covers b p := by
        intro hc
        apply h
        obtain ⟨h1, h2⟩ := hc
        have := b.isLt
        refine ⟨by omega, by omega, by omega⟩
      rw [dif_neg h, dif_neg h']

/-! ## The host lines after the region -/

/-- What the region leaves in the first result array, read where the host lines after it read it. -/
theorem arrW2 (c : Dev nD) :
    (Pipeline.withArrays (cfgs 0).spec c (V0 m c) (fun w => (dats m 0 c).arrAt w (cfgs 0).N) (Proc.devRef .tc main_v2_0) : S2x8192x128.Idx → EReal)
      = G2 m c :=
  (Pipeline.withArrays_arr spec0 launch0.win.arr_inj c _ _ (2 : Fin 4)).trans (arr2_final m c)

/-- The same for the second result array. -/
theorem arrW3 (c : Dev nD) :
    (Pipeline.withArrays (cfgs 0).spec c (V0 m c) (fun w => (dats m 0 c).arrAt w (cfgs 0).N) (Proc.devRef .tc main_v2_1) : S2x8416x128.Idx → EReal)
      = G3 m c :=
  (Pipeline.withArrays_arr spec0 launch0.win.arr_inj c _ _ (3 : Fin 4)).trans (arr3_final m c)

/-- The first result: the first result array's rows read flat, under a new leading axis of extent one. -/
theorem tail4 (c : Dev nD) : Pipeline.afterTail₀ cfgs (dats m) 0 (V0 m) [hostOps1] c main_v4
    = broadcastInDim S1x2x1048576 ![1, 2] bcast_S2x1048576_S1x2x1048576_1_2
        (shapeCast S2x1048576 (G2 m c) shapeCasts_S2x8192x128_S2x1048576) := by
  unfold Pipeline.afterTail₀
  show StableHlo.after hostOps1 _ (Proc.devRef .tc main_v4) = _
  after_results
  rw [arrW2 m c]
  rfl

/-- The second result: the second result array's rows read flat. -/
theorem tail5 (c : Dev nD) : Pipeline.afterTail₀ cfgs (dats m) 0 (V0 m) [hostOps1] c main_v5
    = shapeCast S2x1077248 (G3 m c) shapeCasts_S2x8416x128_S2x1077248 := by
  unfold Pipeline.afterTail₀
  show StableHlo.after hostOps1 _ (Proc.devRef .tc main_v5) = _
  after_results
  rw [arrW3 m c]
  rfl

/-- The rows of the first result array read flat under a leading unit axis: position p is row p / 128, lane p % 128. -/
theorem flat4_apply (A : S2x8192x128.Idx → EReal) (j : S1x2x1048576.Idx) :
    (broadcastInDim S1x2x1048576 ![1, 2] bcast_S2x1048576_S1x2x1048576_1_2
        (shapeCast S2x1048576 A shapeCasts_S2x8192x128_S2x1048576) : S1x2x1048576.Idx → EReal) j
      = A (ix3 (⟨(j 1).val, (j 1).isLt⟩ : Fin 2) (⟨(j 2).val / 128, by have h : (j 2).val < 1048576 := (j 2).isLt; omega⟩ : Fin 8192)
          (⟨(j 2).val % 128, Nat.mod_lt _ (by decide)⟩ : Fin 128)) := by
  refine (broadcastInDim_apply _ _ _ j (ix2 (⟨(j 1).val, (j 1).isLt⟩ : Fin 2) (⟨(j 2).val, (j 2).isLt⟩ : Fin 1048576)) ?_).trans ?_
  · intro a
    fin_cases a
    · rfl
    · rfl
  · refine shapeCast_apply _ _ _ _ ?_
    rw [Shape.rowMajor_val_two, Shape.rowMajor_val_three]
    show ((j 1).val * 8192 + (j 2).val / 128) * 128 + (j 2).val % 128 = (j 1).val * 1048576 + (j 2).val
    omega

/-- The rows of the second result array read flat. -/
theorem flat5_apply (A : S2x8416x128.Idx → EReal) (j : S2x1077248.Idx) :
    (shapeCast S2x1077248 A shapeCasts_S2x8416x128_S2x1077248 : S2x1077248.Idx → EReal) j
      = A (ix3 (⟨(j 0).val, (j 0).isLt⟩ : Fin 2) (⟨(j 1).val / 128, by have h : (j 1).val < 1077248 := (j 1).isLt; omega⟩ : Fin 8416)
          (⟨(j 1).val % 128, Nat.mod_lt _ (by decide)⟩ : Fin 128)) := by
  refine shapeCast_apply _ _ _ _ ?_
  rw [Shape.rowMajor_val_two, Shape.rowMajor_val_three]
  show ((j 0).val * 8416 + (j 1).val / 128) * 128 + (j 1).val % 128 = (j 0).val * 1077248 + (j 1).val
  omega

/-! ## The two results are the specification's -/

theorem G2_apply (c : Dev nD) (ch : Fin 2) (r : Fin 8192) (l : Fin 128) :
    G2 m c (ix3 ch r l)
      = accAt m c (8 * ch.val + 7) (lastPt_lt _ ch.isLt) (ix2 (⟨r.val, by have := r.isLt; omega⟩ : Fin 8416) l) := rfl

theorem G3_apply (c : Dev nD) (ch : Fin 2) (r : Fin 8416) (l : Fin 128) :
    G3 m c (ix3 ch r l)
      = if h : r.val < 224 then accAt m c (8 * ch.val + 7) (lastPt_lt _ ch.isLt) (ix2 (⟨8192 + r.val, by omega⟩ : Fin 8416) l) else 0 := rfl

/-- A channel's last tile belongs to the channel. -/
theorem chOf_last (ch : Fin 2) : chOf (8 * ch.val + 7) (lastPt_lt _ ch.isLt) = ch :=
  Fin.ext (by show (8 * ch.val + 7) / 8 = ch.val; omega)

/-- The accumulator after a channel's last tile, at the row and lane of flat position p, is the overlap-add there. -/
theorem acc_last (c : Dev nD) (ch : Fin 2) (r : Fin 8416) (l : Fin 128) (p : ℕ) (hp : p < 1077248)
    (hr : r.val = p / 128) (hl : l.val = p % 128) :
    accAt m c (8 * ch.val + 7) (lastPt_lt _ ch.isLt) (ix2 r l)
      = Cert.Spec.ovl (m ((c.tc : Thread nD τ).loc main_arg0)) (m ((c.tc : Thread nD τ).loc main_arg1)) ch p hp := by
  have key := accAt_apply m c (8 * ch.val + 7) (lastPt_lt _ ch.isLt) r l
  rw [chOf_last ch] at key
  exact key.trans (rows_ovl _ _ (U4 m c) (S3 m c) (U4_apply m c) (S3_apply m c) ch (8 * ch.val + 7) (by omega) r l p hp hr hl)

/-- The first result is the specification's. -/
theorem v4_spec (c : Dev nD) : Pipeline.afterTail₀ cfgs (dats m) 0 (V0 m) [hostOps1] c main_v4
    = Cert.Spec.out0 (m ((c.tc : Thread nD τ).loc main_arg0)) (m ((c.tc : Thread nD τ).loc main_arg1)) := by
  rw [tail4]
  funext j
  rw [flat4_apply, G2_apply]
  exact acc_last m c _ _ _ (j 2).val _ rfl rfl

/-- The second result is the specification's: 28672 positions are 224 rows. -/
theorem v5_spec (c : Dev nD) : Pipeline.afterTail₀ cfgs (dats m) 0 (V0 m) [hostOps1] c main_v5
    = Cert.Spec.out1 (m ((c.tc : Thread nD τ).loc main_arg0)) (m ((c.tc : Thread nD τ).loc main_arg1)) := by
  rw [tail5]
  funext j
  rw [flat5_apply, G3_apply]
  unfold Cert.Spec.out1
  by_cases h : (j 1).val < 28672
  · have h' : (j 1).val / 128 < 224 := by omega
    rw [dif_pos h, dif_pos h']
    exact acc_last m c _ _ _ (1048576 + (j 1).val) _ (by show 8192 + (j 1).val / 128 = (1048576 + (j 1).val) / 128; omega)
      (by show (j 1).val % 128 = (1048576 + (j 1).val) % 128; omega)
  · have h' : ¬ (j 1).val / 128 < 224 := by omega
    rw [dif_neg h, dif_neg h']

/-- Every weakly fair execution of the idealized kernel program terminates with its results at the specification's
    values of the argument arrays, and the arguments unchanged. -/
theorem kernel_run : θ_run defs (onTc (τ := τ) (main (F := Ideal))) ⟨m, fun _ => 0, ρ⟩ (fun r => ∀ c : Dev nD,
      r.2.mem ((c.tc : Thread nD τ).loc main_v4) = Cert.Spec.out0 (m ((c.tc : Thread nD τ).loc main_arg0)) (m ((c.tc : Thread nD τ).loc main_arg1))
      ∧ r.2.mem ((c.tc : Thread nD τ).loc main_v5) = Cert.Spec.out1 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (v4_spec m c),
     ((h c).2 main_v5 (Pipeline.mem_restRefs_of main_v5 (by decide) (by decide))).trans (v5_spec m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand

end
-- ==== Proof.RefLaw.lean ====
/-
  The law of real numbers behind the weighted overlap-add.  A position that `n ≥ 1` windows cover receives, from each of
  them, the snapshot divided by `n` plus that window's own sample; summed over the `n` windows the shares of a FINITE
  snapshot add back to the snapshot itself, `n · (s / n) = s`, and what is left is the sum of the samples.  The samples
  may be any extended reals: only the snapshot has to be a real number.
-/
import Idealize.ShloMosaic.PureOps.Ideal
import Mathlib.Tactic.FieldSimp

noncomputable section

namespace Cert.ReferenceIdeal.RefValue

open Idealize.ShloMosaic
open scoped BigOperators

/-- `n` equal shares of a real number add up to it. -/
theorem nsmul_div_card (n : ℕ) (hn : n ≠ 0) (r : ℝ) :
    n • Ideal.div (r : EReal) ((n : ℝ) : EReal) = (r : EReal) := by
  have hn' : (n : ℝ) ≠ 0 := Nat.cast_ne_zero.mpr hn
  rw [Ideal.div_coe hn', ← EReal.coe_mul, ← EReal.coe_nsmul]
  congr 1
  rw [nsmul_eq_mul]
  field_simp

/-- Summed over a nonempty finite set `J` of `n` elements, `s / n + y j` is `s + ∑ y j` for a real `s`. -/
theorem sum_share_add {ι : Type*} (J : Finset ι) (hJ : J.card ≠ 0) (r : ℝ) (y : ι → EReal) :
    ∑ j ∈ J, (Ideal.div (r : EReal) ((J.card : ℝ) : EReal) + y j) = (r : EReal) + ∑ j ∈ J, y j := by
  rw [Finset.sum_add_distrib, Finset.sum_const, nsmul_div_card _ hJ]

/-- Division by eight is the product with one eighth, at the infinities too. -/
theorem div_eight (x : EReal) : Ideal.div x ((8 : ℝ) : EReal) = x * ((1 / 8 : ℝ) : EReal) :=
  Ideal.div_coe (by norm_num) x

end Cert.ReferenceIdeal.RefValue

end
-- ==== Proof.RefIdx.lean ====
/-
  The index arrays of the reference program, decoded.  The program builds `idx[b, t] = t + 4096 · b` from two iotas as
  32-bit words, guards each use of it by "if negative, add the ring's length" (a branch no entry takes: every entry is
  below 2³¹), and hands it to its gathers and scatters under a trailing axis of extent one, once flattened to one axis
  of 8388608 entries.  Each of those arrays is read here at an index as the word of the natural number
  `4096 · b + t`, and that word read as a signed integer is that number.
-/
import proofs.«166608_j62680752718461_1_alg».proof.Proof.Gen.ReferenceIdeal.Read
import Idealize.ShloMosaic.Lib.ValueIdx
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo.Predicate

variable {F : FTy → Type} [FloatOps F]

/-- The word of a window position read signed is the position: it is below 2³¹. -/
theorem toInt_pos (b t : ℕ) (hb : b < 256) (ht : t < 32768) :
    (BitVec.ofNat 32 (4096 * b + t)).toInt = ((4096 * b + t : ℕ) : Int) :=
  toInt_ofNat_small _ (by omega)

/-- `idx[b, t]` is the word of `4096 · b + t`. -/
theorem v8_word (i : S256x32768.Idx) :
    val_main_v8 (F := F) i = BitVec.ofNat 32 (4096 * (i 0).val + (i 1).val) := by
  have h0 : (i 0).val < 256 := (i 0).isLt
  have h1 : (i 1).val < 32768 := (i 1).isLt
  rw [val_main_v8_apply, val_main_v6_apply, val_main_v1_apply, val_main_v0_apply, val_main_v7_apply,
    val_main_v5_apply, val_main_v4_apply, val_main_v2_apply, val_main_v3_apply, val_main_c_apply]
  show IntOp.addi (BitVec.ofNat 32 (i 1).val) (IntOp.muli (BitVec.ofNat 32 (i 0).val) 4096#32) = _
  apply BitVec.eq_of_toNat_eq
  simp only [IntOp.addi, IntOp.muli, BitVec.toNat_add, BitVec.toNat_mul, BitVec.toNat_ofNat]
  omega

/-- No window position is negative: the signed comparison with zero fails, so the guarded select keeps the position. -/
theorem select_nonneg (n : ℕ) (hn : n < 2 ^ 31) (alt : BitVec 32) :
    Scalar.select (IntOp.cmpi .slt (BitVec.ofNat 32 n) 0#32) alt (BitVec.ofNat 32 n) = BitVec.ofNat 32 n := by
  have hc : ¬ IntOp.cmpi .slt (BitVec.ofNat 32 n) 0#32 = 1#1 := by
    rw [slt_iff_toNat (by rw [BitVec.toNat_ofNat]; omega) (by decide)]
    exact Nat.not_lt_zero _
  exact if_neg hc

/-- The index array the counts' gather reads. -/
theorem v23_word (i : S256x32768.Idx) :
    val_main_v23 (F := F) i = BitVec.ofNat 32 (4096 * (i 0).val + (i 1).val) := by
  have h0 : (i 0).val < 256 := (i 0).isLt
  have h1 : (i 1).val < 32768 := (i 1).isLt
  rw [val_main_v23_apply, val_main_v20_apply, val_main_v19_apply, val_main_c_3_apply, v8_word]
  exact select_nonneg _ (by omega) _

/-- The index array the snapshot's gather reads. -/
theorem v33_word (i : S256x32768.Idx) :
    val_main_v33 (F := F) i = BitVec.ofNat 32 (4096 * (i 0).val + (i 1).val) := by
  have h0 : (i 0).val < 256 := (i 0).isLt
  have h1 : (i 1).val < 32768 := (i 1).isLt
  rw [val_main_v33_apply, val_main_v30_apply, val_main_v29_apply, val_main_c_6_apply, v8_word]
  exact select_nonneg _ (by omega) _

/-- The index array the accumulating scatter reads. -/
theorem v45_word (i : S256x32768.Idx) :
    val_main_v45 (F := F) i = BitVec.ofNat 32 (4096 * (i 0).val + (i 1).val) := by
  have h0 : (i 0).val < 256 := (i 0).isLt
  have h1 : (i 1).val < 32768 := (i 1).isLt
  rw [val_main_v45_apply, val_main_v42_apply, val_main_v41_apply, val_main_c_9_apply, v8_word]
  exact select_nonneg _ (by omega) _

/-- The flattened index array the counting scatter reads: entry `n` is window `n / 32768`, sample `n % 32768`. -/
theorem v15_word (i : S8388608.Idx) :
    val_main_v15 (F := F) i = BitVec.ofNat 32 (4096 * ((i 0).val / 32768) + (i 0).val % 32768) := by
  have h0 : (i 0).val < 8388608 := (i 0).isLt
  rw [val_main_v15_apply, val_main_v12_apply, val_main_v11_apply, val_main_c_0_apply, val_main_v10_apply, v8_word]
  exact select_nonneg _ (by show 4096 * ((i 0).val / 32768) + (i 0).val % 32768 < 2 ^ 31; omega) _

/-- The same arrays under their trailing unit axis. -/
theorem v16_word (i : S8388608x1.Idx) :
    val_main_v16 (F := F) i = BitVec.ofNat 32 (4096 * ((i 0).val / 32768) + (i 0).val % 32768) := by
  rw [val_main_v16_apply, v15_word]
theorem v24_word (i : S256x32768x1.Idx) :
    val_main_v24 (F := F) i = BitVec.ofNat 32 (4096 * (i 0).val + (i 1).val) := by
  rw [val_main_v24_apply, v23_word]
theorem v34_word (i : S256x32768x1.Idx) :
    val_main_v34 (F := F) i = BitVec.ofNat 32 (4096 * (i 0).val + (i 1).val) := by
  rw [val_main_v34_apply, v33_word]
theorem v46_word (i : S256x32768x1.Idx) :
    val_main_v46 (F := F) i = BitVec.ofNat 32 (4096 * (i 0).val + (i 1).val) := by
  rw [val_main_v46_apply, v45_word]

end Cert.ReferenceIdeal.RefValue

end
-- ==== Proof.RefCover.lean ====
/-
  The windows that cover a ring position.  Window `b` covers position `p` when `4096 · b ≤ p < 4096 · b + 32768`; the
  sample of window `b` that falls on `p` is then sample `p − 4096 · b`.  Every position below 1077248 is covered by
  at least one window (window `min (p / 4096) 255`), and the overlap-add of the specification is a sum over the
  covering windows alone.
-/
import proofs.«166608_j62680752718461_1_alg».proof.Proof.Spec

noncomputable section

namespace Cert.ReferenceIdeal.RefValue

open Idealize.ShloMosaic Idealize.ShloMosaic.ValueIdx
open scoped BigOperators

/-- The windows that cover position `p`. -/
def W (p : ℕ) : Finset (Fin 256) := Finset.univ.filter (fun b => Cert.Spec.covers b p)

theorem mem_W {p : ℕ} {b : Fin 256} : b ∈ W p ↔ 4096 * b.val ≤ p ∧ p < 4096 * b.val + 32768 := by
  unfold W
  rw [Finset.mem_filter]
  exact ⟨fun h => h.2, fun h => ⟨Finset.mem_univ _, h⟩⟩

/-- The sample of window `b` that falls on position `p`, as a total function: `p − 4096 · b` when `b` covers `p`. -/
def tOf (p : ℕ) (b : Fin 256) : Fin 32768 := ⟨(p - 4096 * b.val) % 32768, Nat.mod_lt _ (by decide)⟩

theorem tOf_val (p : ℕ) (b : Fin 256) : (tOf p b).val = (p - 4096 * b.val) % 32768 := rfl

/-- Every ring position is covered. -/
theorem W_card_ne_zero (p : ℕ) (hp : p < 1077248) : (W p).card ≠ 0 := by
  apply Finset.card_ne_zero.mpr
  by_cases h : p / 4096 ≤ 255
  · refine ⟨⟨p / 4096, by omega⟩, ?_⟩
    rw [mem_W]
    show 4096 * (p / 4096) ≤ p ∧ p < 4096 * (p / 4096) + 32768
    omega
  · refine ⟨⟨255, by decide⟩, ?_⟩
    rw [mem_W]
    show 4096 * 255 ≤ p ∧ p < 4096 * 255 + 32768
    omega

/-- The overlap-add as a sum over the covering windows. -/
theorem ovl_eq (x : Cert.Spec.SU.Idx → EReal) (s : Cert.Spec.SS.Idx → EReal) (c : Fin 2) (p : ℕ) (hp : p < 1077248) :
    Cert.Spec.ovl x s c p hp
      = s (ix2 c ⟨p, hp⟩) + ∑ b ∈ W p, x (ix3 b c (tOf p b)) * ((1 / 8 : ℝ) : EReal) := by
  unfold Cert.Spec.ovl W
  rw [Finset.sum_filter]
  congr 1
  apply Finset.sum_congr rfl
  intro b _
  by_cases h : Cert.Spec.covers b p
  · rw [dif_pos h, if_pos h]
    congr 3
    apply Fin.ext
    have h1 := h.1
    have h2 := h.2
    show p - 4096 * b.val = (p - 4096 * b.val) % 32768
    omega
  · rw [dif_neg h, if_neg h]

end Cert.ReferenceIdeal.RefValue

end
-- ==== Proof.RefScatter.lean ====
/-
  Where an update of a scatter lands.  An update index lands on operand index `i` exactly when, on every operand axis,
  the start read off the scatter indices plus the window coordinate is `i`'s coordinate; for the two scatters of the
  reference program the start and window coordinates are computed on each axis.
-/
import proofs.«166608_j62680752718461_1_alg».proof.Proof.Gen.ReferenceIdeal.Read
import Idealize.ShloMosaic.Lib.ValueIdx
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo.Predicate

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      have e := Option.some.inj h
      intro a
      have ha := hh a
      rw [← e]
      show _ = (((d.start j idx a + (d.window j a : Int)).toNat : Nat) : Int)
      omega
    · exact absurd h (by simp)
  · intro h
    have hh : ∀ a, 0 ≤ d.start j idx a + (d.window j a : Int) ∧ d.start j idx a + (d.window j a : Int) < (s.size a : Int) := by
      intro a; rw [h a]; exact ⟨Int.natCast_nonneg _, by exact_mod_cast (i a).isLt⟩
    rw [dif_pos hh]
    congr 1; funext a; apply Fin.ext
    show (d.start j idx a + (d.window j a : Int)).toNat = (i a).val
    rw [h a]; exact Int.toNat_natCast _

abbrev d1 := scatter_S1077248_S8388608x1_S8388608_n_0_0_1
abbrev d2 := scatter_S2x1077248_S256x32768x1_S2x256x32768_0_1_1_2

theorem d1_start (j : S8388608.Idx) (idx : IVec S8388608x1 32) :
    d1.start j idx 0 = (idx (ix2 ⟨(j 0).val, (j 0).isLt⟩ (0 : Fin 1))).toInt := by
  unfold ScatterDims.start
  rw [dif_pos (show (0 : Fin 1) ∈ d1.scatterDimsToOperandDims from List.mem_singleton.mpr rfl)]
  congr 2
  funext b
  match b with
  | ⟨0, _⟩ => rfl
  | ⟨1, _⟩ => rfl

theorem d1_window (j : S8388608.Idx) : d1.window j 0 = 0 := by
  unfold ScatterDims.window
  rw [dif_neg (show ¬ (0 : Fin 1) ∈ d1.sKept from by decide)]

theorem d2_start0 (j : S2x256x32768.Idx) (idx : IVec S256x32768x1 32) : d2.start j idx 0 = 0 := by
  unfold ScatterDims.start
  rw [dif_neg (show ¬ (0 : Fin 2) ∈ d2.scatterDimsToOperandDims from by decide)]

theorem d2_start1 (j : S2x256x32768.Idx) (idx : IVec S256x32768x1 32) :
    d2.start j idx 1 = (idx (ix3 ⟨(j 1).val, (j 1).isLt⟩ ⟨(j 2).val, (j 2).isLt⟩ (0 : Fin 1))).toInt := by
  unfold ScatterDims.start
  rw [dif_pos (show (1 : Fin 2) ∈ d2.scatterDimsToOperandDims from List.mem_singleton.mpr rfl)]
  congr 2
  funext b
  match b with
  | ⟨0, _⟩ => rfl
  | ⟨1, _⟩ => rfl
  | ⟨2, _⟩ => rfl

theorem d2_window0 (j : S2x256x32768.Idx) : d2.window j 0 = (j 0).val := by
  unfold ScatterDims.window
  rw [dif_pos (show (0 : Fin 2) ∈ d2.sKept from by decide)]
  rfl

theorem d2_window1 (j : S2x256x32768.Idx) : d2.window j 1 = 0 := by
  unfold ScatterDims.window
  rw [dif_neg (show ¬ (1 : Fin 2) ∈ d2.sKept from by decide)]

end Cert.ReferenceIdeal.RefValue
end
-- ==== Proof.RefCounts.lean ====
/-
  The counting scatter of the reference program.  Its update `n` (window `n / 32768`, sample `n % 32768`) is a one that
  lands on ring position `4096 · (n / 32768) + n % 32768`, a number below the ring's length, so no update is dropped;
  the updates that land on a position `p` correspond one to one to the windows that cover `p` (window `b` by its
  sample `p − 4096 · b`), so the counts at `p` are the number of covering windows.
-/
import proofs.«166608_j62680752718461_1_alg».proof.Proof.Gen.ReferenceIdeal.Read
import proofs.«166608_j62680752718461_1_alg».proof.Proof.Spec
import proofs.«166608_j62680752718461_1_alg».proof.Proof.RefIdx
import proofs.«166608_j62680752718461_1_alg».proof.Proof.RefCover
import proofs.«166608_j62680752718461_1_alg».proof.Proof.RefScatter
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo.Predicate
open scoped BigOperators

variable {F : FTy → Type} [FloatOps F]

/-- The accumulating float scatter over the extended reals, read at an index: the operand there plus the sum of the updates
    that land there. -/
theorem scatterAdd_ideal_apply {s si su : Shape} (d : ScatterDims s si su) {w : Nat} (x : s.Idx → EReal) (idx : IVec si w)
    (upd : su.Idx → EReal) (i : s.Idx) :
    Host.scatterAdd (F := Ideal) (φ := .f32) d x idx upd i
      = x i + ∑ j ∈ Finset.univ.filter (fun j => d.resultIdx? j idx = some i), upd j := rfl

/-- The counts are the counting scatter of ones into zeros. -/
theorem v18_eq : val_main_v18 (F := Ideal)
    = Host.scatterAdd (F := Ideal) (φ := .f32) d1 (val_main_v9 (F := Ideal)) (val_main_v16 (F := Ideal)) (val_main_v17 (F := Ideal)) := rfl

/-- The counts at a position are the number of windows that cover it, given where each update of the counting scatter
    lands: update `n` lands on position `4096 · (n / 32768) + n % 32768`, so the updates landing on `p` are the pairs
    (window `b` covering `p`, sample `p − 4096 · b`), one per covering window, and each adds a one to a zero. -/
theorem counts_of_hits
    (hits : ∀ (j : S8388608.Idx) (i : S1077248.Idx), d1.resultIdx? j (val_main_v16 (F := Ideal)) = some i
      ↔ 4096 * ((j 0).val / 32768) + (j 0).val % 32768 = (i 0).val)
    (i : S1077248.Idx) :
    val_main_v18 (F := Ideal) i = (((W (i 0).val).card : ℝ) : EReal) := by
  have hp : (i 0).val < 1077248 := (i 0).isLt
  have hW : (((W (i 0).val).card : ℝ) : EReal) = ∑ b ∈ W (i 0).val, (1 : EReal) := by
    rw [Finset.sum_const, nsmul_one]
    exact EReal.coe_natCast
  rw [v18_eq, scatterAdd_ideal_apply, val_main_v9_apply, val_main_cst_apply, Ideal.ofBits_def, Cert.Spec.ofBits_zero,
    zero_add, hW]
  refine Finset.sum_nbij'
    (fun j => (⟨(j 0).val / 32768, by have hj0 : (j 0).val < 8388608 := (j 0).isLt; omega⟩ : Fin 256))
    (fun b => ix1 (⟨32768 * b.val + (tOf (i 0).val b).val,
      by have hb := b.isLt; have ht := (tOf (i 0).val b).isLt; omega⟩ : Fin 8388608)) ?_ ?_ ?_ ?_ ?_
  · intro j hj
    have hj0 : (j 0).val < 8388608 := (j 0).isLt
    have e := (hits j i).mp (Finset.mem_filter.mp hj).2
    rw [mem_W]
    show 4096 * ((j 0).val / 32768) ≤ (i 0).val ∧ (i 0).val < 4096 * ((j 0).val / 32768) + 32768
    omega
  · intro b hb
    rw [mem_W] at hb
    have hb' := b.isLt
    refine Finset.mem_filter.mpr ⟨Finset.mem_univ _, (hits _ i).mpr ?_⟩
    show 4096 * ((32768 * b.val + (tOf (i 0).val b).val) / 32768)
      + (32768 * b.val + (tOf (i 0).val b).val) % 32768 = (i 0).val
    rw [tOf_val]
    omega
  · intro j hj
    have hj0 : (j 0).val < 8388608 := (j 0).isLt
    have e := (hits j i).mp (Finset.mem_filter.mp hj).2
    funext a
    match a with
    | ⟨0, _⟩ =>
      apply Fin.ext
      show 32768 * ((j 0).val / 32768) + ((i 0).val - 4096 * ((j 0).val / 32768)) % 32768 = (j 0).val
      omega
  · intro b hb
    have ht := (tOf (i 0).val b).isLt
    apply Fin.ext
    show (32768 * b.val + (tOf (i 0).val b).val) / 32768 = b.val
    omega
  · intro j hj
    rw [val_main_v17_apply, val_main_cst_2_apply]
    exact Cert.Spec.ofBits_one

end Cert.ReferenceIdeal.RefValue

end
-- ==== Proof.RefHits.lean ====
/-
  The two gathers and the two scatters of the reference program, read at an index.  Every start index the program hands
  them is the word of `4096 · b + t` for a window `b` and a sample `t`, a number below the ring's length, so no gather
  is clamped and no update is dropped: the snapshot's gather reads the snapshot at `(c, 4096 · b + t)`, the counts'
  gather reads the counts at `4096 · b + t`, an update of the counting scatter lands on position `4096 · b + t` (its
  flat coordinate being `32768 · b + t`), an update `(c, b, t)` of the accumulating scatter lands on `(c, 4096 · b + t)`;
  and the counts at a position are the number of windows that cover it.
-/
import proofs.«166608_j62680752718461_1_alg».proof.Proof.Gen.ReferenceIdeal.Read
import proofs.«166608_j62680752718461_1_alg».proof.Proof.RefIdx
import proofs.«166608_j62680752718461_1_alg».proof.Proof.RefCover
import proofs.«166608_j62680752718461_1_alg».proof.Proof.RefScatter
import proofs.«166608_j62680752718461_1_alg».proof.Proof.RefCounts
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo.Predicate
open scoped BigOperators

variable {F : FTy → Type} [FloatOps F]

abbrev g1 := gather_S1077248_S256x32768x1_S256x32768_n_0_n_n_0_2_1
abbrev g2 := gather_S2x1077248_S256x32768x1_S2x256x32768_0_1_n_n_1_2_21

/-- A window position is below the ring's length; a channel is below two. -/
theorem pos_lt (b t : ℕ) (hb : b < 256) (ht : t < 32768) : 4096 * b + t < 1077248 := by omega
theorem win2_lt (i : S256x32768.Idx) : 4096 * (i 0).val + (i 1).val < 1077248 := pos_lt _ _ (i 0).isLt (i 1).isLt
theorem win3_lt (j : S2x256x32768.Idx) : 4096 * (j 1).val + (j 2).val < 1077248 := pos_lt _ _ (j 1).isLt (j 2).isLt
theorem chan_lt (j : S2x256x32768.Idx) : (j 0).val < 2 := (j 0).isLt

/-- The snapshot's gather at `(c, b, t)` is the snapshot at `(c, 4096 · b + t)`. -/
theorem gather2_apply (x1 : (⟨S2x1077248, .f32⟩ : BufTy).Contents (Elt F)) (j : S2x256x32768.Idx) :
    val_main_v35 (F := F) x1 j
      = x1 (ix2 (⟨(j 0).val, chan_lt j⟩ : Fin 2)
          (⟨4096 * (j 1).val + (j 2).val, win3_lt j⟩ : Fin 1077248)) := by
  have h0 : (j 0).val < 2 := (j 0).isLt
  have h1 : (j 1).val < 256 := (j 1).isLt
  have h2 : (j 2).val < 32768 := (j 2).isLt
  unfold val_main_v35 Host.gather
  congr 1
  funext a
  refine Fin.ext ?_
  match a with
  | ⟨0, _⟩ =>
    show g2.start j _ 0 + g2.batchCoord j 0 + g2.offCoord j 0 = (j 0).val
    rw [GatherDims.batchCoord_eq_zero _ _ _ List.not_mem_nil]
    unfold GatherDims.start
    rw [dif_neg (show ¬ (0 : Fin 2) ∈ g2.startIndexMap from by decide)]
    unfold GatherDims.offCoord
    rw [dif_pos (show (0 : Fin 2) ∈ g2.sKept from by decide)]
    simp only [Nat.zero_add, Nat.add_zero]
    rfl
  | ⟨1, _⟩ =>
    show g2.start j _ 1 + g2.batchCoord j 1 + g2.offCoord j 1 = 4096 * (j 1).val + (j 2).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ g2.startIndexMap from List.mem_singleton.mpr rfl)]
    have hsi : g2.siIdx j ⟨List.idxOf (1 : Fin 2) g2.startIndexMap, List.idxOf_lt_length_iff.2 (List.mem_singleton.mpr rfl)⟩
        = ix3 (⟨(j 1).val, h1⟩ : Fin 256) (⟨(j 2).val, h2⟩ : Fin 32768) (0 : Fin 1) := by
      funext b; refine Fin.ext ?_
      match b with
      | ⟨0, _⟩ => rfl
      | ⟨1, _⟩ => rfl
      | ⟨2, _⟩ => rfl
    rw [hsi, v34_word]
    show min (BitVec.ofNat 32 (4096 * (j 1).val + (j 2).val)).toInt.toNat (1077248 - 1) = _
    rw [toInt_pos _ _ h1 h2, Int.toNat_natCast]
    omega

/-- The counts' gather at `(b, t)` is the counts at `4096 · b + t`. -/
theorem gather1_apply (i : S256x32768.Idx) :
    val_main_v25 (F := F) i
      = val_main_v18 (F := F) (ix1 (⟨4096 * (i 0).val + (i 1).val, win2_lt i⟩ : Fin 1077248)) := by
  have h0 : (i 0).val < 256 := (i 0).isLt
  have h1 : (i 1).val < 32768 := (i 1).isLt
  have e : gather_S1077248_S256x32768x1_S256x32768_n_0_n_n_0_2_1 = takeDims 1077248 256 32768 gather_S1077248_S256x32768x1_S256x32768_n_0_n_n_0_2_1_wf := rfl
  have hw : val_main_v24 (F := F) (takeIdx i) = BitVec.ofNat 32 (4096 * (i 0).val + (i 1).val) := v24_word _
  unfold val_main_v25
  rw [e, gather_take_apply (by decide)]
  congr 2
  apply Fin.ext
  show min (BitVec.toInt (val_main_v24 (F := F) (takeIdx i))).toNat (1077248 - 1) = 4096 * (i 0).val + (i 1).val
  rw [hw, toInt_pos _ _ h0 h1, Int.toNat_natCast]
  omega

/-- Update `n` of the counting scatter lands on position `4096 · (n / 32768) + n % 32768`. -/
theorem d1_hits (j : S8388608.Idx) (i : S1077248.Idx) :
    d1.resultIdx? j (val_main_v16 (F := F)) = some i
      ↔ 4096 * ((j 0).val / 32768) + (j 0).val % 32768 = (i 0).val := by
  have hj : (j 0).val < 8388608 := (j 0).isLt
  have key : (val_main_v16 (F := F) (ix2 ⟨(j 0).val, (j 0).isLt⟩ (0 : Fin 1))).toInt
      = ((4096 * ((j 0).val / 32768) + (j 0).val % 32768 : ℕ) : Int) := by
    rw [v16_word]
    exact toInt_pos ((j 0).val / 32768) ((j 0).val % 32768) (by omega) (by omega)
  rw [resultIdx?_eq_some_iff]
  constructor
  · intro h
    have a0 := h 0
    rw [d1_start, d1_window, key] at a0
    omega
  · intro h a
    match a with
    | ⟨0, _⟩ =>
      show d1.start j (val_main_v16 (F := F)) 0 + ((d1.window j 0 : ℕ) : Int) = (((i 0).val : ℕ) : Int)
      rw [d1_start, d1_window, key]
      omega

/-- Update `(c, b, t)` of the accumulating scatter lands on `(c, 4096 · b + t)`. -/
theorem d2_hits (j : S2x256x32768.Idx) (i : S2x1077248.Idx) :
    d2.resultIdx? j (val_main_v46 (F := F)) = some i
      ↔ (j 0).val = (i 0).val ∧ 4096 * (j 1).val + (j 2).val = (i 1).val := by
  have h1 : (j 1).val < 256 := (j 1).isLt
  have h2 : (j 2).val < 32768 := (j 2).isLt
  have key : (val_main_v46 (F := F) (ix3 ⟨(j 1).val, (j 1).isLt⟩ ⟨(j 2).val, (j 2).isLt⟩ (0 : Fin 1))).toInt
      = ((4096 * (j 1).val + (j 2).val : ℕ) : Int) := by
    rw [v46_word]
    exact toInt_pos (j 1).val (j 2).val h1 h2
  rw [resultIdx?_eq_some_iff]
  constructor
  · intro h
    have a0 := h 0
    have a1 := h 1
    rw [d2_start0, d2_window0] at a0
    rw [d2_start1, d2_window1, key] at a1
    constructor <;> omega
  · intro h a
    have e0 := h.1
    have e1 := h.2
    match a with
    | ⟨0, _⟩ =>
      show d2.start j (val_main_v46 (F := F)) 0 + ((d2.window j 0 : ℕ) : Int) = (((i 0).val : ℕ) : Int)
      rw [d2_start0, d2_window0]
      omega
    | ⟨1, _⟩ =>
      show d2.start j (val_main_v46 (F := F)) 1 + ((d2.window j 1 : ℕ) : Int) = (((i 1).val : ℕ) : Int)
      rw [d2_start1, d2_window1, key]
      omega

/-- The counts at a position: the number of windows that cover it. -/
theorem counts_apply (i : S1077248.Idx) :
    val_main_v18 (F := Ideal) i = (((W (i 0).val).card : ℝ) : EReal) :=
  counts_of_hits (fun j i => d1_hits j i) i

end Cert.ReferenceIdeal.RefValue

end
-- ==== Proof.RefOut.lean ====
/-
  The two results of the reference program, read at an index.  The accumulating scatter leaves at channel `c`, ring
  position `p` the sum, over the windows `b` that cover `p`, of the snapshot there divided by the number of covering
  windows plus one eighth of window `b`'s sample on `p`; the shares of a finite snapshot add back to the snapshot, so
  the accumulator is the overlap-add of the specification.  The first result is its first 1048576 positions under a
  leading axis of extent one; the second is its last 28672 positions followed by zeros.
-/
import proofs.«166608_j62680752718461_1_alg».proof.Proof.Gen.ReferenceIdeal.Read
import proofs.«166608_j62680752718461_1_alg».proof.Proof.Spec
import proofs.«166608_j62680752718461_1_alg».proof.Proof.RefLaw
import proofs.«166608_j62680752718461_1_alg».proof.Proof.RefIdx
import proofs.«166608_j62680752718461_1_alg».proof.Proof.RefCover
import proofs.«166608_j62680752718461_1_alg».proof.Proof.RefScatter
import proofs.«166608_j62680752718461_1_alg».proof.Proof.RefHits
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx
open scoped BigOperators

/-- One update of the accumulating scatter: at `(c, b, t)` with `4096 · b + t = q` it is the snapshot at `(c, q)` divided by
    the number of windows that cover `q`, plus one eighth of window `b`'s sample `t` of channel `c`. -/
theorem upd_at (x0 : Cert.Spec.SU.Idx → EReal) (x1 : Cert.Spec.SS.Idx → EReal) (j : S2x256x32768.Idx)
    (c : Fin 2) (q : ℕ) (hq : q < 1077248) (hc : (j 0).val = c.val) (hjq : 4096 * (j 1).val + (j 2).val = q) :
    val_main_v39 (F := Ideal) x0 x1 j
      = Ideal.div (x1 (ix2 c (⟨q, hq⟩ : Fin 1077248))) (((W q).card : ℝ) : EReal)
        + x0 (ix3 (⟨(j 1).val, (j 1).isLt⟩ : Fin 256) c (tOf q ⟨(j 1).val, (j 1).isLt⟩)) * ((1 / 8 : ℝ) : EReal) := by
  have hj0 : (j 0).val < 2 := (j 0).isLt
  have hj1 : (j 1).val < 256 := (j 1).isLt
  have hj2 : (j 2).val < 32768 := (j 2).isLt
  subst hjq
  rw [val_main_v39_apply, val_main_v38_apply, val_main_v28_apply, gather2_apply, val_main_v37_apply, val_main_v36_apply,
    gather1_apply, counts_apply, val_main_v26_apply, val_main_v27_apply, val_main_cst_5_apply]
  show Ideal.div _ _ + Ideal.div _ (Ideal.ofBits .f32 0x41000000#32) = _
  rw [Cert.Spec.ofBits_eight, div_eight]
  congr 1
  · congr 2
    funext a
    match a with
    | ⟨0, _⟩ => exact Fin.ext hc
    | ⟨1, _⟩ => rfl
  · congr 2
    funext a
    match a with
    | ⟨0, _⟩ => rfl
    | ⟨1, _⟩ => exact Fin.ext hc
    | ⟨2, _⟩ =>
      apply Fin.ext
      show (j 2).val = (4096 * (j 1).val + (j 2).val - 4096 * (j 1).val) % 32768
      omega

/-- The accumulator at channel `c`, position `p` is the overlap-add there. -/
theorem acc_apply (x0 : Cert.Spec.SU.Idx → EReal) (x1 : Cert.Spec.SS.Idx → EReal) (hfin : ∀ i, ∃ r : ℝ, x1 i = (r : EReal))
    (i : S2x1077248.Idx) :
    val_main_v47 (F := Ideal) x0 x1 i = Cert.Spec.ovl x0 x1 ⟨(i 0).val, idx2_lt0 i⟩ (i 1).val (idx2_lt1 i) := by
  have h0 : (i 0).val < 2 := (i 0).isLt
  have h1 : (i 1).val < 1077248 := (i 1).isLt
  rw [ovl_eq]
  obtain ⟨r, hr⟩ := hfin (ix2 (⟨(i 0).val, h0⟩ : Fin 2) (⟨(i 1).val, h1⟩ : Fin 1077248))
  show Ideal.hostScatterAdd d2 (val_main_v40 (F := Ideal)) (val_main_v46 (F := Ideal)) (val_main_v39 (F := Ideal) x0 x1) i = _
  unfold Ideal.hostScatterAdd
  rw [val_main_v40_apply, val_main_cst_8_apply]
  show Ideal.ofBits .f32 0x00000000#32 + _ = _
  rw [Cert.Spec.ofBits_zero, zero_add, hr,
    ← sum_share_add (W (i 1).val) (W_card_ne_zero _ h1) r
      (fun b => x0 (ix3 b (⟨(i 0).val, h0⟩ : Fin 2) (tOf (i 1).val b)) * ((1 / 8 : ℝ) : EReal))]
  refine Finset.sum_nbij' (fun j => (⟨(j 1).val, (j 1).isLt⟩ : Fin 256))
    (fun b => ix3 (⟨(i 0).val, h0⟩ : Fin 2) b (tOf (i 1).val b)) ?_ ?_ ?_ ?_ ?_
  · intro j hj
    have hj2 : (j 2).val < 32768 := (j 2).isLt
    obtain ⟨e0, e1⟩ := (d2_hits j i).mp (Finset.mem_filter.mp hj).2
    rw [mem_W]
    show 4096 * (j 1).val ≤ (i 1).val ∧ (i 1).val < 4096 * (j 1).val + 32768
    omega
  · intro b hb
    rw [mem_W] at hb
    refine Finset.mem_filter.mpr ⟨Finset.mem_univ _, (d2_hits _ i).mpr ⟨rfl, ?_⟩⟩
    show 4096 * b.val + (tOf (i 1).val b).val = (i 1).val
    rw [tOf_val]
    omega
  · intro j hj
    have hj2 : (j 2).val < 32768 := (j 2).isLt
    obtain ⟨e0, e1⟩ := (d2_hits j i).mp (Finset.mem_filter.mp hj).2
    funext a
    match a with
    | ⟨0, _⟩ => exact Fin.ext e0.symm
    | ⟨1, _⟩ => rfl
    | ⟨2, _⟩ =>
      apply Fin.ext
      show ((i 1).val - 4096 * (j 1).val) % 32768 = (j 2).val
      omega
  · intro b hb
    rfl
  · intro j hj
    obtain ⟨e0, e1⟩ := (d2_hits j i).mp (Finset.mem_filter.mp hj).2
    rw [upd_at x0 x1 j (⟨(i 0).val, h0⟩ : Fin 2) (i 1).val h1 e0 e1, hr]

/-- The first result is the overlap-add over the first 1048576 positions. -/
theorem ref_out0 (x0 : Cert.Spec.SU.Idx → EReal) (x1 : Cert.Spec.SS.Idx → EReal) (hfin : ∀ i, ∃ r : ℝ, x1 i = (r : EReal)) :
    Cert.ReferenceIdeal.Read.val_main_v52 (F := Ideal) x0 x1 = Cert.Spec.out0 x0 x1 := by
  funext j
  rw [val_main_v52_apply, val_main_v48_apply, acc_apply x0 x1 hfin]
  rfl

/-- The second result is the overlap-add over the last 28672 positions, then zeros. -/
theorem ref_out1 (x0 : Cert.Spec.SU.Idx → EReal) (x1 : Cert.Spec.SS.Idx → EReal) (hfin : ∀ i, ∃ r : ℝ, x1 i = (r : EReal)) :
    Cert.ReferenceIdeal.Read.val_main_v51 (F := Ideal) x0 x1 = Cert.Spec.out1 x0 x1 := by
  funext j
  have h0 : (j 0).val < 2 := (j 0).isLt
  have h1 : (j 1).val < 1077248 := (j 1).isLt
  unfold val_main_v51 Cert.Spec.out1
  by_cases h : (j 1).val < 28672
  · rw [dif_pos h]
    refine Eq.trans (concatenate_pair_apply_left (t := S2x1077248) (s₁ := S2x28672) (s₂ := S2x1048576) (1 : Fin 2)
      (val_main_v49 (F := Ideal) x0 x1) (val_main_v50 (F := Ideal)) concatenates_S2x28672_S2x1048576_S2x1077248_d1 j rfl
      (ix2 (⟨(j 0).val, h0⟩ : Fin 2) (⟨(j 1).val, h⟩ : Fin 28672))
      (fun b => by
        match b with
        | ⟨0, _⟩ => rfl
        | ⟨1, _⟩ => rfl)) ?_
    rw [val_main_v49_apply, acc_apply x0 x1 hfin]
  · rw [dif_neg h]
    refine Eq.trans (concatenate_pair_apply_right (t := S2x1077248) (s₁ := S2x28672) (s₂ := S2x1048576) (1 : Fin 2)
      (val_main_v49 (F := Ideal) x0 x1) (val_main_v50 (F := Ideal)) concatenates_S2x28672_S2x1048576_S2x1077248_d1 j rfl rfl
      (ix2 (⟨(j 0).val, h0⟩ : Fin 2) (⟨(j 1).val - 28672, by omega⟩ : Fin 1048576))
      (fun b hb => by
        match b with
        | ⟨0, _⟩ => rfl
        | ⟨1, _⟩ => exact absurd rfl hb)
      (by show (j 1).val - 28672 + 28672 = (j 1).val; omega)) ?_
    rw [val_main_v50_apply, val_main_cst_11_apply]
    exact Cert.Spec.ofBits_zero

end Cert.ReferenceIdeal.RefValue

end
-- ==== Proof.Finite.lean ====
/-
  From the printed precondition at the extended reals, every entry of the snapshot is a real number.

  The precondition is the conjunction of two `all`s: `|update| < +∞` and `|snapshot| < +∞`, each a reduction by `and`
  of an array of comparisons.  The second conjunct, read at an index, says `max x (-x) < ⊤`, which excludes both
  infinities.
-/
import proofs.«166608_j62680752718461_1_alg».proof.Pre_finite_inputs
import proofs.«166608_j62680752718461_1_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx

/-- The rank-0 shape has one index. -/
instance : Subsingleton Cert.Pre_finite_inputs.S_.Idx := ⟨fun a b => funext fun d => d.elim0⟩

/-- The pattern of `+∞` denotes `⊤`. -/
theorem ofBits_inf : Ideal.ofBits .f32 0x7F800000#32 = ⊤ := by
  simp [Ideal.ofBits, Ideal.ieee]

/-- An extended real whose absolute value is below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition, every entry of the snapshot is a real number. -/
theorem snapshot_real [Cert.Pre_finite_inputs.Facts]
    (x0 : FVec Ideal Cert.Pre_finite_inputs.S256x2x32768 .f32) (x1 : FVec Ideal Cert.Pre_finite_inputs.S2x1077248 .f32)
    (h : Cert.Pre_finite_inputs.fn (F := Ideal) x0 x1 = fun _ => 1#1) : ∀ i, ∃ r : ℝ, x1 i = (r : EReal) := by
  intro i
  have h0 := congrFun h ix0
  dsimp only [Cert.Pre_finite_inputs.fn, andi] at h0
  obtain ⟨-, h2⟩ := IntOp.andi_eq_one.1 h0
  have h3 := Host.reduce_andi_all _ _ _ _ _ h2 i
  have h4 : Ideal.cmp .olt (max (x1 i) (-(x1 i))) (Ideal.ofBits .f32 0x7F800000#32) = 1#1 := h3
  rw [ofBits_inf] at h4
  refine real_of_abs_lt_top (x1 i) ?_
  by_contra hn
  simp [Ideal.cmp, hn] at h4

end Cert.Finite

end
-- ==== Proof.lean ====
/-
  The certificate of the overlap-add kernel against its gather / scatter-add reference.

  Both programs compute, for each of two channels, the snapshot ring plus one eighth of every update window laid at its
  offset (windows of 32768 samples every 4096 positions), cut into a first result of 1048576 positions and a second of
  the remaining 28672 followed by zeros (`Cert.Spec.out0`, `Cert.Spec.out1`).  The kernel adds the windows into a
  VMEM accumulator that starts from the snapshot, tile by tile; the reference spreads the snapshot over the windows that
  cover each position, one share each, and scatter-adds the shares back with the updates, which returns the snapshot
  because it is finite and the shares are as many as the windows.  The three frames are the two kernel programs' runs
  (the body's obligation proved by hand, at both float instances) and the reference's run; the idealization rewrote
  nothing.
-/
import proofs.«166608_j62680752718461_1_alg».proof.Defs
import proofs.«166608_j62680752718461_1_alg».proof.Proof.Gen.Kernel
import proofs.«166608_j62680752718461_1_alg».proof.Proof.Gen.KernelIdeal
import proofs.«166608_j62680752718461_1_alg».proof.Proof.Gen.ReferenceIdeal
import proofs.«166608_j62680752718461_1_alg».proof.Proof.Gen.Pre_finite_inputs
import proofs.«166608_j62680752718461_1_alg».proof.Proof.Gen.ReferenceIdeal.Run
import proofs.«166608_j62680752718461_1_alg».proof.Proof.Gen.ReferenceIdeal.Read
import proofs.«166608_j62680752718461_1_alg».proof.Proof.Body
import proofs.«166608_j62680752718461_1_alg».proof.Proof.Bits.Body
import proofs.«166608_j62680752718461_1_alg».proof.Proof.KernelValue
import proofs.«166608_j62680752718461_1_alg».proof.Proof.RefOut
import proofs.«166608_j62680752718461_1_alg».proof.Proof.Finite
import Idealize.ShloMosaic.Adequacy
import Idealize.ShloMosaic.Init

noncomputable section

namespace Cert.Proof

open Idealize.ShloMosaic Idealize.SL.Sem

section Claims

attribute [local instance] Cert.Kernel.Gen.facts Cert.KernelIdeal.Gen.facts Cert.ReferenceIdeal.Gen.facts Cert.Pre_finite_inputs.Gen.facts

/-- The word-level kernel program runs to the end and leaves its arguments as they were. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference is host operations only: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end at the specification's two arrays of the arguments; the reference's side uses that the
    snapshot is finite. -/
theorem algebraic : Cert.algebraic_KernelIdeal_ReferenceIdeal := by
  intro m ρ m' ρ' hpre hagree
  refine ⟨fun c => Cert.Spec.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Spec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Hand.kernel_run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v52_eq, (hagree c).1, (hagree c).2]
    exact Cert.ReferenceIdeal.RefValue.ref_out0 _ _ (Cert.Finite.snapshot_real _ _ (hpre c))
  · rw [(h c).2.1, Cert.ReferenceIdeal.Read.val_main_v51_eq, (hagree c).1, (hagree c).2]
    exact Cert.ReferenceIdeal.RefValue.ref_out1 _ _ (Cert.Finite.snapshot_real _ _ (hpre c))

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
